-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x28x1024 : Shape := ⟨3, ![512, 28, 1024]⟩
abbrev S1024x2513 : Shape := ⟨2, ![1024, 2513]⟩
abbrev S2513 : Shape := ⟨1, ![2513]⟩
abbrev S1024x2048 : Shape := ⟨2, ![1024, 2048]⟩
abbrev S2048 : Shape := ⟨1, ![2048]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S512x28x1024 : S_.BroadcastsInDim S512x28x1024 (![] : Fin 0 → Fin S512x28x1024.rank)
  reducesTo_S512x28x1024_S_d0_1_2 : S512x28x1024.ReducesTo [0, 1, 2] S_
  h_S_ : 0 < S_.numel
  bcast_S_S1024x2513 : S_.BroadcastsInDim S1024x2513 (![] : Fin 0 → Fin S1024x2513.rank)
  reducesTo_S1024x2513_S_d0_1 : S1024x2513.ReducesTo [0, 1] S_
  bcast_S_S2513 : S_.BroadcastsInDim S2513 (![] : Fin 0 → Fin S2513.rank)
  reducesTo_S2513_S_d0 : S2513.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S512x2 .f32) (main_arg15 : FVec F S2 .f32) (main_v63 : IVec S_ 1) (main_v67 : IVec S_ 1) : IVec S_ 1 :=
  let main_v68 : IVec S_ 1 := andi main_v63 main_v67
  let main_v69 : FVec F S512x2 .f32 := Host.absf main_arg14
  let main_cst_26 : FVec F S_ .f32 := constant S_ .f32 0x7F800000#32
  let main_v70 : FVec F S512x2 .f32 := broadcastInDim S512x2 ![] bcast_S_S512x2 main_cst_26
  let main_v71 : IVec S512x2 1 := cmpf .olt main_v69 main_v70
  let main_c_27 : IVec S_ 1 := constantI S_ 1 1#1
  let main_v72 : IVec S_ 1 := (fun x v => Host.reduce IntOp.andi x v reducesTo_S512x2_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S1024 .f32) (main_arg12 : FVec F S1024x512 .f32) (main_arg13 : FVec F S512 .f32) (main_arg14 : FVec F S512x2 .f32) (main_arg15 : FVec F S2 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S2513 .f32) (main_arg8 : FVec F S1024x2048 .f32) (main_arg9 : FVec F S2048 .f32) (main_arg10 : FVec F S4096x1024 .f32) (main_arg11 : FVec F S1024 .f32) (main_arg12 : FVec F S1024x512 .f32) (main_arg13 : FVec F S512 .f32) (main_arg14 : FVec F S512x2 .f32) (main_arg15 : FVec F S2 .f32) (main_v33 : IVec S_ 1) : IVec S_ 1 :=
  let main_v34 : FVec F S2513 .f32 := Host.absf main_arg7
  let main_cst_12 : FVec F S_ .f32 := constant S_ .f32 0x7F800000#32
  let main_v35 : FVec F S2513 .f32 := broadcastInDim S2513 ![] bcast_S_S2513 main_cst_12
  let main_v36 : IVec S2513 1 := cmpf .olt main_v34 main_v35
  let main_c_13 : IVec S_ 1 := constantI S_ 1 1#1
  let main_v37 : IVec S_ 1 := (fun x v => Host.reduce IntOp.andi x v reducesTo_S2513_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_arg12 main_arg13 main_arg14 main_arg15 main_v48 main_v49 main_v50

def fn_part1 {F : FTy → Type} [FloatOps F] (main_arg4 : FVec F S1024x2048 .f32) (main_arg5 : FVec F S2048 .f32) (main_arg6 : FVec F S1024x2513 .f32) (main_arg7 : FVec F S2513 .f32) (main_arg8 : FVec F S1024x2048 .f32) (main_arg9 : FVec F S2048 .f32) (main_arg10 : FVec F S4096x1024 .f32) (main_arg11 : FVec F S1024 .f32) (main_arg12 : FVec F S1024x512 .f32) (main_arg13 : FVec F S512 .f32) (main_arg14 : FVec F S512x2 .f32) (main_arg15 : FVec F S2 .f32) (main_v13 : IVec S_ 1) (main_v16 : IVec S2513 1) : IVec S_ 1 :=
  let main_c_5 : IVec S_ 1 := constantI S_ 1 1#1
  let main_v17 : IVec S_ 1 := (fun x v => Host.reduce IntOp.andi x v reducesTo_S2513_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x2513 .f32 := Host.absf main_arg6
  let main_cst_10 : FVec F S_ .f32 := constant S_ .f32 0x7F800000#32
  let main_v30 : FVec F S1024x2513 .f32 := broadcastInDim S1024x2513 ![] bcast_S_S1024x2513 main_cst_10
  let main_v31 : IVec S1024x2513 1 := cmpf .olt main_v29 main_v30
  let main_c_11 : IVec S_ 1 := constantI S_ 1 1#1
  let main_v32 : IVec S_ 1 := (fun x v => Host.reduce IntOp.andi x v reducesTo_S1024x2513_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S512x28x1024 .f32) (main_arg1 : FVec F S512x28x1024 .f32) (main_arg2 : FVec F S1024x2513 .f32) (main_arg3 : FVec F S2513 .f32) (main_arg4 : FVec F S1024x2048 .f32) (main_arg5 : FVec F S2048 .f32) (main_arg6 : FVec F S1024x2513 .f32) (main_arg7 : FVec F S2513 .f32) (main_arg8 : FVec F S1024x2048 .f32) (main_arg9 : FVec F S2048 .f32) (main_arg10 : FVec F S4096x1024 .f32) (main_arg11 : FVec F S1024 .f32) (main_arg12 : FVec F S1024x512 .f32) (main_arg13 : FVec F S512 .f32) (main_arg14 : FVec F S512x2 .f32) (main_arg15 : FVec F S2 .f32) : IVec S_ 1 :=
  let main_v0 : FVec F S512x28x1024 .f32 := Host.absf main_arg0
  let main_cst : FVec F S_ .f32 := constant S_ .f32 0x7F800000#32
  let main_v1 : FVec F S512x28x1024 .f32 := broadcastInDim S512x28x1024 ![] bcast_S_S512x28x1024 main_cst
  let main_v2 : IVec S512x28x1024 1 := cmpf .olt main_v0 main_v1
  let main_c : IVec S_ 1 := constantI S_ 1 1#1
  let main_v3 : IVec S_ 1 := (fun x v => Host.reduce IntOp.andi x v reducesTo_S512x28x1024_S_d0_1_2 h_S_) main_v2 main_c
  let main_v4 : FVec F S512x28x1024 .f32 := Host.absf main_arg1
  let main_cst_0 : FVec F S_ .f32 := constant S_ .f32 0x7F800000#32
  let main_v5 : FVec F S512x28x1024 .f32 := broadcastInDim S512x28x1024 ![] bcast_S_S512x28x1024 main_cst_0
  let main_v6 : IVec S512x28x1024 1 := cmpf .olt main_v4 main_v5
  let main_c_1 : IVec S_ 1 := constantI S_ 1 1#1
  let main_v7 : IVec S_ 1 := (fun x v => Host.reduce IntOp.andi x v reducesTo_S512x28x1024_S_d0_1_2 h_S_) main_v6 main_c_1
  let main_v8 : IVec S_ 1 := andi main_v3 main_v7
  let main_v9 : FVec F S1024x2513 .f32 := Host.absf main_arg2
  let main_cst_2 : FVec F S_ .f32 := constant S_ .f32 0x7F800000#32
  let main_v10 : FVec F S1024x2513 .f32 := broadcastInDim S1024x2513 ![] bcast_S_S1024x2513 main_cst_2
  let main_v11 : IVec S1024x2513 1 := cmpf .olt main_v9 main_v10
  let main_c_3 : IVec S_ 1 := constantI S_ 1 1#1
  let main_v12 : IVec S_ 1 := (fun x v => Host.reduce IntOp.andi x v reducesTo_S1024x2513_S_d0_1 h_S_) main_v11 main_c_3
  let main_v13 : IVec S_ 1 := andi main_v8 main_v12
  let main_v14 : FVec F S2513 .f32 := Host.absf main_arg3
  let main_cst_4 : FVec F S_ .f32 := constant S_ .f32 0x7F800000#32
  let main_v15 : FVec F S2513 .f32 := broadcastInDim S2513 ![] bcast_S_S2513 main_cst_4
  let main_v16 : IVec S2513 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S512x28x1024 : Shape := ⟨3, ![512, 28, 1024]⟩
abbrev S1024x2513 : Shape := ⟨2, ![1024, 2513]⟩
abbrev S2513 : Shape := ⟨1, ![2513]⟩
abbrev S1024x2048 : Shape := ⟨2, ![1024, 2048]⟩
abbrev S2048 : Shape := ⟨1, ![2048]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S512x1x1024 : Shape := ⟨3, ![512, 1, 1024]⟩
abbrev S512x1024 : Shape := ⟨2, ![512, 1024]⟩
abbrev S512x4x1024 : Shape := ⟨3, ![512, 4, 1024]⟩
abbrev S2048x1024 : Shape := ⟨2, ![2048, 1024]⟩
abbrev S2048x2513 : Shape := ⟨2, ![2048, 2513]⟩
abbrev S64x1024 : Shape := ⟨2, ![64, 1024]⟩
abbrev S64x2513 : Shape := ⟨2, ![64, 2513]⟩
abbrev S1x2513 : Shape := ⟨2, ![1, 2513]⟩
abbrev S64x2048 : Shape := ⟨2, ![64, 2048]⟩
abbrev S1x2048 : Shape := ⟨2, ![1, 2048]⟩
abbrev S1x1024 : Shape := ⟨2, ![1, 1024]⟩
abbrev S64x512 : Shape := ⟨2, ![64, 512]⟩
abbrev S1x512 : Shape := ⟨2, ![1, 512]⟩
abbrev S64x2 : Shape := ⟨2, ![64, 2]⟩
abbrev S1x2 : Shape := ⟨2, ![1, 2]⟩
abbrev S64 : Shape := ⟨1, ![64]⟩
abbrev S64x1 : Shape := ⟨2, ![64, 1]⟩
abbrev S512x4x2513 : Shape := ⟨3, ![512, 4, 2513]⟩

abbrev nBuf : Space → Nat
  | .hbm => 58
  | .vmem => 21
  | .smem => 0
  | _ => 0

abbrev bufTy : (tb : Table) → Fin (tcTables nBuf tb) → BufTy
  | .hbm, ⟨0, _⟩ => ⟨S512x28x1024, .f32⟩
  | .hbm, ⟨1, _⟩ => ⟨S512x28x1024, .f32⟩
  | .hbm, ⟨2, _⟩ => ⟨S1024x2513, .f32⟩
  | .hbm, ⟨3, _⟩ => ⟨S2513, .f32⟩
  | .hbm, ⟨4, _⟩ => ⟨S1024x2048, .f32⟩
  | .hbm, ⟨5, _⟩ => ⟨S2048, .f32⟩
  | .hbm, ⟨6, _⟩ => ⟨S1024x2513, .f32⟩
  | .hbm, ⟨7, _⟩ => ⟨S2513, .f32⟩
  | .hbm, ⟨8, _⟩ => ⟨S1024x2048, .f32⟩
  | .hbm, ⟨9, _⟩ => ⟨S2048, .f32⟩
  | .hbm, ⟨10, _⟩ => ⟨S4096x1024, .f32⟩
  | .hbm, ⟨11, _⟩ => ⟨S1024, .f32⟩
  | .hbm, ⟨12, _⟩ => ⟨S1024x512, .f32⟩
  | .hbm, ⟨13, _⟩ => ⟨S512, .f32⟩
  | .hbm, ⟨14, _⟩ => ⟨S512x2, .f32⟩
  | .hbm, ⟨15, _⟩ => ⟨S2, .f32⟩
  | .hbm, ⟨16, _⟩ => ⟨S512x1x1024, .f32⟩
  | .hbm, ⟨17, _⟩ => ⟨S512x1024, .f32⟩
  | .hbm, ⟨18, _⟩ => ⟨S512x1x1024, .f32⟩
  | .hbm, ⟨19, _⟩ => ⟨S512x1024, .f32⟩
  | .hbm, ⟨20, _⟩ => ⟨S512x1x1024, .f32⟩
  | .hbm, ⟨21, _⟩ => ⟨S512x1024, .f32⟩
  | .hbm, ⟨22, _⟩ => ⟨S512x1x1024, .f32⟩
  | .hbm, ⟨23, _⟩ => ⟨S512x1024, .f32⟩
  | .hbm, ⟨24, _⟩ => ⟨S512x1x1024, .f32⟩
  | .hbm, ⟨25, _⟩ => ⟨S512x1x1024, .f32⟩
  | .hbm, ⟨26, _⟩ => ⟨S512x1x1024, .f32⟩
  | .hbm, ⟨27, _⟩ => ⟨S512x1x1024, .f32⟩
  | .hbm, ⟨28, _⟩ => ⟨S512x4x1024, .f32⟩
  | .hbm, ⟨29, _⟩ => ⟨S512x1x1024, .f32⟩
  | .hbm, ⟨30, _⟩ => ⟨S512x1024, .f32⟩
  | .hbm, ⟨31, _⟩ => ⟨S512x1x1024, .f32⟩
  | .hbm, ⟨32, _⟩ => ⟨S512x1024, .f32⟩
  | .hbm, ⟨33, _⟩ => ⟨S512x1x1024, .f32⟩
  | .hbm, ⟨34, _⟩ => ⟨S512x1024, .f32⟩
  | .hbm, ⟨35, _⟩ => ⟨S512x1x1024, .f32⟩
  | .hbm, ⟨36, _⟩ => ⟨S512x1024, .f32⟩
  | .hbm, ⟨37, _⟩ => ⟨S512x1x1024, .f32⟩
  | .hbm, ⟨38, _⟩ => ⟨S512x1x1024, .f32⟩
  | .hbm, ⟨39, _⟩ => ⟨S512x1x1024, .f32⟩
  | .hbm, ⟨40, _⟩ => ⟨S512x1x1024, .f32⟩
  | .hbm, ⟨41, _⟩ => ⟨S512x4x1024, .f32⟩
  | .hbm, ⟨42, _⟩ => ⟨S2048x1024, .f32⟩
  | .hbm, ⟨43, _⟩ => ⟨S2048x1024, .bf16⟩
  | .hbm, ⟨44, _⟩ => ⟨S2048x1024, .f32⟩
  | .hbm, ⟨45, _⟩ => ⟨S2048x1024, .bf16⟩
  | .hbm, ⟨46, _⟩ => ⟨S1024x2513, .bf16⟩
  | .hbm, ⟨47, _⟩ => ⟨S1024x2048, .bf16⟩
  | .hbm, ⟨48, _⟩ => ⟨S1024x2513, .bf16⟩
  | .hbm, ⟨49, _⟩ => ⟨S1024x2048, .bf16⟩
  | .hbm, ⟨50, _⟩ => ⟨S2048x1024, .f32⟩
  | .hbm, ⟨51, _⟩ => ⟨S2048x1024, .bf16⟩
  | .hbm, ⟨52, _⟩ => ⟨S2048x1024, .f32⟩
  | .hbm, ⟨53, _⟩ => ⟨S2048x1024, .bf16⟩
  | .hbm, ⟨54, _⟩ => ⟨S1024x512, .bf16⟩
  | .hbm, ⟨55, _⟩ => ⟨S512x2, .bf16⟩
  | .hbm, ⟨56, _⟩ => ⟨S2048x2513, .f32⟩
  | .hbm, ⟨57, _⟩ => ⟨S512x4x2513, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S1024x2513, .bf16⟩
  | .local _ .vmem, ⟨5, _⟩ => ⟨S2513, .f32⟩
  | .local _ .vmem, ⟨6, _⟩ => ⟨S1024x2048, .bf16⟩
  | .local _ .vmem, ⟨7, _⟩ => ⟨S2048, .f32⟩
  | .local _ .vmem, ⟨8, _⟩ => ⟨S1024x2513, .bf16⟩
  | .local _ .vmem, ⟨9, _⟩ => ⟨S2513, .f32⟩
  | .local _ .vmem, ⟨10, _⟩ => ⟨S1024x2048, .bf16⟩
  | .local _ .vmem, ⟨11, _⟩ => ⟨S2048, .f32⟩
  | .local _ .vmem, ⟨12, _⟩ => ⟨S2048x1024, .bf16⟩
  | .local _ .vmem, ⟨13, _⟩ => ⟨S2048x1024, .bf16⟩
  | .local _ .vmem, ⟨14, _⟩ => ⟨S1024, .f32⟩
  | .local _ .vmem, ⟨15, _⟩ => ⟨S1024x512, .bf16⟩
  | .local _ .vmem, ⟨16, _⟩ => ⟨S512, .f32⟩
  | .local _ .vmem, ⟨17, _⟩ => ⟨S512x2, .bf16⟩
  | .local _ .vmem, ⟨18, _⟩ => ⟨S2, .f32⟩
  | .local _ .vmem, ⟨19, _⟩ => ⟨S64x2513, .f32⟩
  | .local _ .vmem, ⟨20, _⟩ => ⟨S64x2513, .f32⟩
  | _, _ => ⟨S512x28x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2513 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2513 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2513 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2513 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x2 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S64x2513 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S512x28x1024_S512x1x1024_0_12_0 : S512x28x1024.Slices ![0, 12, 0] S512x1x1024
  shapeCasts_S512x1x1024_S512x1024 : S512x1x1024.ShapeCasts S512x1024
  slices_S512x28x1024_S512x1x1024_0_16_0 : S512x28x1024.Slices ![0, 16, 0] S512x1x1024
  slices_S512x28x1024_S512x1x1024_0_20_0 : S512x28x1024.Slices ![0, 20, 0] S512x1x1024
  slices_S512x28x1024_S512x1x1024_0_24_0 : S512x28x1024.Slices ![0, 24, 0] S512x1x1024
  bcast_S512x1024_S512x1x1024_0_2 : S512x1024.BroadcastsInDim S512x1x1024 (![0, 2] : Fin 2 → Fin S512x1x1024.rank)
  concatenates_S512x1x1024_S512x1x1024_S512x1x1024_S512x1x1024_S512x4x1024_d1 : Shape.Concatenates [S512x1x1024, S512x1x1024, S512x1x1024, S512x1x1024] S512x4x1024 1
  shapeCasts_S512x4x1024_S2048x1024 : S512x4x1024.ShapeCasts S2048x1024
  bitsLt_bf16_f32 : FTy.bits .bf16 < FTy.bits .f32
  slices_S4096x1024_S2048x1024_0_0 : S4096x1024.Slices ![0, 0] S2048x1024
  slices_S4096x1024_S2048x1024_2048_0 : S4096x1024.Slices ![2048, 0] S2048x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x2513_S1024x2513_0_0 : ∀ a, (![0, 0] : Fin 2 → Nat) a + S1024x2513.size a ≤ S1024x2513.size a
  h_S1024x2513 : 0 < S1024x2513.numel
  shapeCasts_S1024x2513_S1024x2513 : S1024x2513.ShapeCasts S1024x2513
  inb_S2513_S2513_0 : ∀ a, (![0] : Fin 1 → Nat) a + S2513.size a ≤ S2513.size a
  h_S2513 : 0 < S2513.numel
  shapeCasts_S2513_S1x2513 : S2513.ShapeCasts S1x2513
  broadcasts_S1x2513_S64x2513 : S1x2513.Broadcasts S64x2513
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S64x2048 : S1x2048.Broadcasts S64x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  reduces_S64x2_S64 : S64x2.Reduces [1] S64
  shapeCasts_S64_S64x1 : S64.ShapeCasts S64x1
  broadcasts_S64x1_S64x2 : S64x1.Broadcasts S64x2
  slices_S64x2_o0_0_S64x1 : S64x2.Slices ![0, 0] S64x1
  broadcasts_S64x1_S64x2513 : S64x1.Broadcasts S64x2513
  slices_S64x2_o0_1_S64x1 : S64x2.Slices ![0, 1] S64x1
  inb_S64x2513_S64x2513_0_0 : ∀ a, (![0, 0] : Fin 2 → Nat) a + S64x2513.size a ≤ S64x2513.size a
  h_S64x2513 : 0 < S64x2513.numel
  shapeCasts_S2048x2513_S512x4x2513 : S2048x2513.ShapeCasts S512x4x2513
  dot_S64x1024_S1024x2513_S64x2513_1_0_0_1_n_n_wf : DotDims.WF S64x1024 S1024x2513 S64x2513 [1] [0] [0] [1] [] []
  dot_S64x1024_S1024x2048_S64x2048_1_0_0_1_n_n_wf : DotDims.WF S64x1024 S1024x2048 S64x2048 [1] [0] [0] [1] [] []
  dot_S64x2048_S2048x1024_S64x1024_1_0_0_1_n_n_wf : DotDims.WF S64x2048 S2048x1024 S64x1024 [1] [0] [0] [1] [] []
  dot_S64x1024_S1024x512_S64x512_1_0_0_1_n_n_wf : DotDims.WF S64x1024 S1024x512 S64x512 [1] [0] [0] [1] [] []
  dot_S64x512_S512x2_S64x2_1_0_0_1_n_n_wf : DotDims.WF S64x512 S512x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S2048x1024.size a
  hwx0_0 : ∀ i : grid0.Coords, EltTy.bits .bf16 = 32 ∨ (Rect.block (s := S2048x1024) S64x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S2048x1024.size a
  hwx0_1 : ∀ i : grid0.Coords, EltTy.bits .bf16 = 32 ∨ (Rect.block (s := S2048x1024) S64x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2513.size a ≤ S1024x2513.size a
  hwx0_2 : ∀ i : grid0.Coords, EltTy.bits .bf16 = 32 ∨ (Rect.block (s := S1024x2513) S1024x2513.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2513.size a ≤ S2513.size a
  hwx0_3 : ∀ i : grid0.Coords, EltTy.bits .f32 = 32 ∨ (Rect.block (s := S2513) S2513.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2513.size a ≤ S1024x2513.size a
  hwx0_6 : ∀ i : grid0.Coords, EltTy.bits .bf16 = 32 ∨ (Rect.block (s := S1024x2513) S1024x2513.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2513.size a ≤ S2513.size a
  hwx0_7 : ∀ i : grid0.Coords, EltTy.bits .f32 = 32 ∨ (Rect.block (s := S2513) S2513.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S1024x2048.size a
  hwx0_8 : ∀ i : grid0.Coords, EltTy.bits .bf16 = 32 ∨ (Rect.block (s := S1024x2048) S1024x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x1024.size a ≤ S2048x1024.size a
  hwx0_10 : ∀ i : grid0.Coords, EltTy.bits .bf16 = 32 ∨ (Rect.block (s := S2048x1024) S2048x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S1024x512.size a
  hwx0_13 : ∀ i : grid0.Coords, EltTy.bits .bf16 = 32 ∨ (Rect.block (s := S1024x512) S1024x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x2.size a ≤ S512x2.size a
  hwx0_15 : ∀ i : grid0.Coords, EltTy.bits .bf16 = 32 ∨ (Rect.block (s := S512x2) S512x2.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x2513.size a ≤ S2048x2513.size a
  hwx0_17 : ∀ i : grid0.Coords, EltTy.bits .f32 = 32 ∨ (Rect.block (s := S2048x2513) S64x2513.size (cc0_transform_17 i) (hinb0_17 i)).WholeWords (EltTy.packing .f32)

variable [Facts₀]

def dot_S64x1024_S1024x2513_S64x2513_1_0_0_1_n_n : DotDims S64x1024 S1024x2513 S64x2513 where
  lhsContracting := [1]
  rhsContracting := [0]
  lhsNonContracting := [0]
  rhsNonContracting := [1]
  lhsBatch := []
  rhsBatch := []
  wf := dot_S64x1024_S1024x2513_S64x2513_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x2_S64x2_1_0_0_1_n_n : DotDims S64x512 S512x2 S64x2 where
  lhsContracting := [1]
  rhsContracting := [0]
  lhsNonContracting := [0]
  rhsNonContracting := [1]
  lhsBatch := []
  rhsBatch := []
  wf := dot_S64x512_S512x2_S64x2_1_0_0_1_n_n_wf

abbrev win0_0 : Pipeline.Window sig grid0 :=
  Pipeline.Window.ofSpec (Memref.whole main_v27) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x2513.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2513.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1024x2513.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2513.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1024x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S2048x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S1024x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S512x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v40) S64x2513.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S512x28x1024 : Shape := ⟨3, ![512, 28, 1024]⟩
abbrev S1024x2513 : Shape := ⟨2, ![1024, 2513]⟩
abbrev S2513 : Shape := ⟨1, ![2513]⟩
abbrev S1024x2048 : Shape := ⟨2, ![1024, 2048]⟩
abbrev S2048 : Shape := ⟨1, ![2048]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S512x16x1024 : Shape := ⟨3, ![512, 16, 1024]⟩
abbrev S512x16x2513 : Shape := ⟨3, ![512, 16, 2513]⟩
abbrev S1x1x2513 : Shape := ⟨3, ![1, 1, 2513]⟩
abbrev S512x16x2048 : Shape := ⟨3, ![512, 16, 2048]⟩
abbrev S1x1x2048 : Shape := ⟨3, ![1, 1, 2048]⟩
abbrev S4 : Shape := ⟨1, ![4]⟩
abbrev S_ : Shape := ⟨0, ![]⟩
abbrev S4x1 : Shape := ⟨2, ![4, 1]⟩
abbrev S512x4x2513 : Shape := ⟨3, ![512, 4, 2513]⟩
abbrev S512x4x2048 : Shape := ⟨3, ![512, 4, 2048]⟩
abbrev S7 : Shape := ⟨1, ![7]⟩
abbrev S7x1 : Shape := ⟨2, ![7, 1]⟩
abbrev S512x7x1024 : Shape := ⟨3, ![512, 7, 1024]⟩
abbrev S512x7x2513 : Shape := ⟨3, ![512, 7, 2513]⟩
abbrev S512x7x2048 : Shape := ⟨3, ![512, 7, 2048]⟩
abbrev S512x4x4096 : Shape := ⟨3, ![512, 4, 4096]⟩
abbrev S2048x4096 : Shape := ⟨2, ![2048, 4096]⟩
abbrev S2048x1024 : Shape := ⟨2, ![2048, 1024]⟩
abbrev S1x1024 : Shape := ⟨2, ![1, 1024]⟩
abbrev S2048x512 : Shape := ⟨2, ![2048, 512]⟩
abbrev S1x512 : Shape := ⟨2, ![1, 512]⟩
abbrev S2048x2 : Shape := ⟨2, ![2048, 2]⟩
abbrev S1x2 : Shape := ⟨2, ![1, 2]⟩
abbrev S2048x1 : Shape := ⟨2, ![2048, 1]⟩
abbrev S512x4x2 : Shape := ⟨3, ![512, 4, 2]⟩
abbrev S512x4x1 : Shape := ⟨3, ![512, 4, 1]⟩

abbrev nBuf : Space → Nat
  | .hbm => 118
  | .vmem => 0
  | .smem => 0
  | _ => 0

abbrev bufTy : (tb : Table) → Fin (tcTables nBuf tb) → BufTy
  | .hbm, ⟨0, _⟩ => ⟨S512x28x1024, .f32⟩
  | .hbm, ⟨1, _⟩ => ⟨S512x28x1024, .f32⟩
  | .hbm, ⟨2, _⟩ => ⟨S1024x2513, .f32⟩
  | .hbm, ⟨3, _⟩ => ⟨S2513, .f32⟩
  | .hbm, ⟨4, _⟩ => ⟨S1024x2048, .f32⟩
  | .hbm, ⟨5, _⟩ => ⟨S2048, .f32⟩
  | .hbm, ⟨6, _⟩ => ⟨S1024x2513, .f32⟩
  | .hbm, ⟨7, _⟩ => ⟨S2513, .f32⟩
  | .hbm, ⟨8, _⟩ => ⟨S1024x2048, .f32⟩
  | .hbm, ⟨9, _⟩ => ⟨S2048, .f32⟩
  | .hbm, ⟨10, _⟩ => ⟨S4096x1024, .f32⟩
  | .hbm, ⟨11, _⟩ => ⟨S1024, .f32⟩
  | .hbm, ⟨12, _⟩ => ⟨S1024x512, .f32⟩
  | .hbm, ⟨13, _⟩ => ⟨S512, .f32⟩
  | .hbm, ⟨14, _⟩ => ⟨S512x2, .f32⟩
  | .hbm, ⟨15, _⟩ => ⟨S2, .f32⟩
  | .hbm, ⟨16, _⟩ => ⟨S512x16x1024, .f32⟩
  | .hbm, ⟨17, _⟩ => ⟨S512x16x2513, .f32⟩
  | .hbm, ⟨18, _⟩ => ⟨S1x1x2513, .f32⟩
  | .hbm, ⟨19, _⟩ => ⟨S512x16x2513, .f32⟩
  | .hbm, ⟨20, _⟩ => ⟨S512x16x2513, .f32⟩
  | .hbm, ⟨21, _⟩ => ⟨S512x16x2048, .f32⟩
  | .hbm, ⟨22, _⟩ => ⟨S1x1x2048, .f32⟩
  | .hbm, ⟨23, _⟩ => ⟨S512x16x2048, .f32⟩
  | .hbm, ⟨24, _⟩ => ⟨S512x16x2048, .f32⟩
  | .hbm, ⟨25, _⟩ => ⟨S4, .i32⟩
  | .hbm, ⟨26, _⟩ => ⟨S_, .i32⟩
  | .hbm, ⟨27, _⟩ => ⟨S4, .i32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i1⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S4, .i32⟩
  | .hbm, ⟨39, _⟩ => ⟨S4x1, .i32⟩
  | .hbm, ⟨40, _⟩ => ⟨S512x4x2513, .f32⟩
  | .hbm, ⟨41, _⟩ => ⟨S_, .i32⟩
  | .hbm, ⟨42, _⟩ => ⟨S4, .i32⟩
  | .hbm, ⟨43, _⟩ => ⟨S4, .i1⟩
  | .hbm, ⟨44, _⟩ => ⟨S_, .i32⟩
  | .hbm, ⟨45, _⟩ => ⟨S4, .i32⟩
  | .hbm, ⟨46, _⟩ => ⟨S4, .i32⟩
  | .hbm, ⟨47, _⟩ => ⟨S4, .i32⟩
  | .hbm, ⟨48, _⟩ => ⟨S4x1, .i32⟩
  | .hbm, ⟨49, _⟩ => ⟨S512x4x2048, .f32⟩
  | .hbm, ⟨50, _⟩ => ⟨S7, .i32⟩
  | .hbm, ⟨51, _⟩ => ⟨S_, .i32⟩
  | .hbm, ⟨52, _⟩ => ⟨S7, .i32⟩
  | .hbm, ⟨53, _⟩ => ⟨S7, .i32⟩
  | .hbm, ⟨54, _⟩ => ⟨S_, .i32⟩
  | .hbm, ⟨55, _⟩ => ⟨S7, .i32⟩
  | .hbm, ⟨56, _⟩ => ⟨S7, .i32⟩
  | .hbm, ⟨57, _⟩ => ⟨S_, .i32⟩
  | .hbm, ⟨58, _⟩ => ⟨S7, .i32⟩
  | .hbm, ⟨59, _⟩ => ⟨S7, .i1⟩
  | .hbm, ⟨60, _⟩ => ⟨S_, .i32⟩
  | .hbm, ⟨61, _⟩ => ⟨S7, .i32⟩
  | .hbm, ⟨62, _⟩ => ⟨S7, .i32⟩
  | .hbm, ⟨63, _⟩ => ⟨S7, .i32⟩
  | .hbm, ⟨64, _⟩ => ⟨S7x1, .i32⟩
  | .hbm, ⟨65, _⟩ => ⟨S512x7x1024, .f32⟩
  | .hbm, ⟨66, _⟩ => ⟨S512x7x2513, .f32⟩
  | .hbm, ⟨67, _⟩ => ⟨S1x1x2513, .f32⟩
  | .hbm, ⟨68, _⟩ => ⟨S512x7x2513, .f32⟩
  | .hbm, ⟨69, _⟩ => ⟨S512x7x2513, .f32⟩
  | .hbm, ⟨70, _⟩ => ⟨S512x7x2048, .f32⟩
  | .hbm, ⟨71, _⟩ => ⟨S1x1x2048, .f32⟩
  | .hbm, ⟨72, _⟩ => ⟨S512x7x2048, .f32⟩
  | .hbm, ⟨73, _⟩ => ⟨S512x7x2048, .f32⟩
  | .hbm, ⟨74, _⟩ => ⟨S512x4x2513, .f32⟩
  | .hbm, ⟨75, _⟩ => ⟨S512x4x2048, .f32⟩
  | .hbm, ⟨76, _⟩ => ⟨S512x4x4096, .f32⟩
  | .hbm, ⟨77, _⟩ => ⟨S2048x4096, .f32⟩
  | .hbm, ⟨78, _⟩ => ⟨S2048x1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S2048x512, .f32⟩
  | .hbm, ⟨86, _⟩ => ⟨S1x512, .f32⟩
  | .hbm, ⟨87, _⟩ => ⟨S2048x512, .f32⟩
  | .hbm, ⟨88, _⟩ => ⟨S2048x512, .f32⟩
  | .hbm, ⟨89, _⟩ => ⟨S_, .f32⟩
  | .hbm, ⟨90, _⟩ => ⟨S2048x512, .f32⟩
  | .hbm, ⟨91, _⟩ => ⟨S2048x512, .f32⟩
  | .hbm, ⟨92, _⟩ => ⟨S2048x2, .f32⟩
  | .hbm, ⟨93, _⟩ => ⟨S1x2, .f32⟩
  | .hbm, ⟨94, _⟩ => ⟨S2048x2, .f32⟩
  | .hbm, ⟨95, _⟩ => ⟨S2048x2, .f32⟩
  | .hbm, ⟨96, _⟩ => ⟨S_, .f32⟩
  | .hbm, ⟨97, _⟩ => ⟨S2048, .f32⟩
  | .hbm, ⟨98, _⟩ => ⟨S_, .f32⟩
  | .hbm, ⟨99, _⟩ => ⟨S2048, .f32⟩
  | .hbm, ⟨100, _⟩ => ⟨S2048, .f32⟩
  | .hbm, ⟨101, _⟩ => ⟨S2048x1, .f32⟩
  | .hbm, ⟨102, _⟩ => ⟨S2048x2, .f32⟩
  | .hbm, ⟨103, _⟩ => ⟨S2048x2, .f32⟩
  | .hbm, ⟨104, _⟩ => ⟨S2048x2, .f32⟩
  | .hbm, ⟨105, _⟩ => ⟨S_, .f32⟩
  | .hbm, ⟨106, _⟩ => ⟨S2048, .f32⟩
  | .hbm, ⟨107, _⟩ => ⟨S2048x1, .f32⟩
  | .hbm, ⟨108, _⟩ => ⟨S2048x2, .f32⟩
  | .hbm, ⟨109, _⟩ => ⟨S2048x2, .f32⟩
  | .hbm, ⟨110, _⟩ => ⟨S512x4x2, .f32⟩
  | .hbm, ⟨111, _⟩ => ⟨S512x4x1, .f32⟩
  | .hbm, ⟨112, _⟩ => ⟨S512x4x2513, .f32⟩
  | .hbm, ⟨113, _⟩ => ⟨S512x4x2513, .f32⟩
  | .hbm, ⟨114, _⟩ => ⟨S512x4x1, .f32⟩
  | .hbm, ⟨115, _⟩ => ⟨S512x4x2513, .f32⟩
  | .hbm, ⟨116, _⟩ => ⟨S512x4x2513, .f32⟩
  | .hbm, ⟨117, _⟩ => ⟨S512x4x2513, .f32⟩
  | _, _ => ⟨S512x28x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_cst : Ref sig .tc := ⟨.hbm, 89, rfl⟩
abbrev main_call1_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst : Ref sig .tc := ⟨.hbm, 96, rfl⟩
abbrev main_v66 : Ref sig .tc := ⟨.hbm, 97, rfl⟩
abbrev main_cst_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_10 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S512x28x1024_S512x16x1024_0_12_0 : S512x28x1024.Slices ![0, 12, 0] S512x16x1024
  bcast_S2513_S1x1x2513_2 : S2513.BroadcastsInDim S1x1x2513 (![2] : Fin 1 → Fin S1x1x2513.rank)
  bcast_S1x1x2513_S512x16x2513_0_1_2 : S1x1x2513.BroadcastsInDim S512x16x2513 (![0, 1, 2] : Fin 3 → Fin S512x16x2513.rank)
  bcast_S2048_S1x1x2048_2 : S2048.BroadcastsInDim S1x1x2048 (![2] : Fin 1 → Fin S1x1x2048.rank)
  bcast_S1x1x2048_S512x16x2048_0_1_2 : S1x1x2048.BroadcastsInDim S512x16x2048 (![0, 1, 2] : Fin 3 → Fin S512x16x2048.rank)
  bcast_S_S4 : S_.BroadcastsInDim S4 (![] : Fin 0 → Fin S4.rank)
  bcast_S4_S4x1_0 : S4.BroadcastsInDim S4x1 (![0] : Fin 1 → Fin S4x1.rank)
  bcast_S_S7 : S_.BroadcastsInDim S7 (![] : Fin 0 → Fin S7.rank)
  bcast_S7_S7x1_0 : S7.BroadcastsInDim S7x1 (![0] : Fin 1 → Fin S7x1.rank)
  bcast_S1x1x2513_S512x7x2513_0_1_2 : S1x1x2513.BroadcastsInDim S512x7x2513 (![0, 1, 2] : Fin 3 → Fin S512x7x2513.rank)
  bcast_S1x1x2048_S512x7x2048_0_1_2 : S1x1x2048.BroadcastsInDim S512x7x2048 (![0, 1, 2] : Fin 3 → Fin S512x7x2048.rank)
  slices_S512x7x2513_S512x4x2513_0_3_0 : S512x7x2513.Slices ![0, 3, 0] S512x4x2513
  slices_S512x7x2048_S512x4x2048_0_3_0 : S512x7x2048.Slices ![0, 3, 0] S512x4x2048
  concatenates_S512x4x2048_S512x4x2048_S512x4x4096_d2 : Shape.Concatenates [S512x4x2048, S512x4x2048] S512x4x4096 2
  shapeCasts_S512x4x4096_S2048x4096 : S512x4x4096.ShapeCasts S2048x4096
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  reducesTo_S2048x2_S2048_d1 : S2048x2.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2_0_1 : S2048x1.BroadcastsInDim S2048x2 (![0, 1] : Fin 2 → Fin S2048x2.rank)
  shapeCasts_S2048x2_S512x4x2 : S2048x2.ShapeCasts S512x4x2
  slices_S512x4x2_S512x4x1_0_0_0 : S512x4x2.Slices ![0, 0, 0] S512x4x1
  bcast_S512x4x1_S512x4x2513_0_1_2 : S512x4x1.BroadcastsInDim S512x4x2513 (![0, 1, 2] : Fin 3 → Fin S512x4x2513.rank)
  slices_S512x4x2_S512x4x1_0_0_1 : S512x4x2.Slices ![0, 0, 1] S512x4x1
  dot_S512x16x1024_S1024x2513_S512x16x2513_2_0_01_1_n_n_wf : DotDims.WF S512x16x1024 S1024x2513 S512x16x2513 [2] [0] [0, 1] [1] [] []
  dot_S512x16x1024_S1024x2048_S512x16x2048_2_0_01_1_n_n_wf : DotDims.WF S512x16x1024 S1024x2048 S512x16x2048 [2] [0] [0, 1] [1] [] []
  gather_S512x16x2513_S4x1_S512x4x2513_02_1_n_n_1_1_51212513_wf : GatherDims.WF S512x16x2513 S4x1 S512x4x2513 [0, 2] [1] [] [1] [] 1 ![512, 1, 2513]
  gather_S512x16x2048_S4x1_S512x4x2048_02_1_n_n_1_1_51212048_wf : GatherDims.WF S512x16x2048 S4x1 S512x4x2048 [0, 2] [1] [] [1] [] 1 ![512, 1, 2048]
  gather_S512x28x1024_S7x1_S512x7x1024_02_1_n_n_1_1_51211024_wf : GatherDims.WF S512x28x1024 S7x1 S512x7x1024 [0, 2] [1] [] [1] [] 1 ![512, 1, 1024]
  dot_S512x7x1024_S1024x2513_S512x7x2513_2_0_01_1_n_n_wf : DotDims.WF S512x7x1024 S1024x2513 S512x7x2513 [2] [0] [0, 1] [1] [] []
  dot_S512x7x1024_S1024x2048_S512x7x2048_2_0_01_1_n_n_wf : DotDims.WF S512x7x1024 S1024x2048 S512x7x2048 [2] [0] [0, 1] [1] [] []
  dot_S2048x4096_S4096x1024_S2048x1024_1_0_0_1_n_n_wf : DotDims.WF S2048x4096 S4096x1024 S2048x1024 [1] [0] [0] [1] [] []
  dot_S2048x1024_S1024x512_S2048x512_1_0_0_1_n_n_wf : DotDims.WF S2048x1024 S1024x512 S2048x512 [1] [0] [0] [1] [] []
  dot_S2048x512_S512x2_S2048x2_1_0_0_1_n_n_wf : DotDims.WF S2048x512 S512x2 S2048x2 [1] [0] [0] [1] [] []

variable [Facts₀]

def dot_S512x16x1024_S1024x2513_S512x16x2513_2_0_01_1_n_n : DotDims S512x16x1024 S1024x2513 S512x16x2513 where
  lhsContracting := [2]
  rhsContracting := [0]
  lhsNonContracting := [0, 1]
  rhsNonContracting := [1]
  lhsBatch := []
  rhsBatch := []
  wf := dot_S512x16x1024_S1024x2513_S512x16x2513_2_0_01_1_n_n_wf
def dot_S512x16x1024_S1024x2048_S512x16x2048_2_0_01_1_n_n : DotDims S512x16x1024 S1024x2048 S512x16x2048 where
  lhsContracting := [2]
  rhsContracting := [0]
  lhsNonContracting := [0, 1]
  rhsNonContracting := [1]
  lhsBatch := []
  rhsBatch := []
  wf := dot_S512x16x1024_S1024x2048_S512x16x2048_2_0_01_1_n_n_wf
def gather_S512x16x2513_S4x1_S512x4x2513_02_1_n_n_1_1_51212513 : GatherDims S512x16x2513 S4x1 S512x4x2513 where
  offsetDims := [0, 2]
  collapsedSliceDims := [1]
  operandBatchingDims := []
  startIndicesBatchingDims := []
  startIndexMap := [1]
  indexVectorDim := 1
  sliceSizes := ![512, 1, 2513]
  wf := gather_S512x16x2513_S4x1_S512x4x2513_02_1_n_n_1_1_51212513_wf
def gather_S512x16x2048_S4x1_S512x4x2048_02_1_n_n_1_1_51212048 : GatherDims S512x16x2048 S4x1 S512x4x2048 where
  offsetDims := [0, 2]
  collapsedSliceDims := [1]
  operandBatchingDims := []
  startIndicesBatchingDims := []
  startIndexMap := [1]
  indexVectorDim := 1
  sliceSizes := ![512, 1, 2048]
  wf := gather_S512x16x2048_S4x1_S512x4x2048_02_1_n_n_1_1_51212048_wf
def gather_S512x28x1024_S7x1_S512x7x1024_02_1_n_n_1_1_51211024 : GatherDims S512x28x1024 S7x1 S512x7x1024 where
  offsetDims := [0, 2]
  collapsedSliceDims := [1]
  operandBatchingDims := []
  startIndicesBatchingDims := []
  startIndexMap := [1]
  indexVectorDim := 1
  sliceSizes := ![512, 1, 1024]
  wf := gather_S512x28x1024_S7x1_S512x7x1024_02_1_n_n_1_1_51211024_wf
def dot_S512x7x1024_S1024x2513_S512x7x2513_2_0_01_1_n_n : DotDims S512x7x1024 S1024x2513 S512x7x2513 where
  lhsContracting := [2]
  rhsContracting := [0]
  lhsNonContracting := [0, 1]
  rhsNonContracting := [1]
  lhsBatch := []
  rhsBatch := []
  wf := dot_S512x7x1024_S1024x2513_S512x7x2513_2_0_01_1_n_n_wf
def dot_S512x7x1024_S1024x2048_S512x7x2048_2_0_01_1_n_n : DotDims S512x7x1024 S1024x2048 S512x7x2048 where
  lhsContracting := [2]
  rhsContracting := [0]
  lhsNonContracting := [0, 1]
  rhsNonContracting := [1]
  lhsBatch := []
  rhsBatch := []
  wf := dot_S512x7x1024_S1024x2048_S512x7x2048_2_0_01_1_n_n_wf
def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

class Facts : Prop extends Facts₀ where

variable [Facts]
-- ==== Proof.KernelData.lean ====
/-
  The data of the one pipelined region, for any float instance.

  The region runs the fused body at 32 grid points; at point t it is handed rows 64t … 64t+63 of the two feature
  matrices (windows 0 and 1), every weight and bias whole (windows 2 … 16, fetched once), and a 64 × 2513 block of
  the result to fill (window 17). Here: the buffers' contents when the region is entered (`entry`: what the host
  lines before the region leave), each window's block of its array at a point (`blockAt`), what the body's single
  store leaves in the result block as a function of the seventeen loaded blocks (`stored`), and the proof data the
  launch theorem takes (`regionData`): every input block left in place, the result block at `stored`.
-/
import proofs.«133868_j19464791785861_1_alg».proof.Proof.Gen.Kernel.Launch
import proofs.«133868_j19464791785861_1_alg».proof.Proof.Gen.Kernel.Skeleton
import proofs.«133868_j19464791785861_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core c's buffers when the region is entered, as a valuation: what the host lines before the region compute from
    the launch contents. -/
abbrev entry0 (c : Dev nD) : Valuation τ sig (Elt F) := StableHlo.after (List.flatten [hostOps0]) (fun b => m (c, b))

/-- The same read at a TensorCore reference. -/
abbrev entry (c : Dev nD) (b : Ref sig .tc) : Buf (Elt F) ((c : Thread nD τ).loc b) := entry0 m c (Proc.devRef .tc b)

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The whole 64 × 2513 result block, as the rectangle the body stores through. -/
abbrev wholeOut : Rect S64x2513 := Rect.unit (s := S64x2513) ![0, 0] S64x2513.size inb_S64x2513_S64x2513_0_0

/-- What the body's one store writes, from the seventeen blocks it loads: the two score blocks (each a product with
    its weight block plus a bias row) weighted by the two columns of the gate block and added. -/
def storedValue (x0 : Vec F S64x1024 .bf16) (x1 : Vec F S64x1024 .bf16) (x2 : Vec F S1024x2513 .bf16) (x3 : Vec F S2513 .f32) (x4 : Vec F S1024x2048 .bf16) (x5 : Vec F S2048 .f32) (x6 : Vec F S1024x2513 .bf16) (x7 : Vec F S2513 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) : FVec F S64x2513 .f32 :=
  k0_pay1 (k0_pay5 (View.ld x1 (Rect.unit (s := S64x1024) ![0, 0] S64x1024.size inb_S64x1024_S64x1024_0_0)) (View.ld x6 (Rect.unit (s := S1024x2513) ![0, 0] S1024x2513.size inb_S1024x2513_S1024x2513_0_0)) (View.ld x7 (Rect.unit (s := S2513) ![0] S2513.size inb_S2513_S2513_0)))
    (k0_pay9 (k0_pay6 (View.ld x0 (Rect.unit (s := S64x1024) ![0, 0] S64x1024.size inb_S64x1024_S64x1024_0_0)) (View.ld x4 (Rect.unit (s := S1024x2048) ![0, 0] S1024x2048.size inb_S1024x2048_S1024x2048_0_0)) (View.ld x5 (Rect.unit (s := S2048) ![0] S2048.size inb_S2048_S2048_0))) (k0_pay7 (View.ld x1 (Rect.unit (s := S64x1024) ![0, 0] S64x1024.size inb_S64x1024_S64x1024_0_0)) (View.ld x8 (Rect.unit (s := S1024x2048) ![0, 0] S1024x2048.size inb_S1024x2048_S1024x2048_0_0)) (View.ld x9 (Rect.unit (s := S2048) ![0] S2048.size inb_S2048_S2048_0))) (k0_pay8 (View.ld x10 (Rect.unit (s := S2048x1024) ![0, 0] S2048x1024.size inb_S2048x1024_S2048x1024_0_0))) (constant S64x1024 .f32 0x00000000#32)
      (View.ld x11 (Rect.unit (s := S2048x1024) ![0, 0] S2048x1024.size inb_S2048x1024_S2048x1024_0_0)) (View.ld x12 (Rect.unit (s := S1024) ![0] S1024.size inb_S1024_S1024_0)) (View.ld x13 (Rect.unit (s := S1024x512) ![0, 0] S1024x512.size inb_S1024x512_S1024x512_0_0)) (View.ld x14 (Rect.unit (s := S512) ![0] S512.size inb_S512_S512_0)) (View.ld x15 (Rect.unit (s := S512x2) ![0, 0] S512x2.size inb_S512x2_S512x2_0_0)) (View.ld x16 (Rect.unit (s := S2) ![0] S2.size inb_S2_S2_0)))
    (k0_pay10 (k0_pay4 (View.ld x0 (Rect.unit (s := S64x1024) ![0, 0] S64x1024.size inb_S64x1024_S64x1024_0_0)) (View.ld x2 (Rect.unit (s := S1024x2513) ![0, 0] S1024x2513.size inb_S1024x2513_S1024x2513_0_0)) (View.ld x3 (Rect.unit (s := S2513) ![0] S2513.size inb_S2513_S2513_0))) (k0_pay6 (View.ld x0 (Rect.unit (s := S64x1024) ![0, 0] S64x1024.size inb_S64x1024_S64x1024_0_0)) (View.ld x4 (Rect.unit (s := S1024x2048) ![0, 0] S1024x2048.size inb_S1024x2048_S1024x2048_0_0)) (View.ld x5 (Rect.unit (s := S2048) ![0] S2048.size inb_S2048_S2048_0))) (k0_pay7 (View.ld x1 (Rect.unit (s := S64x1024) ![0, 0] S64x1024.size inb_S64x1024_S64x1024_0_0)) (View.ld x8 (Rect.unit (s := S1024x2048) ![0, 0] S1024x2048.size inb_S1024x2048_S1024x2048_0_0)) (View.ld x9 (Rect.unit (s := S2048) ![0] S2048.size inb_S2048_S2048_0))) (k0_pay8 (View.ld x10 (Rect.unit (s := S2048x1024) ![0, 0] S2048x1024.size inb_S2048x1024_S2048x1024_0_0))) (constant S64x1024 .f32 0x00000000#32)
      (View.ld x11 (Rect.unit (s := S2048x1024) ![0, 0] S2048x1024.size inb_S2048x1024_S2048x1024_0_0)) (View.ld x12 (Rect.unit (s := S1024) ![0] S1024.size inb_S1024_S1024_0)) (View.ld x13 (Rect.unit (s := S1024x512) ![0, 0] S1024x512.size inb_S1024x512_S1024x512_0_0)) (View.ld x14 (Rect.unit (s := S512) ![0] S512.size inb_S512_S512_0)) (View.ld x15 (Rect.unit (s := S512x2) ![0, 0] S512x2.size inb_S512x2_S512x2_0_0)) (View.ld x16 (Rect.unit (s := S2) ![0] S2.size inb_S2_S2_0)))

/-- The result block after the body: the one store through the whole-block rectangle. -/
def stored (x0 : Vec F S64x1024 .bf16) (x1 : Vec F S64x1024 .bf16) (x2 : Vec F S1024x2513 .bf16) (x3 : Vec F S2513 .f32) (x4 : Vec F S1024x2048 .bf16) (x5 : Vec F S2048 .f32) (x6 : Vec F S1024x2513 .bf16) (x7 : Vec F S2513 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) : Vec F S64x2513 .f32 :=
  View.canon [⟨wholeOut, storedValue x0 x1 x2 x3 x4 x5 x6 x7 x8 x9 x10 x11 x12 x13 x14 x15 x16⟩]

/-- The proof data of the pipeline on core c: the arrays as the region finds them; after the body at point t every
    input's staging buffer still at its block and the result's at `stored` of the blocks; the invariant the scoped rest
    and the generator register, untouched; nothing owed; full shares. -/
def regionData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => blockAt m c 15 t
    | ⟨16, _⟩ => blockAt m c 16 t
    | ⟨17, _⟩ => stored (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t)
    | ⟨_ + 18, h⟩ => absurd h (Nat.not_lt.2 (Nat.le_add_left _ _))
  Φ _ := Pipeline.ΦA spec0 c
  q _ := fullShare
  owed _ := 0

theorem regionData_A (c : Dev nD) (w : Fin cfg0.W) : (regionData m 0 c).A w = entry m c (Pipeline.arrRef spec0 w) := by
  dsimp only [regionData]

theorem after_0 (c : Dev nD) (t : Fin cfg0.N) : (regionData m 0 c).after 0 t = blockAt m c 0 t := by dsimp only [regionData]
theorem after_1 (c : Dev nD) (t : Fin cfg0.N) : (regionData m 0 c).after 1 t = blockAt m c 1 t := by dsimp only [regionData]
theorem after_2 (c : Dev nD) (t : Fin cfg0.N) : (regionData m 0 c).after 2 t = blockAt m c 2 t := by dsimp only [regionData]
theorem after_3 (c : Dev nD) (t : Fin cfg0.N) : (regionData m 0 c).after 3 t = blockAt m c 3 t := by dsimp only [regionData]
theorem after_4 (c : Dev nD) (t : Fin cfg0.N) : (regionData m 0 c).after 4 t = blockAt m c 4 t := by dsimp only [regionData]
theorem after_5 (c : Dev nD) (t : Fin cfg0.N) : (regionData m 0 c).after 5 t = blockAt m c 5 t := by dsimp only [regionData]
theorem after_6 (c : Dev nD) (t : Fin cfg0.N) : (regionData m 0 c).after 6 t = blockAt m c 6 t := by dsimp only [regionData]
theorem after_7 (c : Dev nD) (t : Fin cfg0.N) : (regionData m 0 c).after 7 t = blockAt m c 7 t := by dsimp only [regionData]
theorem after_8 (c : Dev nD) (t : Fin cfg0.N) : (regionData m 0 c).after 8 t = blockAt m c 8 t := by dsimp only [regionData]
theorem after_9 (c : Dev nD) (t : Fin cfg0.N) : (regionData m 0 c).after 9 t = blockAt m c 9 t := by dsimp only [regionData]
theorem after_10 (c : Dev nD) (t : Fin cfg0.N) : (regionData m 0 c).after 10 t = blockAt m c 10 t := by dsimp only [regionData]
theorem after_11 (c : Dev nD) (t : Fin cfg0.N) : (regionData m 0 c).after 11 t = blockAt m c 11 t := by dsimp only [regionData]
theorem after_12 (c : Dev nD) (t : Fin cfg0.N) : (regionData m 0 c).after 12 t = blockAt m c 12 t := by dsimp only [regionData]
theorem after_13 (c : Dev nD) (t : Fin cfg0.N) : (regionData m 0 c).after 13 t = blockAt m c 13 t := by dsimp only [regionData]
theorem after_14 (c : Dev nD) (t : Fin cfg0.N) : (regionData m 0 c).after 14 t = blockAt m c 14 t := by dsimp only [regionData]
theorem after_15 (c : Dev nD) (t : Fin cfg0.N) : (regionData m 0 c).after 15 t = blockAt m c 15 t := by dsimp only [regionData]
theorem after_16 (c : Dev nD) (t : Fin cfg0.N) : (regionData m 0 c).after 16 t = blockAt m c 16 t := by dsimp only [regionData]
theorem after_17 (c : Dev nD) (t : Fin cfg0.N) :
    (regionData m 0 c).after 17 t = stored (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) := by dsimp only [regionData]

end Cert.Kernel.Hand

end
-- ==== Proof.KernelBody.lean ====
/-
  The fused body at one grid point, for any float instance.

  Handed the seventeen input blocks in their staging buffers and the result's staging buffer at any contents, the body
  loads each input block whole, computes, loads the result buffer (a value it never uses) and stores the computed
  64 × 2513 block through the whole-buffer rectangle. So it ends with every input buffer as it was and the result buffer
  at `stored` of the loaded blocks: one store that covers the buffer leaves exactly its payload there.

  The pipeline calls the body at point t on the windows' current staging buffers. An input window's current buffer
  holds the window's block at t whether or not the pipeline fetched it there (windows 2 … 16 are fetched once, their
  block index never moves; windows 0 and 1 are fetched at every point), so the body obligation of the launch theorem
  follows from the body's triple at every point.
-/
import proofs.«133868_j19464791785861_1_alg».proof.Proof.KernelData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The one store fills the result buffer -/

/-- The whole-buffer rectangle holds every index of the 64 × 2513 buffer. -/
theorem wholeOut_covers (p0 : Vec F S64x2513 .f32) (y : S64x2513.Idx) :
    ∃ pc ∈ ([⟨wholeOut, p0⟩] : List (View.Piece (Elt F) S64x2513 .f32)), y ∈ pc.1.set :=
  View.cover_of_tiled [⟨wholeOut, p0⟩] S64x2513.size (by rfl) y

/-! ## The body's triple -/

set_option maxHeartbeats 4000000 in
/-- On whole staging memrefs, the inputs' at contents x0 … x16 and the result's at anything: the body runs to its
    continuation holding the inputs' as they were and the result's at `stored x0 … x16`. -/
theorem body_triple (c : Dev nD) (E : Set ℕ) (i : grid0.Coords) (a0 : Memref sig .tc .vmem S64x1024 .bf16) (h0 : a0.IsWhole) (a1 : Memref sig .tc .vmem S64x1024 .bf16) (h1 : a1.IsWhole) (a2 : Memref sig .tc .vmem S1024x2513 .bf16) (h2 : a2.IsWhole) (a3 : Memref sig .tc .vmem S2513 .f32) (h3 : a3.IsWhole) (a4 : Memref sig .tc .vmem S1024x2048 .bf16) (h4 : a4.IsWhole) (a5 : Memref sig .tc .vmem S2048 .f32) (h5 : a5.IsWhole) (a6 : Memref sig .tc .vmem S1024x2513 .bf16) (h6 : a6.IsWhole) (a7 : Memref sig .tc .vmem S2513 .f32) (h7 : a7.IsWhole) (a8 : Memref sig .tc .vmem S1024x2048 .bf16) (h8 : a8.IsWhole) (a9 : Memref sig .tc .vmem S2048 .f32) (h9 : a9.IsWhole) (a10 : Memref sig .tc .vmem S2048x1024 .bf16) (h10 : a10.IsWhole) (a11 : Memref sig .tc .vmem S2048x1024 .bf16) (h11 : a11.IsWhole) (a12 : Memref sig .tc .vmem S1024 .f32) (h12 : a12.IsWhole) (a13 : Memref sig .tc .vmem S1024x512 .bf16) (h13 : a13.IsWhole) (a14 : Memref sig .tc .vmem S512 .f32) (h14 : a14.IsWhole) (a15 : Memref sig .tc .vmem S512x2 .bf16) (h15 : a15.IsWhole) (a16 : Memref sig .tc .vmem S2 .f32) (h16 : a16.IsWhole) (a17 : Memref sig .tc .vmem S64x2513 .f32) (h17 : a17.IsWhole)
    (x0 : Vec F S64x1024 .bf16) (x1 : Vec F S64x1024 .bf16) (x2 : Vec F S1024x2513 .bf16) (x3 : Vec F S2513 .f32) (x4 : Vec F S1024x2048 .bf16) (x5 : Vec F S2048 .f32) (x6 : Vec F S1024x2513 .bf16) (x7 : Vec F S2513 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare (stored x0 x1 x2 x3 x4 x5 x6 x7 x8 x9 x10 x11 x12 x13 x14 x15 x16)) -∗ K ⟨⟩))
      ⊢ wp frame (wpE (defs₀ (F := F)) Variants.none c none) E (cc0__fusion_kernel i a0 h0 a1 h1 a2 h2 a3 h3 a4 h4 a5 h5 a6 h6 a7 h7 a8 h8 a9 h9 a10 h10 a11 h11 a12 h12 a13 h13 a14 h14 a15 h15 a16 h16 a17 h17) K := by
  simp only [cc0__fusion_kernel_eq_skeleton]; unfold cc0__fusion_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (wholeOut_covers _)

/-! ## Each input window's current buffer holds its block -/

theorem held_0 (c : Dev nD) (t : Fin cfg0.N) (d) : (regionData m 0 c).before 0 t d = blockAt m c 0 t :=
  ((regionData m 0 c).before_in_eq_fetched 0 rfl (fun _ => rfl) (fun _ _ _ => rfl)
      (fun t => by rw [after_0]; unfold Dat.blockOf blockAt; rw [regionData_A]; try rfl) t d).trans
    (by unfold Dat.fetched Dat.blockOf blockAt; rw [regionData_A]; try rfl)
theorem held_1 (c : Dev nD) (t : Fin cfg0.N) (d) : (regionData m 0 c).before 1 t d = blockAt m c 1 t :=
  ((regionData m 0 c).before_in_eq_fetched 1 rfl (fun _ => rfl) (fun _ _ _ => rfl)
      (fun t => by rw [after_1]; unfold Dat.blockOf blockAt; rw [regionData_A]; try rfl) t d).trans
    (by unfold Dat.fetched Dat.blockOf blockAt; rw [regionData_A]; try rfl)
theorem held_2 (c : Dev nD) (t : Fin cfg0.N) (d) : (regionData m 0 c).before 2 t d = blockAt m c 2 t :=
  ((regionData m 0 c).before_in_eq_fetched 2 rfl (fun _ => rfl) (fun _ _ _ => rfl)
      (fun t => by rw [after_2]; unfold Dat.blockOf blockAt; rw [regionData_A]; try rfl) t d).trans
    (by unfold Dat.fetched Dat.blockOf blockAt; rw [regionData_A]; try rfl)
theorem held_3 (c : Dev nD) (t : Fin cfg0.N) (d) : (regionData m 0 c).before 3 t d = blockAt m c 3 t :=
  ((regionData m 0 c).before_in_eq_fetched 3 rfl (fun _ => rfl) (fun _ _ _ => rfl)
      (fun t => by rw [after_3]; unfold Dat.blockOf blockAt; rw [regionData_A]; try rfl) t d).trans
    (by unfold Dat.fetched Dat.blockOf blockAt; rw [regionData_A]; try rfl)
theorem held_4 (c : Dev nD) (t : Fin cfg0.N) (d) : (regionData m 0 c).before 4 t d = blockAt m c 4 t :=
  ((regionData m 0 c).before_in_eq_fetched 4 rfl (fun _ => rfl) (fun _ _ _ => rfl)
      (fun t => by rw [after_4]; unfold Dat.blockOf blockAt; rw [regionData_A]; try rfl) t d).trans
    (by unfold Dat.fetched Dat.blockOf blockAt; rw [regionData_A]; try rfl)
theorem held_5 (c : Dev nD) (t : Fin cfg0.N) (d) : (regionData m 0 c).before 5 t d = blockAt m c 5 t :=
  ((regionData m 0 c).before_in_eq_fetched 5 rfl (fun _ => rfl) (fun _ _ _ => rfl)
      (fun t => by rw [after_5]; unfold Dat.blockOf blockAt; rw [regionData_A]; try rfl) t d).trans
    (by unfold Dat.fetched Dat.blockOf blockAt; rw [regionData_A]; try rfl)
theorem held_6 (c : Dev nD) (t : Fin cfg0.N) (d) : (regionData m 0 c).before 6 t d = blockAt m c 6 t :=
  ((regionData m 0 c).before_in_eq_fetched 6 rfl (fun _ => rfl) (fun _ _ _ => rfl)
      (fun t => by rw [after_6]; unfold Dat.blockOf blockAt; rw [regionData_A]; try rfl) t d).trans
    (by unfold Dat.fetched Dat.blockOf blockAt; rw [regionData_A]; try rfl)
theorem held_7 (c : Dev nD) (t : Fin cfg0.N) (d) : (regionData m 0 c).before 7 t d = blockAt m c 7 t :=
  ((regionData m 0 c).before_in_eq_fetched 7 rfl (fun _ => rfl) (fun _ _ _ => rfl)
      (fun t => by rw [after_7]; unfold Dat.blockOf blockAt; rw [regionData_A]; try rfl) t d).trans
    (by unfold Dat.fetched Dat.blockOf blockAt; rw [regionData_A]; try rfl)
theorem held_8 (c : Dev nD) (t : Fin cfg0.N) (d) : (regionData m 0 c).before 8 t d = blockAt m c 8 t :=
  ((regionData m 0 c).before_in_eq_fetched 8 rfl (fun _ => rfl) (fun _ _ _ => rfl)
      (fun t => by rw [after_8]; unfold Dat.blockOf blockAt; rw [regionData_A]; try rfl) t d).trans
    (by unfold Dat.fetched Dat.blockOf blockAt; rw [regionData_A]; try rfl)
theorem held_9 (c : Dev nD) (t : Fin cfg0.N) (d) : (regionData m 0 c).before 9 t d = blockAt m c 9 t :=
  ((regionData m 0 c).before_in_eq_fetched 9 rfl (fun _ => rfl) (fun _ _ _ => rfl)
      (fun t => by rw [after_9]; unfold Dat.blockOf blockAt; rw [regionData_A]; try rfl) t d).trans
    (by unfold Dat.fetched Dat.blockOf blockAt; rw [regionData_A]; try rfl)
theorem held_10 (c : Dev nD) (t : Fin cfg0.N) (d) : (regionData m 0 c).before 10 t d = blockAt m c 10 t :=
  ((regionData m 0 c).before_in_eq_fetched 10 rfl (fun _ => rfl) (fun _ _ _ => rfl)
      (fun t => by rw [after_10]; unfold Dat.blockOf blockAt; rw [regionData_A]; try rfl) t d).trans
    (by unfold Dat.fetched Dat.blockOf blockAt; rw [regionData_A]; try rfl)
theorem held_11 (c : Dev nD) (t : Fin cfg0.N) (d) : (regionData m 0 c).before 11 t d = blockAt m c 11 t :=
  ((regionData m 0 c).before_in_eq_fetched 11 rfl (fun _ => rfl) (fun _ _ _ => rfl)
      (fun t => by rw [after_11]; unfold Dat.blockOf blockAt; rw [regionData_A]; try rfl) t d).trans
    (by unfold Dat.fetched Dat.blockOf blockAt; rw [regionData_A]; try rfl)
theorem held_12 (c : Dev nD) (t : Fin cfg0.N) (d) : (regionData m 0 c).before 12 t d = blockAt m c 12 t :=
  ((regionData m 0 c).before_in_eq_fetched 12 rfl (fun _ => rfl) (fun _ _ _ => rfl)
      (fun t => by rw [after_12]; unfold Dat.blockOf blockAt; rw [regionData_A]; try rfl) t d).trans
    (by unfold Dat.fetched Dat.blockOf blockAt; rw [regionData_A]; try rfl)
theorem held_13 (c : Dev nD) (t : Fin cfg0.N) (d) : (regionData m 0 c).before 13 t d = blockAt m c 13 t :=
  ((regionData m 0 c).before_in_eq_fetched 13 rfl (fun _ => rfl) (fun _ _ _ => rfl)
      (fun t => by rw [after_13]; unfold Dat.blockOf blockAt; rw [regionData_A]; try rfl) t d).trans
    (by unfold Dat.fetched Dat.blockOf blockAt; rw [regionData_A]; try rfl)
theorem held_14 (c : Dev nD) (t : Fin cfg0.N) (d) : (regionData m 0 c).before 14 t d = blockAt m c 14 t :=
  ((regionData m 0 c).before_in_eq_fetched 14 rfl (fun _ => rfl) (fun _ _ _ => rfl)
      (fun t => by rw [after_14]; unfold Dat.blockOf blockAt; rw [regionData_A]; try rfl) t d).trans
    (by unfold Dat.fetched Dat.blockOf blockAt; rw [regionData_A]; try rfl)
theorem held_15 (c : Dev nD) (t : Fin cfg0.N) (d) : (regionData m 0 c).before 15 t d = blockAt m c 15 t :=
  ((regionData m 0 c).before_in_eq_fetched 15 rfl (fun _ => rfl) (fun _ _ _ => rfl)
      (fun t => by rw [after_15]; unfold Dat.blockOf blockAt; rw [regionData_A]; try rfl) t d).trans
    (by unfold Dat.fetched Dat.blockOf blockAt; rw [regionData_A]; try rfl)
theorem held_16 (c : Dev nD) (t : Fin cfg0.N) (d) : (regionData m 0 c).before 16 t d = blockAt m c 16 t :=
  ((regionData m 0 c).before_in_eq_fetched 16 rfl (fun _ => rfl) (fun _ _ _ => rfl)
      (fun t => by rw [after_16]; unfold Dat.blockOf blockAt; rw [regionData_A]; try rfl) t d).trans
    (by unfold Dat.fetched Dat.blockOf blockAt; rw [regionData_A]; try rfl)

/-! ## The body obligation -/

/-- What the body is called with at point t, the windows one by one, -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d))
    ∗ (∃ d, owns (c : Thread nD τ) (st0_6 t) fullShare ((regionData m 0 c).before 6 t d))
    ∗ (∃ d, owns (c : Thread nD τ) (st0_7 t) fullShare ((regionData m 0 c).before 7 t d))
    ∗ (∃ d, owns (c : Thread nD τ) (st0_8 t) fullShare ((regionData m 0 c).before 8 t d))
    ∗ (∃ d, owns (c : Thread nD τ) (st0_9 t) fullShare ((regionData m 0 c).before 9 t d))
    ∗ (∃ d, owns (c : Thread nD τ) (st0_10 t) fullShare ((regionData m 0 c).before 10 t d))
    ∗ (∃ d, owns (c : Thread nD τ) (st0_11 t) fullShare ((regionData m 0 c).before 11 t d))
    ∗ (∃ d, owns (c : Thread nD τ) (st0_12 t) fullShare ((regionData m 0 c).before 12 t d))
    ∗ (∃ d, owns (c : Thread nD τ) (st0_13 t) fullShare ((regionData m 0 c).before 13 t d))
    ∗ (∃ d, owns (c : Thread nD τ) (st0_14 t) fullShare ((regionData m 0 c).before 14 t d))
    ∗ (∃ d, owns (c : Thread nD τ) (st0_15 t) fullShare ((regionData m 0 c).before 15 t d))
    ∗ (∃ d, owns (c : Thread nD τ) (st0_16 t) fullShare ((regionData m 0 c).before 16 t d))
    ∗ (∃ d, owns (c : Thread nD τ) (st0_17 t) fullShare ((regionData m 0 c).before 17 t d)))

/-- and what it hands back. -/
def handedBack (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t)
    ∗ owns (c : Thread nD τ) (st0_6 t) fullShare ((regionData m 0 c).after 6 t)
    ∗ owns (c : Thread nD τ) (st0_7 t) fullShare ((regionData m 0 c).after 7 t)
    ∗ owns (c : Thread nD τ) (st0_8 t) fullShare ((regionData m 0 c).after 8 t)
    ∗ owns (c : Thread nD τ) (st0_9 t) fullShare ((regionData m 0 c).after 9 t)
    ∗ owns (c : Thread nD τ) (st0_10 t) fullShare ((regionData m 0 c).after 10 t)
    ∗ owns (c : Thread nD τ) (st0_11 t) fullShare ((regionData m 0 c).after 11 t)
    ∗ owns (c : Thread nD τ) (st0_12 t) fullShare ((regionData m 0 c).after 12 t)
    ∗ owns (c : Thread nD τ) (st0_13 t) fullShare ((regionData m 0 c).after 13 t)
    ∗ owns (c : Thread nD τ) (st0_14 t) fullShare ((regionData m 0 c).after 14 t)
    ∗ owns (c : Thread nD τ) (st0_15 t) fullShare ((regionData m 0 c).after 15 t)
    ∗ owns (c : Thread nD τ) (st0_16 t) fullShare ((regionData m 0 c).after 16 t)
    ∗ owns (c : Thread nD τ) (st0_17 t) fullShare ((regionData m 0 c).after 17 t))

set_option maxHeartbeats 2000000 in
/-- The body at any point: its input buffers hold their blocks, so the triple applies; the invariant and the core's
    debt pass through untouched. -/
theorem body_at (c : Dev nD) (t : Fin cfg0.N) :
    handed m c t ⊢ wp frame (wpE (defs₀ (F := F)) Variants.none c none) Set.univ (bodyAt0 t) (fun _ => handedBack m c t) := by
  unfold handed handedBack bodyAt0
  simp only [held_0, held_1, held_2, held_3, held_4, held_5, held_6, held_7, held_8, held_9, held_10, held_11, held_12, held_13, held_14, held_15, held_16]
  rw [show (regionData m 0 c).Φ t.succ = (regionData m 0 c).Φ t.castSucc from rfl,
    show (regionData m 0 c).owesAt () t.succ = (regionData m 0 c).owesAt () t.castSucc from rfl,
    after_0, after_1, after_2, after_3, after_4, after_5, after_6, after_7, after_8, after_9, after_10, after_11, after_12, after_13, after_14, after_15, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body_triple c Set.univ (grid0.coords t) _ _ _ _ _ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The launch theorem's body obligation, at every point. -/
theorem body_obligation (c : Dev nD) : BodyObligation (regionData (F := F) m 0 c) (defs₀ (F := F)) Variants.none () Set.univ := fun t => by
  rw [bigSep_W0, bigSep_W0]
  exact body_at m c t

end Cert.Kernel.Hand

end
-- ==== Proof.KernelEntry.lean ====
/-
  The host lines around the region, for any float instance.

  Before the region @main runs forty host lines: it cuts frames 12, 16, 20 and 24 out of each feature array, lays the
  four side by side, flattens them to 2048 rows, and narrows them and the weight matrices to the short float format
  (W1 first cut into its upper and lower 2048 rows). After the region one line reshapes the 2048 × 2513 result to
  512 × 4 × 2513. Every one of these lines writes a buffer of its own and none writes an argument, so each argument
  array is found by the region as launched (`entry_arg`), and the ones no window stages are left as launched by the
  last line too (`exit_arg`). The lines allocate nothing, touch TensorCore buffers only, and the last one writes no
  array of the pipeline: what the launch theorem asks of them. With that, a run to the launch theorem's post is a
  run after which all sixteen arguments are unchanged (`unchanged_of_run`).
-/
import proofs.«133868_j19464791785861_1_alg».proof.Proof.KernelData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the host lines before the region, the region, and the line after it: up to the region it leaves the
    buffers at `entry`, and continues with the last line. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only arrays of the pipeline and buffers that bypass it. -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem last_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop

/-- And it writes only its own result, which is no array of the pipeline. -/
theorem last_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The arguments -/

/-- No host line before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 15: the region finds it as launched. -/
theorem entry_arg15 (c : Dev nD) : entry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it, and no window stages argument 0: it ends as launched. -/
theorem exit_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg0 (by exact (by decide : ∀ w, Pipeline.arrRef spec0 w ≠ main_arg0))]
  exact entry_arg0 m c
/-- Nor does the line after it, and no window stages argument 1: it ends as launched. -/
theorem exit_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg1 (by exact (by decide : ∀ w, Pipeline.arrRef spec0 w ≠ main_arg1))]
  exact entry_arg1 m c
/-- Nor does the line after it, and no window stages argument 2: it ends as launched. -/
theorem exit_arg2 (dats : (p : Fin _) → (c : Dev nD) → Dat τ (Elt F) Unit ℕ (UR sig nD τ) ℕ (cfgs p) c) (c : Dev nD) :
    Pipeline.afterTail₀ cfgs dats 0 (entry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg2 (by exact (by decide : ∀ w, Pipeline.arrRef spec0 w ≠ main_arg2))]
  exact entry_arg2 m c
/-- Nor does the line after it, and no window stages argument 4: it ends as launched. -/
theorem exit_arg4 (dats : (p : Fin _) → (c : Dev nD) → Dat τ (Elt F) Unit ℕ (UR sig nD τ) ℕ (cfgs p) c) (c : Dev nD) :
    Pipeline.afterTail₀ cfgs dats 0 (entry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg4 (by exact (by decide : ∀ w, Pipeline.arrRef spec0 w ≠ main_arg4))]
  exact entry_arg4 m c
/-- Nor does the line after it, and no window stages argument 6: it ends as launched. -/
theorem exit_arg6 (dats : (p : Fin _) → (c : Dev nD) → Dat τ (Elt F) Unit ℕ (UR sig nD τ) ℕ (cfgs p) c) (c : Dev nD) :
    Pipeline.afterTail₀ cfgs dats 0 (entry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg6 (by exact (by decide : ∀ w, Pipeline.arrRef spec0 w ≠ main_arg6))]
  exact entry_arg6 m c
/-- Nor does the line after it, and no window stages argument 8: it ends as launched. -/
theorem exit_arg8 (dats : (p : Fin _) → (c : Dev nD) → Dat τ (Elt F) Unit ℕ (UR sig nD τ) ℕ (cfgs p) c) (c : Dev nD) :
    Pipeline.afterTail₀ cfgs dats 0 (entry0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg8 (by exact (by decide : ∀ w, Pipeline.arrRef spec0 w ≠ main_arg8))]
  exact entry_arg8 m c
/-- Nor does the line after it, and no window stages argument 10: it ends as launched. -/
theorem exit_arg10 (dats : (p : Fin _) → (c : Dev nD) → Dat τ (Elt F) Unit ℕ (UR sig nD τ) ℕ (cfgs p) c) (c : Dev nD) :
    Pipeline.afterTail₀ cfgs dats 0 (entry0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg10 (by exact (by decide : ∀ w, Pipeline.arrRef spec0 w ≠ main_arg10))]
  exact entry_arg10 m c
/-- Nor does the line after it, and no window stages argument 12: it ends as launched. -/
theorem exit_arg12 (dats : (p : Fin _) → (c : Dev nD) → Dat τ (Elt F) Unit ℕ (UR sig nD τ) ℕ (cfgs p) c) (c : Dev nD) :
    Pipeline.afterTail₀ cfgs dats 0 (entry0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg12 (by exact (by decide : ∀ w, Pipeline.arrRef spec0 w ≠ main_arg12))]
  exact entry_arg12 m c
/-- Nor does the line after it, and no window stages argument 14: it ends as launched. -/
theorem exit_arg14 (dats : (p : Fin _) → (c : Dev nD) → Dat τ (Elt F) Unit ℕ (UR sig nD τ) ℕ (cfgs p) c) (c : Dev nD) :
    Pipeline.afterTail₀ cfgs dats 0 (entry0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg14 (by exact (by decide : ∀ w, Pipeline.arrRef spec0 w ≠ main_arg14))]
  exact entry_arg14 m c

/-- In a state satisfying the launch theorem's post, for any proof data whose arrays are the region-entry contents, every
    argument array is as launched. An argument a window stages is an input window's array, never written back; any
    other is a bypassing buffer, as the last line leaves it. -/
theorem unchanged_of_post (dats : (p : Fin 1) → (c : Dev nD) → Dat τ (Elt F) Unit ℕ (UR sig nD τ) ℕ (cfgs p) c)
    (hA : ∀ c w, (dats 0 c).A w = entry m c (Pipeline.arrRef spec0 w)) (r : PUnit × MemSt nD τ sig (Elt F))
    (h : Pipeline.FramePost cfgs dats 0 (Pipeline.afterTail₀ cfgs dats 0 (entry0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (exit_arg0 m dats c),
      ((h c).2 main_arg1 (Pipeline.mem_restRefs_of main_arg1 (by decide) (by decide))).trans (exit_arg1 m dats c),
      ((h c).2 main_arg2 (Pipeline.mem_restRefs_of main_arg2 (by decide) (by decide))).trans (exit_arg2 m dats c),
      ((h c).1 3).trans (((dats 0 c).arrAt_in 3 rfl _).trans ((hA c 3).trans (entry_arg3 m c))),
      ((h c).2 main_arg4 (Pipeline.mem_restRefs_of main_arg4 (by decide) (by decide))).trans (exit_arg4 m dats c),
      ((h c).1 5).trans (((dats 0 c).arrAt_in 5 rfl _).trans ((hA c 5).trans (entry_arg5 m c))),
      ((h c).2 main_arg6 (Pipeline.mem_restRefs_of main_arg6 (by decide) (by decide))).trans (exit_arg6 m dats c),
      ((h c).1 7).trans (((dats 0 c).arrAt_in 7 rfl _).trans ((hA c 7).trans (entry_arg7 m c))),
      ((h c).2 main_arg8 (Pipeline.mem_restRefs_of main_arg8 (by decide) (by decide))).trans (exit_arg8 m dats c),
      ((h c).1 9).trans (((dats 0 c).arrAt_in 9 rfl _).trans ((hA c 9).trans (entry_arg9 m c))),
      ((h c).2 main_arg10 (Pipeline.mem_restRefs_of main_arg10 (by decide) (by decide))).trans (exit_arg10 m dats c),
      ((h c).1 12).trans (((dats 0 c).arrAt_in 12 rfl _).trans ((hA c 12).trans (entry_arg11 m c))),
      ((h c).2 main_arg12 (Pipeline.mem_restRefs_of main_arg12 (by decide) (by decide))).trans (exit_arg12 m dats c),
      ((h c).1 14).trans (((dats 0 c).arrAt_in 14 rfl _).trans ((hA c 14).trans (entry_arg13 m c))),
      ((h c).2 main_arg14 (Pipeline.mem_restRefs_of main_arg14 (by decide) (by decide))).trans (exit_arg14 m dats c),
      ((h c).1 16).trans (((dats 0 c).arrAt_in 16 rfl _).trans ((hA c 16).trans (entry_arg15 m c)))⟩

/-- So a run to that post is a run after which all sixteen arguments are unchanged. -/
theorem unchanged_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => unchanged_of_post m dats hA r h c) h

end Cert.Kernel.Hand

end
-- ==== Proof.KernelRun.lean ====
/-
  The region's run and the frame, for any float instance.

  With the body obligation at every point, full shares, nothing owed, and the host lines around the region as the
  launch theorem asks, every weakly fair execution of @main terminates without a fault; afterwards each array of the
  pipeline holds what the proof data say (an input its entry contents, the result the blocks the body left,
  written back point by point) and every other buffer what the last host line leaves. In particular the sixteen
  arguments are unchanged.
-/
import proofs.«133868_j19464791785861_1_alg».proof.Proof.KernelBody
import proofs.«133868_j19464791785861_1_alg».proof.Proof.KernelEntry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

set_option backward.isDefEq.respectTransparency.types false in
/-- The run of @main, to the launch theorem's post over the region's proof data. -/
theorem region_run : θ_run defs (onTc (τ := τ) (main (F := F))) (s₀ m ρ)
    (Pipeline.FramePost cfgs (regionData m) 0 (Pipeline.afterTail₀ cfgs (regionData m) 0 (entry0 m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry0 m) (opss := [hostOps1]) (hsub := last_sub) (hfresh := last_fresh) (hkeep := last_keeps)
    (hmain := main_around m Variants.none) (hA := regionData_A m) (hΦ := fun _ _ => rfl)

/-- The frame: @main runs to the end, faults nowhere, and leaves its sixteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  unchanged_of_run m ρ (regionData m) (regionData_A m) (region_run m ρ)

end Cert.Kernel.Hand

end
-- ==== Proof.KernelIdealData.lean ====
/-
  The data of the one pipelined region, for any float instance.

  The region runs the fused body at 32 grid points; at point t it is handed rows 64t … 64t+63 of the two feature
  matrices (windows 0 and 1), every weight and bias whole (windows 2 … 16, fetched once), and a 64 × 2513 block of
  the result to fill (window 17). Here: the buffers' contents when the region is entered (`entry`: what the host
  lines before the region leave), each window's block of its array at a point (`blockAt`), what the body's single
  store leaves in the result block as a function of the seventeen loaded blocks (`stored`), and the proof data the
  launch theorem takes (`regionData`): every input block left in place, the result block at `stored`.
-/
import proofs.«133868_j19464791785861_1_alg».proof.Proof.Gen.KernelIdeal.Launch
import proofs.«133868_j19464791785861_1_alg».proof.Proof.Gen.KernelIdeal.Skeleton
import proofs.«133868_j19464791785861_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core c's buffers when the region is entered, as a valuation: what the host lines before the region compute from
    the launch contents. -/
abbrev entry0 (c : Dev nD) : Valuation τ sig (Elt F) := StableHlo.after (List.flatten [hostOps0]) (fun b => m (c, b))

/-- The same read at a TensorCore reference. -/
abbrev entry (c : Dev nD) (b : Ref sig .tc) : Buf (Elt F) ((c : Thread nD τ).loc b) := entry0 m c (Proc.devRef .tc b)

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The whole 64 × 2513 result block, as the rectangle the body stores through. -/
abbrev wholeOut : Rect S64x2513 := Rect.unit (s := S64x2513) ![0, 0] S64x2513.size inb_S64x2513_S64x2513_0_0

/-- What the body's one store writes, from the seventeen blocks it loads: the two score blocks (each a product with
    its weight block plus a bias row) weighted by the two columns of the gate block and added. -/
def storedValue (x0 : Vec F S64x1024 .bf16) (x1 : Vec F S64x1024 .bf16) (x2 : Vec F S1024x2513 .bf16) (x3 : Vec F S2513 .f32) (x4 : Vec F S1024x2048 .bf16) (x5 : Vec F S2048 .f32) (x6 : Vec F S1024x2513 .bf16) (x7 : Vec F S2513 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) : FVec F S64x2513 .f32 :=
  k0_pay1 (k0_pay5 (View.ld x1 (Rect.unit (s := S64x1024) ![0, 0] S64x1024.size inb_S64x1024_S64x1024_0_0)) (View.ld x6 (Rect.unit (s := S1024x2513) ![0, 0] S1024x2513.size inb_S1024x2513_S1024x2513_0_0)) (View.ld x7 (Rect.unit (s := S2513) ![0] S2513.size inb_S2513_S2513_0)))
    (k0_pay9 (k0_pay6 (View.ld x0 (Rect.unit (s := S64x1024) ![0, 0] S64x1024.size inb_S64x1024_S64x1024_0_0)) (View.ld x4 (Rect.unit (s := S1024x2048) ![0, 0] S1024x2048.size inb_S1024x2048_S1024x2048_0_0)) (View.ld x5 (Rect.unit (s := S2048) ![0] S2048.size inb_S2048_S2048_0))) (k0_pay7 (View.ld x1 (Rect.unit (s := S64x1024) ![0, 0] S64x1024.size inb_S64x1024_S64x1024_0_0)) (View.ld x8 (Rect.unit (s := S1024x2048) ![0, 0] S1024x2048.size inb_S1024x2048_S1024x2048_0_0)) (View.ld x9 (Rect.unit (s := S2048) ![0] S2048.size inb_S2048_S2048_0))) (k0_pay8 (View.ld x10 (Rect.unit (s := S2048x1024) ![0, 0] S2048x1024.size inb_S2048x1024_S2048x1024_0_0))) (constant S64x1024 .f32 0x00000000#32)
      (View.ld x11 (Rect.unit (s := S2048x1024) ![0, 0] S2048x1024.size inb_S2048x1024_S2048x1024_0_0)) (View.ld x12 (Rect.unit (s := S1024) ![0] S1024.size inb_S1024_S1024_0)) (View.ld x13 (Rect.unit (s := S1024x512) ![0, 0] S1024x512.size inb_S1024x512_S1024x512_0_0)) (View.ld x14 (Rect.unit (s := S512) ![0] S512.size inb_S512_S512_0)) (View.ld x15 (Rect.unit (s := S512x2) ![0, 0] S512x2.size inb_S512x2_S512x2_0_0)) (View.ld x16 (Rect.unit (s := S2) ![0] S2.size inb_S2_S2_0)))
    (k0_pay10 (k0_pay4 (View.ld x0 (Rect.unit (s := S64x1024) ![0, 0] S64x1024.size inb_S64x1024_S64x1024_0_0)) (View.ld x2 (Rect.unit (s := S1024x2513) ![0, 0] S1024x2513.size inb_S1024x2513_S1024x2513_0_0)) (View.ld x3 (Rect.unit (s := S2513) ![0] S2513.size inb_S2513_S2513_0))) (k0_pay6 (View.ld x0 (Rect.unit (s := S64x1024) ![0, 0] S64x1024.size inb_S64x1024_S64x1024_0_0)) (View.ld x4 (Rect.unit (s := S1024x2048) ![0, 0] S1024x2048.size inb_S1024x2048_S1024x2048_0_0)) (View.ld x5 (Rect.unit (s := S2048) ![0] S2048.size inb_S2048_S2048_0))) (k0_pay7 (View.ld x1 (Rect.unit (s := S64x1024) ![0, 0] S64x1024.size inb_S64x1024_S64x1024_0_0)) (View.ld x8 (Rect.unit (s := S1024x2048) ![0, 0] S1024x2048.size inb_S1024x2048_S1024x2048_0_0)) (View.ld x9 (Rect.unit (s := S2048) ![0] S2048.size inb_S2048_S2048_0))) (k0_pay8 (View.ld x10 (Rect.unit (s := S2048x1024) ![0, 0] S2048x1024.size inb_S2048x1024_S2048x1024_0_0))) (constant S64x1024 .f32 0x00000000#32)
      (View.ld x11 (Rect.unit (s := S2048x1024) ![0, 0] S2048x1024.size inb_S2048x1024_S2048x1024_0_0)) (View.ld x12 (Rect.unit (s := S1024) ![0] S1024.size inb_S1024_S1024_0)) (View.ld x13 (Rect.unit (s := S1024x512) ![0, 0] S1024x512.size inb_S1024x512_S1024x512_0_0)) (View.ld x14 (Rect.unit (s := S512) ![0] S512.size inb_S512_S512_0)) (View.ld x15 (Rect.unit (s := S512x2) ![0, 0] S512x2.size inb_S512x2_S512x2_0_0)) (View.ld x16 (Rect.unit (s := S2) ![0] S2.size inb_S2_S2_0)))

/-- The result block after the body: the one store through the whole-block rectangle. -/
def stored (x0 : Vec F S64x1024 .bf16) (x1 : Vec F S64x1024 .bf16) (x2 : Vec F S1024x2513 .bf16) (x3 : Vec F S2513 .f32) (x4 : Vec F S1024x2048 .bf16) (x5 : Vec F S2048 .f32) (x6 : Vec F S1024x2513 .bf16) (x7 : Vec F S2513 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) : Vec F S64x2513 .f32 :=
  View.canon [⟨wholeOut, storedValue x0 x1 x2 x3 x4 x5 x6 x7 x8 x9 x10 x11 x12 x13 x14 x15 x16⟩]

/-- The proof data of the pipeline on core c: the arrays as the region finds them; after the body at point t every
    input's staging buffer still at its block and the result's at `stored` of the blocks; the invariant the scoped rest
    and the generator register, untouched; nothing owed; full shares. -/
def regionData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => blockAt m c 15 t
    | ⟨16, _⟩ => blockAt m c 16 t
    | ⟨17, _⟩ => stored (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t)
    | ⟨_ + 18, h⟩ => absurd h (Nat.not_lt.2 (Nat.le_add_left _ _))
  Φ _ := Pipeline.ΦA spec0 c
  q _ := fullShare
  owed _ := 0

theorem regionData_A (c : Dev nD) (w : Fin cfg0.W) : (regionData m 0 c).A w = entry m c (Pipeline.arrRef spec0 w) := by
  dsimp only [regionData]

theorem after_0 (c : Dev nD) (t : Fin cfg0.N) : (regionData m 0 c).after 0 t = blockAt m c 0 t := by dsimp only [regionData]
theorem after_1 (c : Dev nD) (t : Fin cfg0.N) : (regionData m 0 c).after 1 t = blockAt m c 1 t := by dsimp only [regionData]
theorem after_2 (c : Dev nD) (t : Fin cfg0.N) : (regionData m 0 c).after 2 t = blockAt m c 2 t := by dsimp only [regionData]
theorem after_3 (c : Dev nD) (t : Fin cfg0.N) : (regionData m 0 c).after 3 t = blockAt m c 3 t := by dsimp only [regionData]
theorem after_4 (c : Dev nD) (t : Fin cfg0.N) : (regionData m 0 c).after 4 t = blockAt m c 4 t := by dsimp only [regionData]
theorem after_5 (c : Dev nD) (t : Fin cfg0.N) : (regionData m 0 c).after 5 t = blockAt m c 5 t := by dsimp only [regionData]
theorem after_6 (c : Dev nD) (t : Fin cfg0.N) : (regionData m 0 c).after 6 t = blockAt m c 6 t := by dsimp only [regionData]
theorem after_7 (c : Dev nD) (t : Fin cfg0.N) : (regionData m 0 c).after 7 t = blockAt m c 7 t := by dsimp only [regionData]
theorem after_8 (c : Dev nD) (t : Fin cfg0.N) : (regionData m 0 c).after 8 t = blockAt m c 8 t := by dsimp only [regionData]
theorem after_9 (c : Dev nD) (t : Fin cfg0.N) : (regionData m 0 c).after 9 t = blockAt m c 9 t := by dsimp only [regionData]
theorem after_10 (c : Dev nD) (t : Fin cfg0.N) : (regionData m 0 c).after 10 t = blockAt m c 10 t := by dsimp only [regionData]
theorem after_11 (c : Dev nD) (t : Fin cfg0.N) : (regionData m 0 c).after 11 t = blockAt m c 11 t := by dsimp only [regionData]
theorem after_12 (c : Dev nD) (t : Fin cfg0.N) : (regionData m 0 c).after 12 t = blockAt m c 12 t := by dsimp only [regionData]
theorem after_13 (c : Dev nD) (t : Fin cfg0.N) : (regionData m 0 c).after 13 t = blockAt m c 13 t := by dsimp only [regionData]
theorem after_14 (c : Dev nD) (t : Fin cfg0.N) : (regionData m 0 c).after 14 t = blockAt m c 14 t := by dsimp only [regionData]
theorem after_15 (c : Dev nD) (t : Fin cfg0.N) : (regionData m 0 c).after 15 t = blockAt m c 15 t := by dsimp only [regionData]
theorem after_16 (c : Dev nD) (t : Fin cfg0.N) : (regionData m 0 c).after 16 t = blockAt m c 16 t := by dsimp only [regionData]
theorem after_17 (c : Dev nD) (t : Fin cfg0.N) :
    (regionData m 0 c).after 17 t = stored (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) := by dsimp only [regionData]

end Cert.KernelIdeal.Hand

end
-- ==== Proof.KernelIdealBody.lean ====
/-
  The fused body at one grid point, for any float instance.

  Handed the seventeen input blocks in their staging buffers and the result's staging buffer at any contents, the body
  loads each input block whole, computes, loads the result buffer (a value it never uses) and stores the computed
  64 × 2513 block through the whole-buffer rectangle. So it ends with every input buffer as it was and the result buffer
  at `stored` of the loaded blocks: one store that covers the buffer leaves exactly its payload there.

  The pipeline calls the body at point t on the windows' current staging buffers. An input window's current buffer
  holds the window's block at t whether or not the pipeline fetched it there (windows 2 … 16 are fetched once, their
  block index never moves; windows 0 and 1 are fetched at every point), so the body obligation of the launch theorem
  follows from the body's triple at every point.
-/
import proofs.«133868_j19464791785861_1_alg».proof.Proof.KernelIdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The one store fills the result buffer -/

/-- The whole-buffer rectangle holds every index of the 64 × 2513 buffer. -/
theorem wholeOut_covers (p0 : Vec F S64x2513 .f32) (y : S64x2513.Idx) :
    ∃ pc ∈ ([⟨wholeOut, p0⟩] : List (View.Piece (Elt F) S64x2513 .f32)), y ∈ pc.1.set :=
  View.cover_of_tiled [⟨wholeOut, p0⟩] S64x2513.size (by rfl) y

/-! ## The body's triple -/

set_option maxHeartbeats 4000000 in
/-- On whole staging memrefs, the inputs' at contents x0 … x16 and the result's at anything: the body runs to its
    continuation holding the inputs' as they were and the result's at `stored x0 … x16`. -/
theorem body_triple (c : Dev nD) (E : Set ℕ) (i : grid0.Coords) (a0 : Memref sig .tc .vmem S64x1024 .bf16) (h0 : a0.IsWhole) (a1 : Memref sig .tc .vmem S64x1024 .bf16) (h1 : a1.IsWhole) (a2 : Memref sig .tc .vmem S1024x2513 .bf16) (h2 : a2.IsWhole) (a3 : Memref sig .tc .vmem S2513 .f32) (h3 : a3.IsWhole) (a4 : Memref sig .tc .vmem S1024x2048 .bf16) (h4 : a4.IsWhole) (a5 : Memref sig .tc .vmem S2048 .f32) (h5 : a5.IsWhole) (a6 : Memref sig .tc .vmem S1024x2513 .bf16) (h6 : a6.IsWhole) (a7 : Memref sig .tc .vmem S2513 .f32) (h7 : a7.IsWhole) (a8 : Memref sig .tc .vmem S1024x2048 .bf16) (h8 : a8.IsWhole) (a9 : Memref sig .tc .vmem S2048 .f32) (h9 : a9.IsWhole) (a10 : Memref sig .tc .vmem S2048x1024 .bf16) (h10 : a10.IsWhole) (a11 : Memref sig .tc .vmem S2048x1024 .bf16) (h11 : a11.IsWhole) (a12 : Memref sig .tc .vmem S1024 .f32) (h12 : a12.IsWhole) (a13 : Memref sig .tc .vmem S1024x512 .bf16) (h13 : a13.IsWhole) (a14 : Memref sig .tc .vmem S512 .f32) (h14 : a14.IsWhole) (a15 : Memref sig .tc .vmem S512x2 .bf16) (h15 : a15.IsWhole) (a16 : Memref sig .tc .vmem S2 .f32) (h16 : a16.IsWhole) (a17 : Memref sig .tc .vmem S64x2513 .f32) (h17 : a17.IsWhole)
    (x0 : Vec F S64x1024 .bf16) (x1 : Vec F S64x1024 .bf16) (x2 : Vec F S1024x2513 .bf16) (x3 : Vec F S2513 .f32) (x4 : Vec F S1024x2048 .bf16) (x5 : Vec F S2048 .f32) (x6 : Vec F S1024x2513 .bf16) (x7 : Vec F S2513 .f32) (x8 : Vec F S1024x2048 .bf16) (x9 : Vec F S2048 .f32) (x10 : Vec F S2048x1024 .bf16) (x11 : Vec F S2048x1024 .bf16) (x12 : Vec F S1024 .f32) (x13 : Vec F S1024x512 .bf16) (x14 : Vec F S512 .f32) (x15 : Vec F S512x2 .bf16) (x16 : Vec F S2 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare (stored x0 x1 x2 x3 x4 x5 x6 x7 x8 x9 x10 x11 x12 x13 x14 x15 x16)) -∗ K ⟨⟩))
      ⊢ wp frame (wpE (defs₀ (F := F)) Variants.none c none) E (cc0__fusion_kernel i a0 h0 a1 h1 a2 h2 a3 h3 a4 h4 a5 h5 a6 h6 a7 h7 a8 h8 a9 h9 a10 h10 a11 h11 a12 h12 a13 h13 a14 h14 a15 h15 a16 h16 a17 h17) K := by
  simp only [cc0__fusion_kernel_eq_skeleton]; unfold cc0__fusion_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (wholeOut_covers _)

/-! ## Each input window's current buffer holds its block -/

theorem held_0 (c : Dev nD) (t : Fin cfg0.N) (d) : (regionData m 0 c).before 0 t d = blockAt m c 0 t :=
  ((regionData m 0 c).before_in_eq_fetched 0 rfl (fun _ => rfl) (fun _ _ _ => rfl)
      (fun t => by rw [after_0]; unfold Dat.blockOf blockAt; rw [regionData_A]; try rfl) t d).trans
    (by unfold Dat.fetched Dat.blockOf blockAt; rw [regionData_A]; try rfl)
theorem held_1 (c : Dev nD) (t : Fin cfg0.N) (d) : (regionData m 0 c).before 1 t d = blockAt m c 1 t :=
  ((regionData m 0 c).before_in_eq_fetched 1 rfl (fun _ => rfl) (fun _ _ _ => rfl)
      (fun t => by rw [after_1]; unfold Dat.blockOf blockAt; rw [regionData_A]; try rfl) t d).trans
    (by unfold Dat.fetched Dat.blockOf blockAt; rw [regionData_A]; try rfl)
theorem held_2 (c : Dev nD) (t : Fin cfg0.N) (d) : (regionData m 0 c).before 2 t d = blockAt m c 2 t :=
  ((regionData m 0 c).before_in_eq_fetched 2 rfl (fun _ => rfl) (fun _ _ _ => rfl)
      (fun t => by rw [after_2]; unfold Dat.blockOf blockAt; rw [regionData_A]; try rfl) t d).trans
    (by unfold Dat.fetched Dat.blockOf blockAt; rw [regionData_A]; try rfl)
theorem held_3 (c : Dev nD) (t : Fin cfg0.N) (d) : (regionData m 0 c).before 3 t d = blockAt m c 3 t :=
  ((regionData m 0 c).before_in_eq_fetched 3 rfl (fun _ => rfl) (fun _ _ _ => rfl)
      (fun t => by rw [after_3]; unfold Dat.blockOf blockAt; rw [regionData_A]; try rfl) t d).trans
    (by unfold Dat.fetched Dat.blockOf blockAt; rw [regionData_A]; try rfl)
theorem held_4 (c : Dev nD) (t : Fin cfg0.N) (d) : (regionData m 0 c).before 4 t d = blockAt m c 4 t :=
  ((regionData m 0 c).before_in_eq_fetched 4 rfl (fun _ => rfl) (fun _ _ _ => rfl)
      (fun t => by rw [after_4]; unfold Dat.blockOf blockAt; rw [regionData_A]; try rfl) t d).trans
    (by unfold Dat.fetched Dat.blockOf blockAt; rw [regionData_A]; try rfl)
theorem held_5 (c : Dev nD) (t : Fin cfg0.N) (d) : (regionData m 0 c).before 5 t d = blockAt m c 5 t :=
  ((regionData m 0 c).before_in_eq_fetched 5 rfl (fun _ => rfl) (fun _ _ _ => rfl)
      (fun t => by rw [after_5]; unfold Dat.blockOf blockAt; rw [regionData_A]; try rfl) t d).trans
    (by unfold Dat.fetched Dat.blockOf blockAt; rw [regionData_A]; try rfl)
theorem held_6 (c : Dev nD) (t : Fin cfg0.N) (d) : (regionData m 0 c).before 6 t d = blockAt m c 6 t :=
  ((regionData m 0 c).before_in_eq_fetched 6 rfl (fun _ => rfl) (fun _ _ _ => rfl)
      (fun t => by rw [after_6]; unfold Dat.blockOf blockAt; rw [regionData_A]; try rfl) t d).trans
    (by unfold Dat.fetched Dat.blockOf blockAt; rw [regionData_A]; try rfl)
theorem held_7 (c : Dev nD) (t : Fin cfg0.N) (d) : (regionData m 0 c).before 7 t d = blockAt m c 7 t :=
  ((regionData m 0 c).before_in_eq_fetched 7 rfl (fun _ => rfl) (fun _ _ _ => rfl)
      (fun t => by rw [after_7]; unfold Dat.blockOf blockAt; rw [regionData_A]; try rfl) t d).trans
    (by unfold Dat.fetched Dat.blockOf blockAt; rw [regionData_A]; try rfl)
theorem held_8 (c : Dev nD) (t : Fin cfg0.N) (d) : (regionData m 0 c).before 8 t d = blockAt m c 8 t :=
  ((regionData m 0 c).before_in_eq_fetched 8 rfl (fun _ => rfl) (fun _ _ _ => rfl)
      (fun t => by rw [after_8]; unfold Dat.blockOf blockAt; rw [regionData_A]; try rfl) t d).trans
    (by unfold Dat.fetched Dat.blockOf blockAt; rw [regionData_A]; try rfl)
theorem held_9 (c : Dev nD) (t : Fin cfg0.N) (d) : (regionData m 0 c).before 9 t d = blockAt m c 9 t :=
  ((regionData m 0 c).before_in_eq_fetched 9 rfl (fun _ => rfl) (fun _ _ _ => rfl)
      (fun t => by rw [after_9]; unfold Dat.blockOf blockAt; rw [regionData_A]; try rfl) t d).trans
    (by unfold Dat.fetched Dat.blockOf blockAt; rw [regionData_A]; try rfl)
theorem held_10 (c : Dev nD) (t : Fin cfg0.N) (d) : (regionData m 0 c).before 10 t d = blockAt m c 10 t :=
  ((regionData m 0 c).before_in_eq_fetched 10 rfl (fun _ => rfl) (fun _ _ _ => rfl)
      (fun t => by rw [after_10]; unfold Dat.blockOf blockAt; rw [regionData_A]; try rfl) t d).trans
    (by unfold Dat.fetched Dat.blockOf blockAt; rw [regionData_A]; try rfl)
theorem held_11 (c : Dev nD) (t : Fin cfg0.N) (d) : (regionData m 0 c).before 11 t d = blockAt m c 11 t :=
  ((regionData m 0 c).before_in_eq_fetched 11 rfl (fun _ => rfl) (fun _ _ _ => rfl)
      (fun t => by rw [after_11]; unfold Dat.blockOf blockAt; rw [regionData_A]; try rfl) t d).trans
    (by unfold Dat.fetched Dat.blockOf blockAt; rw [regionData_A]; try rfl)
theorem held_12 (c : Dev nD) (t : Fin cfg0.N) (d) : (regionData m 0 c).before 12 t d = blockAt m c 12 t :=
  ((regionData m 0 c).before_in_eq_fetched 12 rfl (fun _ => rfl) (fun _ _ _ => rfl)
      (fun t => by rw [after_12]; unfold Dat.blockOf blockAt; rw [regionData_A]; try rfl) t d).trans
    (by unfold Dat.fetched Dat.blockOf blockAt; rw [regionData_A]; try rfl)
theorem held_13 (c : Dev nD) (t : Fin cfg0.N) (d) : (regionData m 0 c).before 13 t d = blockAt m c 13 t :=
  ((regionData m 0 c).before_in_eq_fetched 13 rfl (fun _ => rfl) (fun _ _ _ => rfl)
      (fun t => by rw [after_13]; unfold Dat.blockOf blockAt; rw [regionData_A]; try rfl) t d).trans
    (by unfold Dat.fetched Dat.blockOf blockAt; rw [regionData_A]; try rfl)
theorem held_14 (c : Dev nD) (t : Fin cfg0.N) (d) : (regionData m 0 c).before 14 t d = blockAt m c 14 t :=
  ((regionData m 0 c).before_in_eq_fetched 14 rfl (fun _ => rfl) (fun _ _ _ => rfl)
      (fun t => by rw [after_14]; unfold Dat.blockOf blockAt; rw [regionData_A]; try rfl) t d).trans
    (by unfold Dat.fetched Dat.blockOf blockAt; rw [regionData_A]; try rfl)
theorem held_15 (c : Dev nD) (t : Fin cfg0.N) (d) : (regionData m 0 c).before 15 t d = blockAt m c 15 t :=
  ((regionData m 0 c).before_in_eq_fetched 15 rfl (fun _ => rfl) (fun _ _ _ => rfl)
      (fun t => by rw [after_15]; unfold Dat.blockOf blockAt; rw [regionData_A]; try rfl) t d).trans
    (by unfold Dat.fetched Dat.blockOf blockAt; rw [regionData_A]; try rfl)
theorem held_16 (c : Dev nD) (t : Fin cfg0.N) (d) : (regionData m 0 c).before 16 t d = blockAt m c 16 t :=
  ((regionData m 0 c).before_in_eq_fetched 16 rfl (fun _ => rfl) (fun _ _ _ => rfl)
      (fun t => by rw [after_16]; unfold Dat.blockOf blockAt; rw [regionData_A]; try rfl) t d).trans
    (by unfold Dat.fetched Dat.blockOf blockAt; rw [regionData_A]; try rfl)

/-! ## The body obligation -/

/-- What the body is called with at point t, the windows one by one, -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d))
    ∗ (∃ d, owns (c : Thread nD τ) (st0_6 t) fullShare ((regionData m 0 c).before 6 t d))
    ∗ (∃ d, owns (c : Thread nD τ) (st0_7 t) fullShare ((regionData m 0 c).before 7 t d))
    ∗ (∃ d, owns (c : Thread nD τ) (st0_8 t) fullShare ((regionData m 0 c).before 8 t d))
    ∗ (∃ d, owns (c : Thread nD τ) (st0_9 t) fullShare ((regionData m 0 c).before 9 t d))
    ∗ (∃ d, owns (c : Thread nD τ) (st0_10 t) fullShare ((regionData m 0 c).before 10 t d))
    ∗ (∃ d, owns (c : Thread nD τ) (st0_11 t) fullShare ((regionData m 0 c).before 11 t d))
    ∗ (∃ d, owns (c : Thread nD τ) (st0_12 t) fullShare ((regionData m 0 c).before 12 t d))
    ∗ (∃ d, owns (c : Thread nD τ) (st0_13 t) fullShare ((regionData m 0 c).before 13 t d))
    ∗ (∃ d, owns (c : Thread nD τ) (st0_14 t) fullShare ((regionData m 0 c).before 14 t d))
    ∗ (∃ d, owns (c : Thread nD τ) (st0_15 t) fullShare ((regionData m 0 c).before 15 t d))
    ∗ (∃ d, owns (c : Thread nD τ) (st0_16 t) fullShare ((regionData m 0 c).before 16 t d))
    ∗ (∃ d, owns (c : Thread nD τ) (st0_17 t) fullShare ((regionData m 0 c).before 17 t d)))

/-- and what it hands back. -/
def handedBack (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t)
    ∗ owns (c : Thread nD τ) (st0_6 t) fullShare ((regionData m 0 c).after 6 t)
    ∗ owns (c : Thread nD τ) (st0_7 t) fullShare ((regionData m 0 c).after 7 t)
    ∗ owns (c : Thread nD τ) (st0_8 t) fullShare ((regionData m 0 c).after 8 t)
    ∗ owns (c : Thread nD τ) (st0_9 t) fullShare ((regionData m 0 c).after 9 t)
    ∗ owns (c : Thread nD τ) (st0_10 t) fullShare ((regionData m 0 c).after 10 t)
    ∗ owns (c : Thread nD τ) (st0_11 t) fullShare ((regionData m 0 c).after 11 t)
    ∗ owns (c : Thread nD τ) (st0_12 t) fullShare ((regionData m 0 c).after 12 t)
    ∗ owns (c : Thread nD τ) (st0_13 t) fullShare ((regionData m 0 c).after 13 t)
    ∗ owns (c : Thread nD τ) (st0_14 t) fullShare ((regionData m 0 c).after 14 t)
    ∗ owns (c : Thread nD τ) (st0_15 t) fullShare ((regionData m 0 c).after 15 t)
    ∗ owns (c : Thread nD τ) (st0_16 t) fullShare ((regionData m 0 c).after 16 t)
    ∗ owns (c : Thread nD τ) (st0_17 t) fullShare ((regionData m 0 c).after 17 t))

set_option maxHeartbeats 2000000 in
/-- The body at any point: its input buffers hold their blocks, so the triple applies; the invariant and the core's
    debt pass through untouched. -/
theorem body_at (c : Dev nD) (t : Fin cfg0.N) :
    handed m c t ⊢ wp frame (wpE (defs₀ (F := F)) Variants.none c none) Set.univ (bodyAt0 t) (fun _ => handedBack m c t) := by
  unfold handed handedBack bodyAt0
  simp only [held_0, held_1, held_2, held_3, held_4, held_5, held_6, held_7, held_8, held_9, held_10, held_11, held_12, held_13, held_14, held_15, held_16]
  rw [show (regionData m 0 c).Φ t.succ = (regionData m 0 c).Φ t.castSucc from rfl,
    show (regionData m 0 c).owesAt () t.succ = (regionData m 0 c).owesAt () t.castSucc from rfl,
    after_0, after_1, after_2, after_3, after_4, after_5, after_6, after_7, after_8, after_9, after_10, after_11, after_12, after_13, after_14, after_15, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body_triple c Set.univ (grid0.coords t) _ _ _ _ _ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The launch theorem's body obligation, at every point. -/
theorem body_obligation (c : Dev nD) : BodyObligation (regionData (F := F) m 0 c) (defs₀ (F := F)) Variants.none () Set.univ := fun t => by
  rw [bigSep_W0, bigSep_W0]
  exact body_at m c t

end Cert.KernelIdeal.Hand

end
-- ==== Proof.KernelIdealEntry.lean ====
/-
  The host lines around the region, for any float instance.

  Before the region @main runs forty host lines: it cuts frames 12, 16, 20 and 24 out of each feature array, lays the
  four side by side, flattens them to 2048 rows, and narrows them and the weight matrices to the short float format
  (W1 first cut into its upper and lower 2048 rows). After the region one line reshapes the 2048 × 2513 result to
  512 × 4 × 2513. Every one of these lines writes a buffer of its own and none writes an argument, so each argument
  array is found by the region as launched (`entry_arg`), and the ones no window stages are left as launched by the
  last line too (`exit_arg`). The lines allocate nothing, touch TensorCore buffers only, and the last one writes no
  array of the pipeline: what the launch theorem asks of them. With that, a run to the launch theorem's post is a
  run after which all sixteen arguments are unchanged (`unchanged_of_run`).
-/
import proofs.«133868_j19464791785861_1_alg».proof.Proof.KernelIdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the host lines before the region, the region, and the line after it: up to the region it leaves the
    buffers at `entry`, and continues with the last line. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only arrays of the pipeline and buffers that bypass it. -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem last_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop

/-- And it writes only its own result, which is no array of the pipeline. -/
theorem last_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The arguments -/

/-- No host line before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 15: the region finds it as launched. -/
theorem entry_arg15 (c : Dev nD) : entry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it, and no window stages argument 0: it ends as launched. -/
theorem exit_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg0 (by exact (by decide : ∀ w, Pipeline.arrRef spec0 w ≠ main_arg0))]
  exact entry_arg0 m c
/-- Nor does the line after it, and no window stages argument 1: it ends as launched. -/
theorem exit_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg1 (by exact (by decide : ∀ w, Pipeline.arrRef spec0 w ≠ main_arg1))]
  exact entry_arg1 m c
/-- Nor does the line after it, and no window stages argument 2: it ends as launched. -/
theorem exit_arg2 (dats : (p : Fin _) → (c : Dev nD) → Dat τ (Elt F) Unit ℕ (UR sig nD τ) ℕ (cfgs p) c) (c : Dev nD) :
    Pipeline.afterTail₀ cfgs dats 0 (entry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg2 (by exact (by decide : ∀ w, Pipeline.arrRef spec0 w ≠ main_arg2))]
  exact entry_arg2 m c
/-- Nor does the line after it, and no window stages argument 4: it ends as launched. -/
theorem exit_arg4 (dats : (p : Fin _) → (c : Dev nD) → Dat τ (Elt F) Unit ℕ (UR sig nD τ) ℕ (cfgs p) c) (c : Dev nD) :
    Pipeline.afterTail₀ cfgs dats 0 (entry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg4 (by exact (by decide : ∀ w, Pipeline.arrRef spec0 w ≠ main_arg4))]
  exact entry_arg4 m c
/-- Nor does the line after it, and no window stages argument 6: it ends as launched. -/
theorem exit_arg6 (dats : (p : Fin _) → (c : Dev nD) → Dat τ (Elt F) Unit ℕ (UR sig nD τ) ℕ (cfgs p) c) (c : Dev nD) :
    Pipeline.afterTail₀ cfgs dats 0 (entry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg6 (by exact (by decide : ∀ w, Pipeline.arrRef spec0 w ≠ main_arg6))]
  exact entry_arg6 m c
/-- Nor does the line after it, and no window stages argument 8: it ends as launched. -/
theorem exit_arg8 (dats : (p : Fin _) → (c : Dev nD) → Dat τ (Elt F) Unit ℕ (UR sig nD τ) ℕ (cfgs p) c) (c : Dev nD) :
    Pipeline.afterTail₀ cfgs dats 0 (entry0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg8 (by exact (by decide : ∀ w, Pipeline.arrRef spec0 w ≠ main_arg8))]
  exact entry_arg8 m c
/-- Nor does the line after it, and no window stages argument 10: it ends as launched. -/
theorem exit_arg10 (dats : (p : Fin _) → (c : Dev nD) → Dat τ (Elt F) Unit ℕ (UR sig nD τ) ℕ (cfgs p) c) (c : Dev nD) :
    Pipeline.afterTail₀ cfgs dats 0 (entry0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg10 (by exact (by decide : ∀ w, Pipeline.arrRef spec0 w ≠ main_arg10))]
  exact entry_arg10 m c
/-- Nor does the line after it, and no window stages argument 12: it ends as launched. -/
theorem exit_arg12 (dats : (p : Fin _) → (c : Dev nD) → Dat τ (Elt F) Unit ℕ (UR sig nD τ) ℕ (cfgs p) c) (c : Dev nD) :
    Pipeline.afterTail₀ cfgs dats 0 (entry0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg12 (by exact (by decide : ∀ w, Pipeline.arrRef spec0 w ≠ main_arg12))]
  exact entry_arg12 m c
/-- Nor does the line after it, and no window stages argument 14: it ends as launched. -/
theorem exit_arg14 (dats : (p : Fin _) → (c : Dev nD) → Dat τ (Elt F) Unit ℕ (UR sig nD τ) ℕ (cfgs p) c) (c : Dev nD) :
    Pipeline.afterTail₀ cfgs dats 0 (entry0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (entry0 m c) _ main_arg14 (by exact (by decide : ∀ w, Pipeline.arrRef spec0 w ≠ main_arg14))]
  exact entry_arg14 m c

/-- In a state satisfying the launch theorem's post, for any proof data whose arrays are the region-entry contents, every
    argument array is as launched. An argument a window stages is an input window's array, never written back; any
    other is a bypassing buffer, as the last line leaves it. -/
theorem unchanged_of_post (dats : (p : Fin 1) → (c : Dev nD) → Dat τ (Elt F) Unit ℕ (UR sig nD τ) ℕ (cfgs p) c)
    (hA : ∀ c w, (dats 0 c).A w = entry m c (Pipeline.arrRef spec0 w)) (r : PUnit × MemSt nD τ sig (Elt F))
    (h : Pipeline.FramePost cfgs dats 0 (Pipeline.afterTail₀ cfgs dats 0 (entry0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (exit_arg0 m dats c),
      ((h c).2 main_arg1 (Pipeline.mem_restRefs_of main_arg1 (by decide) (by decide))).trans (exit_arg1 m dats c),
      ((h c).2 main_arg2 (Pipeline.mem_restRefs_of main_arg2 (by decide) (by decide))).trans (exit_arg2 m dats c),
      ((h c).1 3).trans (((dats 0 c).arrAt_in 3 rfl _).trans ((hA c 3).trans (entry_arg3 m c))),
      ((h c).2 main_arg4 (Pipeline.mem_restRefs_of main_arg4 (by decide) (by decide))).trans (exit_arg4 m dats c),
      ((h c).1 5).trans (((dats 0 c).arrAt_in 5 rfl _).trans ((hA c 5).trans (entry_arg5 m c))),
      ((h c).2 main_arg6 (Pipeline.mem_restRefs_of main_arg6 (by decide) (by decide))).trans (exit_arg6 m dats c),
      ((h c).1 7).trans (((dats 0 c).arrAt_in 7 rfl _).trans ((hA c 7).trans (entry_arg7 m c))),
      ((h c).2 main_arg8 (Pipeline.mem_restRefs_of main_arg8 (by decide) (by decide))).trans (exit_arg8 m dats c),
      ((h c).1 9).trans (((dats 0 c).arrAt_in 9 rfl _).trans ((hA c 9).trans (entry_arg9 m c))),
      ((h c).2 main_arg10 (Pipeline.mem_restRefs_of main_arg10 (by decide) (by decide))).trans (exit_arg10 m dats c),
      ((h c).1 12).trans (((dats 0 c).arrAt_in 12 rfl _).trans ((hA c 12).trans (entry_arg11 m c))),
      ((h c).2 main_arg12 (Pipeline.mem_restRefs_of main_arg12 (by decide) (by decide))).trans (exit_arg12 m dats c),
      ((h c).1 14).trans (((dats 0 c).arrAt_in 14 rfl _).trans ((hA c 14).trans (entry_arg13 m c))),
      ((h c).2 main_arg14 (Pipeline.mem_restRefs_of main_arg14 (by decide) (by decide))).trans (exit_arg14 m dats c),
      ((h c).1 16).trans (((dats 0 c).arrAt_in 16 rfl _).trans ((hA c 16).trans (entry_arg15 m c)))⟩

/-- So a run to that post is a run after which all sixteen arguments are unchanged. -/
theorem unchanged_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => unchanged_of_post m dats hA r h c) h

end Cert.KernelIdeal.Hand

end
-- ==== Proof.KernelIdealRun.lean ====
/-
  The region's run and the frame, for any float instance.

  With the body obligation at every point, full shares, nothing owed, and the host lines around the region as the
  launch theorem asks, every weakly fair execution of @main terminates without a fault; afterwards each array of the
  pipeline holds what the proof data say (an input its entry contents, the result the blocks the body left,
  written back point by point) and every other buffer what the last host line leaves. In particular the sixteen
  arguments are unchanged.
-/
import proofs.«133868_j19464791785861_1_alg».proof.Proof.KernelIdealBody
import proofs.«133868_j19464791785861_1_alg».proof.Proof.KernelIdealEntry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- The run of @main, to the launch theorem's post over the region's proof data. -/
theorem region_run : θ_run defs (onTc (τ := τ) (main (F := F))) (s₀ m ρ)
    (Pipeline.FramePost cfgs (regionData m) 0 (Pipeline.afterTail₀ cfgs (regionData m) 0 (entry0 m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry0 m) (opss := [hostOps1]) (hsub := last_sub) (hfresh := last_fresh) (hkeep := last_keeps)
    (hmain := main_around m Variants.none) (hA := regionData_A m) (hΦ := fun _ _ => rfl)

/-- The frame: @main runs to the end, faults nowhere, and leaves its sixteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  unchanged_of_run m ρ (regionData m) (regionData_A m) (region_run m ρ)

end Cert.KernelIdeal.Hand

end
-- ==== Proof.Spec.lean ====
/-
  The two-branch scorer with a learned gate, one row at a time, over the extended reals.

  A row of the result belongs to a batch entry b and one of four kept frames l (frame 12 + 4l of the 28). From the
  two branches' feature rows u0 = x0[b, 12+4l, :] and u1 = x1[b, 12+4l, :] it is

      score0(u0) · g0 + score1(u1) · g1,          (g0, g1) = softmax(logits(h2(h1(ctx0(u0), ctx1(u1))))),

  every map affine (`u · W + bias`), h1 and h2 followed by max(·, 0), and the softmax over the two logits taken as
  exp(z − peak) over the sum of the two such exponentials, peak the larger logit.

  The first hidden layer contracts the two context rows against the 4096 rows of W1. That contraction is written here
  in two ways: the two halves summed apart and then added (`hiddenSplit`), and one sum over the joined row of length
  4096 (`hiddenJoined`). They agree on the extended reals because addition there is commutative and associative: a
  finite sum over 2048 + 2048 indices is the sum of its two halves, and nothing asks that a term be finite.
-/
import Idealize.ShloMosaic.PureOps.Ideal
import Idealize.ShloMosaic.Lib.ValueIdx

noncomputable section

namespace Cert.Fusion

open Idealize.ShloMosaic Idealize.ShloMosaic.ValueIdx

/-- `u · W[:, n] + b[n]`: entry n of the affine image of a row u. -/
def affine {K N : ℕ} (W : Fin K → Fin N → EReal) (b : Fin N → EReal) (u : Fin K → EReal) (n : Fin N) : EReal :=
  (∑ k : Fin K, u k * W k n) + b n

/-- The weights and biases, as functions of their coordinates. -/
structure Params where
  Ws0 : Fin 1024 → Fin 2513 → EReal
  bs0 : Fin 2513 → EReal
  Wc0 : Fin 1024 → Fin 2048 → EReal
  bc0 : Fin 2048 → EReal
  Ws1 : Fin 1024 → Fin 2513 → EReal
  bs1 : Fin 2513 → EReal
  Wc1 : Fin 1024 → Fin 2048 → EReal
  bc1 : Fin 2048 → EReal
  W1 : Fin 4096 → Fin 1024 → EReal
  b1 : Fin 1024 → EReal
  W2 : Fin 1024 → Fin 512 → EReal
  b2 : Fin 512 → EReal
  W3 : Fin 512 → Fin 2 → EReal
  b3 : Fin 2 → EReal

/-- max(x, 0). -/
def rectify (x : EReal) : EReal := max x 0

/-- The larger of the two logits (taken from −∞ upward, as both programs do). -/
def peak (z : Fin 2 → EReal) : EReal := max ⊥ (⨆ k : Fin 2, z k)

/-- The softmax of a pair of logits. -/
def soft (z : Fin 2 → EReal) (j : Fin 2) : EReal :=
  Ideal.div (Ideal.exp (z j - peak z)) (∑ k : Fin 2, Ideal.exp (z k - peak z))

/-- Row k of the upper half of W1 (rows 0 … 2047) and of its lower half (rows 2048 … 4095). -/
def upper (P : Params) (k : Fin 2048) (n : Fin 1024) : EReal := P.W1 ⟨k.val, by have := k.isLt; omega⟩ n
def lower (P : Params) (k : Fin 2048) (n : Fin 1024) : EReal := P.W1 ⟨2048 + k.val, by have := k.isLt; omega⟩ n

/-- The first hidden layer with the contraction taken half by half. -/
def hiddenSplit (P : Params) (c0 c1 : Fin 2048 → EReal) (n : Fin 1024) : EReal :=
  rectify (((∑ k : Fin 2048, c0 k * upper P k n) + (∑ k : Fin 2048, c1 k * lower P k n)) + P.b1 n)

/-- The two context rows laid end to end. -/
def join (c0 c1 : Fin 2048 → EReal) (k : Fin 4096) : EReal :=
  if h : k.val < 2048 then c0 ⟨k.val, h⟩ else c1 ⟨k.val - 2048, by have := k.isLt; omega⟩

/-- The first hidden layer with one contraction over the joined row. -/
def hiddenJoined (P : Params) (c0 c1 : Fin 2048 → EReal) (n : Fin 1024) : EReal :=
  rectify (affine P.W1 P.b1 (join c0 c1) n)

/-- From the first hidden row to the two gate weights. -/
def gate (P : Params) (h1 : Fin 1024 → EReal) : Fin 2 → EReal :=
  soft (affine P.W3 P.b3 fun k => rectify (affine P.W2 P.b2 h1 k))

/-- One entry of a result row, given the row's first hidden layer. -/
def mix (P : Params) (u0 u1 : Fin 1024 → EReal) (h1 : Fin 1024 → EReal) (q : Fin 2513) : EReal :=
  affine P.Ws0 P.bs0 u0 q * gate P h1 0 + affine P.Ws1 P.bs1 u1 q * gate P h1 1

/-- A result row with the split contraction, -/
def fusedSplit (P : Params) (u0 u1 : Fin 1024 → EReal) (q : Fin 2513) : EReal :=
  mix P u0 u1 (hiddenSplit P (affine P.Wc0 P.bc0 u0) (affine P.Wc1 P.bc1 u1)) q

/-- and with the joined one. -/
def fusedJoined (P : Params) (u0 u1 : Fin 1024 → EReal) (q : Fin 2513) : EReal :=
  mix P u0 u1 (hiddenJoined P (affine P.Wc0 P.bc0 u0) (affine P.Wc1 P.bc1 u1)) q

/-- A sum over 4096 = 2048 + 2048 indices is the sum over the first 2048 plus the sum over the last 2048. -/
theorem sum_halves (f : Fin 4096 → EReal) :
    (∑ k : Fin 4096, f k)
      = (∑ k : Fin 2048, f ⟨k.val, by have := k.isLt; omega⟩) + ∑ k : Fin 2048, f ⟨2048 + k.val, by have := k.isLt; omega⟩ := by
  have h := Fin.sum_univ_add (M := EReal) (a := 2048) (b := 2048) f
  exact h

/-- The two spellings of the first hidden layer agree. -/
theorem hiddenSplit_eq_hiddenJoined (P : Params) (c0 c1 : Fin 2048 → EReal) :
    hiddenSplit P c0 c1 = hiddenJoined P c0 c1 := by
  funext n
  unfold hiddenSplit hiddenJoined affine
  rw [sum_halves]
  have hu : ∀ k : Fin 2048, join c0 c1 ⟨k.val, by have := k.isLt; omega⟩ = c0 k := fun k => by
    unfold join
    rw [dif_pos (show (⟨k.val, _⟩ : Fin 4096).val < 2048 from k.isLt)]
  have hl : ∀ k : Fin 2048, join c0 c1 ⟨2048 + k.val, by have := k.isLt; omega⟩ = c1 k := fun k => by
    unfold join
    rw [dif_neg (show ¬ (⟨2048 + k.val, _⟩ : Fin 4096).val < 2048 from by show ¬ 2048 + k.val < 2048; omega)]
    exact congrArg c1 (Fin.ext (by show 2048 + k.val - 2048 = k.val; omega))
  simp only [hu, hl, upper, lower]

/-- So do the two spellings of a result row. -/
theorem fusedSplit_eq_fusedJoined (P : Params) (u0 u1 : Fin 1024 → EReal) :
    fusedSplit P u0 u1 = fusedJoined P u0 u1 := by
  unfold fusedSplit fusedJoined
  rw [hiddenSplit_eq_hiddenJoined]

/-! ## The arrays -/

/-- The weights read off their arrays. -/
def params
    (a2 : (⟨2, ![1024, 2513]⟩ : Shape).Idx → EReal) (a3 : (⟨1, ![2513]⟩ : Shape).Idx → EReal)
    (a4 : (⟨2, ![1024, 2048]⟩ : Shape).Idx → EReal) (a5 : (⟨1, ![2048]⟩ : Shape).Idx → EReal)
    (a6 : (⟨2, ![1024, 2513]⟩ : Shape).Idx → EReal) (a7 : (⟨1, ![2513]⟩ : Shape).Idx → EReal)
    (a8 : (⟨2, ![1024, 2048]⟩ : Shape).Idx → EReal) (a9 : (⟨1, ![2048]⟩ : Shape).Idx → EReal)
    (a10 : (⟨2, ![4096, 1024]⟩ : Shape).Idx → EReal) (a11 : (⟨1, ![1024]⟩ : Shape).Idx → EReal)
    (a12 : (⟨2, ![1024, 512]⟩ : Shape).Idx → EReal) (a13 : (⟨1, ![512]⟩ : Shape).Idx → EReal)
    (a14 : (⟨2, ![512, 2]⟩ : Shape).Idx → EReal) (a15 : (⟨1, ![2]⟩ : Shape).Idx → EReal) : Params where
  Ws0 k n := a2 (ix2 k n)
  bs0 n := a3 (ix1 n)
  Wc0 k n := a4 (ix2 k n)
  bc0 n := a5 (ix1 n)
  Ws1 k n := a6 (ix2 k n)
  bs1 n := a7 (ix1 n)
  Wc1 k n := a8 (ix2 k n)
  bc1 n := a9 (ix1 n)
  W1 k n := a10 (ix2 k n)
  b1 n := a11 (ix1 n)
  W2 k n := a12 (ix2 k n)
  b2 n := a13 (ix1 n)
  W3 k n := a14 (ix2 k n)
  b3 n := a15 (ix1 n)

/-- The feature row of batch entry b at the l-th kept frame: frame 12 + 4l of the 28. -/
def frameAt (x : (⟨3, ![512, 28, 1024]⟩ : Shape).Idx → EReal) (b : Fin 512) (l : Fin 4) (k : Fin 1024) : EReal :=
  x (ix3 b ⟨12 + 4 * l.val, by have := l.isLt; omega⟩ k)

/-- Row r of the 2048 rows, r = 4b + l. -/
def rowAt (x : (⟨3, ![512, 28, 1024]⟩ : Shape).Idx → EReal) (r : Fin 2048) (k : Fin 1024) : EReal :=
  frameAt x ⟨r.val / 4, by have := r.isLt; omega⟩ ⟨r.val % 4, Nat.mod_lt _ (by decide)⟩ k

theorem rowAt_flat (x : (⟨3, ![512, 28, 1024]⟩ : Shape).Idx → EReal) (b : Fin 512) (l : Fin 4) :
    rowAt x ⟨4 * b.val + l.val, by have := b.isLt; have := l.isLt; omega⟩ = frameAt x b l := by
  funext k
  unfold rowAt
  congr 1
  · exact Fin.ext (by show (4 * b.val + l.val) / 4 = b.val; have := l.isLt; omega)
  · exact Fin.ext (by show (4 * b.val + l.val) % 4 = l.val; have := l.isLt; omega)

/-- THE RESULT: entry (b, l, q), with the joined contraction. -/
def result (x0 x1 : (⟨3, ![512, 28, 1024]⟩ : Shape).Idx → EReal) (P : Params) (b : Fin 512) (l : Fin 4) (q : Fin 2513) : EReal :=
  fusedJoined P (frameAt x0 b l) (frameAt x1 b l) q

/-- The same as an array over [512, 4, 2513]. -/
def resultArr (x0 x1 : (⟨3, ![512, 28, 1024]⟩ : Shape).Idx → EReal) (P : Params) : (⟨3, ![512, 4, 2513]⟩ : Shape).Idx → EReal :=
  fun i => result x0 x1 P ⟨(i 0).val, (i 0).isLt⟩ ⟨(i 1).val, (i 1).isLt⟩ ⟨(i 2).val, (i 2).isLt⟩

theorem resultArr_ix3 (x0 x1 : (⟨3, ![512, 28, 1024]⟩ : Shape).Idx → EReal) (P : Params) (b : Fin 512) (l : Fin 4) (q : Fin 2513) :
    resultArr x0 x1 P (ix3 b l q) = result x0 x1 P b l q := rfl

end Cert.Fusion

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumns.lean ====
/-
  Columns of a two-axis array, read at an index.

  A unit-stride slice that keeps every row and the single column `c` of an `[n, w]` array is, at row `r`,
  the array's entry `(r, c)`. The concatenation along the second axis of four `[n, 1]` columns is, at
  `(r, k)`, the `k`-th column at row `r`. Both hold for any element type and any row count.
-/
import Idealize.ShloMosaic.Lib.ValueIdx
import Idealize.ShloMosaic.Lib.Pipeline.Value

namespace Cert.Columns

open Idealize.ShloMosaic Idealize.ShloMosaic.ValueIdx

variable {α : Type}

/-- The slice `[0:n, off:off+1]` of an `[n, w]` array, read at row `r`, is the array at `(r, c)` for the
    column `c` whose number is `off`. -/
theorem slice_col_apply {n w : Nat} (off : Nat) (x : (⟨2, ![n, w]⟩ : Shape).Idx → α)
    (h : (⟨2, ![n, w]⟩ : Shape).Slices ![0, off] ⟨2, ![n, 1]⟩) (r : Fin n) (z : Fin 1) (c : Fin w)
    (hc : c.val = off) :
    extractStridedSlice ⟨2, ![n, 1]⟩ ![0, off] x h (ix2 r z) = x (ix2 r c) :=
  extractStridedSlice_apply _ x h _ _ fun a => by
    match a with
    | ⟨0, _⟩ => show r.val = 0 + r.val; omega
    | ⟨1, _⟩ => show c.val = off + z.val; have := z.isLt; omega

/-- Four `[n, 1]` columns concatenated along the second axis, read at `(r, k)`: column `k` at row `r`. -/
theorem concat4_cols_apply {n : Nat} (x0 x1 x2 x3 : (⟨2, ![n, 1]⟩ : Shape).Idx → α)
    (h : Shape.Concatenates
      (([⟨⟨2, ![n, 1]⟩, x0⟩, ⟨⟨2, ![n, 1]⟩, x1⟩, ⟨⟨2, ![n, 1]⟩, x2⟩, ⟨⟨2, ![n, 1]⟩, x3⟩] :
        List ((s : Shape) × (s.Idx → α))).map (·.1)) (⟨2, ![n, 4]⟩ : Shape) 1)
    (r : Fin n) (k : Fin 4) :
    concatenate (⟨2, ![n, 4]⟩ : Shape) 1
        [⟨⟨2, ![n, 1]⟩, x0⟩, ⟨⟨2, ![n, 1]⟩, x1⟩, ⟨⟨2, ![n, 1]⟩, x2⟩, ⟨⟨2, ![n, 1]⟩, x3⟩] h (ix2 r k)
      = (![x0, x1, x2, x3] k) (ix2 r 0) := by
  have hi : ∀ b : Fin (⟨2, ![n, 1]⟩ : Shape).rank, b.cast (rfl : (2 : Nat) = 2) ≠ (1 : Fin 2) →
      ((ix2 r (0 : Fin 1)) b).val = ((ix2 r k) (b.cast rfl)).val := fun b hb => by
    match b with
    | ⟨0, _⟩ => rfl
    | ⟨1, _⟩ => exact absurd rfl hb
  match k with
  | ⟨0, _⟩ => exact concatenate_apply_piece 1 _ h _ 0 (show 0 < 4 by decide) _ x0 rfl rfl 0 rfl (ix2 r 0) hi rfl
  | ⟨1, _⟩ => exact concatenate_apply_piece 1 _ h _ 1 (show 1 < 4 by decide) _ x1 rfl rfl 1 rfl (ix2 r 0) hi rfl
  | ⟨2, _⟩ => exact concatenate_apply_piece 1 _ h _ 2 (show 2 < 4 by decide) _ x2 rfl rfl 2 rfl (ix2 r 0) hi rfl
  | ⟨3, _⟩ => exact concatenate_apply_piece 1 _ h _ 3 (show 3 < 4 by decide) _ x3 rfl rfl 3 rfl (ix2 r 0) hi rfl

end Cert.Columns
-- ==== Proof.KernelIdealBlock.lean ====
/-
  The stored block at an entry is a row of the specification.

  The body's value is a short chain of whole-block operations. Read at one entry (p, q) each link is elementary: a product
  into a zero block plus a bias row is the affine image of row p of its left factor; max(·, 0) and a change of format act
  entry by entry, the latter as the identity on the extended reals; the row maximum from −∞ and the row sum of the
  exponentials, each spread back over the two columns, are the peak and the normalising sum of the softmax of row p; a
  single column cut out of the 64 × 2 gate block and spread over a result row is that block's entry (p, c). Composing
  these along the chain gives the result row with the split contraction, the two halves of W1 being the two blocks of
  weights the first hidden layer multiplies by.
-/
import proofs.«133868_j19464791785861_1_alg».proof.Proof.KernelIdealData
import proofs.«133868_j19464791785861_1_alg».proof.Proof.Spec
import proofs.«133868_j19464791785861_1_alg».proof.Proof.LibSideBySide
import proofs.«133868_j19464791785861_1_alg».proof.Proof.LibExtremum
import proofs.«133868_j19464791785861_1_alg».proof.Proof.LibKeepdims
import proofs.«133868_j19464791785861_1_alg».proof.Proof.LibColumns
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Fusion

/-! ## The whole-block rectangle -/

/-- The offsets of a whole-block load, however many axes, are all zero. -/
theorem zeros1 : (![0] : Fin 1 → Nat) = fun _ => 0 := funext fun a => by fin_cases a; rfl
theorem zeros2 : (![0, 0] : Fin 2 → Nat) = fun _ => 0 := funext fun a => by fin_cases a <;> rfl

/-! ## One affine map: a product into a zero block plus a bias row -/

/-- Entry (p, q) of A·W plus the bias vector laid along every row is the affine image of row p of A at q. -/
theorem layer_apply {r k n : ℕ} {φ₁ φ₂ : FTy} (d : DotDims ⟨2, ![r, k]⟩ ⟨2, ![k, n]⟩ ⟨2, ![r, n]⟩) (hd : d = DotDims.plain r k n)
    (A : FVec Ideal ⟨2, ![r, k]⟩ φ₁) (W : FVec Ideal ⟨2, ![k, n]⟩ φ₂) (b : FVec Ideal ⟨1, ![n]⟩ .f32)
    (hs : (⟨1, ![n]⟩ : Shape).ShapeCasts ⟨2, ![1, n]⟩) (hb : (⟨2, ![1, n]⟩ : Shape).Broadcasts ⟨2, ![r, n]⟩) (p : Fin r) (q : Fin n) :
    addf (matmul d none A W (constant (F := Ideal) ⟨2, ![r, n]⟩ .f32 0x00000000#32)) (broadcastTo ⟨2, ![r, n]⟩ (shapeCast ⟨2, ![1, n]⟩ b hs) hb) (ix2 p q)
      = affine (fun c m => W (ix2 c m)) (fun m => b (ix1 m)) (fun c => A (ix2 p c)) q := by
  rw [addf_apply, SideBySide.kernelProduct_apply d hd none A W p q, broadcastTo_1b_ab_apply, shapeCast_a_1a_apply]
  rfl

/-- max(·, 0) entry by entry; the change of format after it is the identity on the extended reals. -/
theorem relu_apply {s : Shape} (x : FVec Ideal s .f32) (h : FTy.bits .bf16 < FTy.bits .f32) (i : s.Idx) :
    truncf .bf16 (maximumf x (broadcast s (Scalar.ofBits (F := Ideal) .f32 0x00000000#32))) h i = rectify (x i) := by
  show max (x i) (Ideal.ofBits .f32 0x00000000#32) = max (x i) 0
  rw [Ideal.ofBits_zero_f32]

/-! ## The softmax over the two columns -/

/-- The index of the 64 × 2 block over row p with column k put back. -/
theorem lift_row (h : Shape.Reduces ⟨2, ![64, 2]⟩ [1] ⟨1, ![64]⟩) (p : Fin 64) (k : Fin 2) : h.lift (ix1 p) k = ix2 p k := by
  funext a
  match a with
  | ⟨0, _⟩ => exact Fin.ext rfl
  | ⟨1, _⟩ => exact Fin.ext rfl

/-- The row maximum taken from −∞, then once more against −∞: the peak of row p. -/
theorem rowPeak_apply (z : FVec Ideal ⟨2, ![64, 2]⟩ .f32) (h : Shape.Reduces ⟨2, ![64, 2]⟩ [1] ⟨1, ![64]⟩) (hφ : FKind.Formats .f32)
    (hacc : (0xFF800000#32 : BitVec 32) = FKind.maximumf.neutral .f32 hφ) (p : Fin 64) :
    maximumf (broadcast ⟨1, ![64]⟩ (Scalar.ofBits (F := Ideal) .f32 0xFF800000#32)) (multiReduction (F := Ideal) .maximumf [1] ⟨1, ![64]⟩ z 0xFF800000#32 h hφ hacc) (ix1 p)
      = peak (fun k => z (ix2 p k)) := by
  show max (FloatOps.ofBits (F := Ideal) .f32 0xFF800000#32 : EReal) (multiReduction (F := Ideal) .maximumf [1] ⟨1, ![64]⟩ z 0xFF800000#32 h hφ hacc (ix1 p) : EReal) = max ⊥ (⨆ k : Fin 2, z (ix2 p k))
  rw [Cert.Extremum.ofBits_negInf_f32]
  refine congrArg (max ⊥) ?_
  refine (Ideal.multiReduction_maximumf_single z _ h hφ hacc (ix1 p)).trans ?_
  rw [Cert.Extremum.ofBits_negInf_f32]
  refine (Cert.Extremum.fold_max_bot_univ _).trans ?_
  exact iSup_congr fun k => congrArg z (lift_row h p k)

/-- The column of row peaks spread over the two columns reads, at (p, j), the peak of row p. -/
theorem peakBlock_apply (z : FVec Ideal ⟨2, ![64, 2]⟩ .f32) (h : Shape.Reduces ⟨2, ![64, 2]⟩ [1] ⟨1, ![64]⟩) (hφ : FKind.Formats .f32)
    (hacc : (0xFF800000#32 : BitVec 32) = FKind.maximumf.neutral .f32 hφ)
    (hs : (⟨1, ![64]⟩ : Shape).ShapeCasts ⟨2, ![64, 1]⟩) (hb : (⟨2, ![64, 1]⟩ : Shape).Broadcasts ⟨2, ![64, 2]⟩) (p : Fin 64) (j : Fin 2) :
    broadcastTo ⟨2, ![64, 2]⟩ (shapeCast ⟨2, ![64, 1]⟩
        (maximumf (broadcast ⟨1, ![64]⟩ (Scalar.ofBits (F := Ideal) .f32 0xFF800000#32)) (multiReduction (F := Ideal) .maximumf [1] ⟨1, ![64]⟩ z 0xFF800000#32 h hφ hacc)) hs) hb (ix2 p j)
      = peak (fun k => z (ix2 p k)) := by
  rw [broadcastTo_a1_ab_apply, shapeCast_a_a1_apply]
  exact rowPeak_apply z h hφ hacc p

/-- exp(z − peak) over the sum along the row of the same: entry (p, j) is the softmax of row p at j. -/
theorem rowSoft_apply (z : FVec Ideal ⟨2, ![64, 2]⟩ .f32) (h : Shape.Reduces ⟨2, ![64, 2]⟩ [1] ⟨1, ![64]⟩) (hφ : FKind.Formats .f32)
    (haccM : (0xFF800000#32 : BitVec 32) = FKind.maximumf.neutral .f32 hφ) (haccA : (0x00000000#32 : BitVec 32) = FKind.add.neutral .f32 hφ)
    (hs : (⟨1, ![64]⟩ : Shape).ShapeCasts ⟨2, ![64, 1]⟩) (hb : (⟨2, ![64, 1]⟩ : Shape).Broadcasts ⟨2, ![64, 2]⟩) (p : Fin 64) (j : Fin 2) :
    divf
        (exp (subf z (broadcastTo ⟨2, ![64, 2]⟩ (shapeCast ⟨2, ![64, 1]⟩
          (maximumf (broadcast ⟨1, ![64]⟩ (Scalar.ofBits (F := Ideal) .f32 0xFF800000#32)) (multiReduction (F := Ideal) .maximumf [1] ⟨1, ![64]⟩ z 0xFF800000#32 h hφ haccM)) hs) hb)))
        (broadcastTo ⟨2, ![64, 2]⟩ (shapeCast ⟨2, ![64, 1]⟩
          (multiReduction (F := Ideal) .add [1] ⟨1, ![64]⟩
            (exp (subf z (broadcastTo ⟨2, ![64, 2]⟩ (shapeCast ⟨2, ![64, 1]⟩
              (maximumf (broadcast ⟨1, ![64]⟩ (Scalar.ofBits (F := Ideal) .f32 0xFF800000#32)) (multiReduction (F := Ideal) .maximumf [1] ⟨1, ![64]⟩ z 0xFF800000#32 h hφ haccM)) hs) hb)))
            0x00000000#32 h hφ haccA) hs) hb)
        (ix2 p j)
      = soft (fun k => z (ix2 p k)) j := by
  have hterm : ∀ k : Fin 2,
      exp (subf z (broadcastTo ⟨2, ![64, 2]⟩ (shapeCast ⟨2, ![64, 1]⟩
          (maximumf (broadcast ⟨1, ![64]⟩ (Scalar.ofBits (F := Ideal) .f32 0xFF800000#32)) (multiReduction (F := Ideal) .maximumf [1] ⟨1, ![64]⟩ z 0xFF800000#32 h hφ haccM)) hs) hb)) (ix2 p k)
        = Ideal.exp (z (ix2 p k) - peak (fun k' => z (ix2 p k'))) := fun k => by
    show Ideal.exp (z (ix2 p k) - _) = _
    rw [peakBlock_apply z h hφ haccM hs hb p k]
  rw [divf_apply, broadcastTo_a1_ab_apply, shapeCast_a_a1_apply, hterm j]
  unfold soft
  refine congrArg (Ideal.div _) ?_
  refine (Ideal.multiReduction_add_single _ _ h hφ haccA (ix1 p)).trans ?_
  refine Finset.sum_congr rfl fun k _ => ?_
  rw [lift_row h p k]
  exact hterm k

/-! ## A column of the gate block spread over a result row -/

/-- Column c of a 64 × 2 block, cut out and spread over 2513 columns, reads at (p, q) the block at (p, c). -/
theorem column_apply (g : FVec Ideal ⟨2, ![64, 2]⟩ .f32) (off : ℕ) (hsl : (⟨2, ![64, 2]⟩ : Shape).Slices ![0, off] ⟨2, ![64, 1]⟩)
    (hb : (⟨2, ![64, 1]⟩ : Shape).Broadcasts ⟨2, ![64, 2513]⟩) (c : Fin 2) (hc : c.val = off) (p : Fin 64) (q : Fin 2513) :
    broadcastTo ⟨2, ![64, 2513]⟩ (extractStridedSlice ⟨2, ![64, 1]⟩ ![0, off] g hsl) hb (ix2 p q) = g (ix2 p c) := by
  rw [broadcastTo_a1_ab_apply, Cert.Columns.slice_col_apply off g hsl p 0 c hc]

/-! ## The payloads at an entry -/

/-- The first branch's score block: an affine map of the first feature block's rows. -/
theorem pay4_apply (v0 : FVec Ideal S64x1024 .bf16) (v4 : FVec Ideal S1024x2513 .bf16) (v7 : FVec Ideal S2513 .f32) (p : Fin 64) (q : Fin 2513) :
    k0_pay4 (F := Ideal) v0 v4 v7 (ix2 p q) = affine (fun c m => v4 (ix2 c m)) (fun m => v7 (ix1 m)) (fun c => v0 (ix2 p c)) q := by
  unfold k0_pay4 k0_pay2
  simp only [shapeCast_self]
  exact layer_apply _ rfl v0 v4 v7 _ _ p q

/-- The second branch's score block. -/
theorem pay5_apply (v2 : FVec Ideal S64x1024 .bf16) (v18 : FVec Ideal S1024x2513 .bf16) (v21 : FVec Ideal S2513 .f32) (p : Fin 64) (q : Fin 2513) :
    k0_pay5 (F := Ideal) v2 v18 v21 (ix2 p q) = affine (fun c m => v18 (ix2 c m)) (fun m => v21 (ix1 m)) (fun c => v2 (ix2 p c)) q := by
  unfold k0_pay5 k0_pay3
  simp only [shapeCast_self]
  exact layer_apply _ rfl v2 v18 v21 _ _ p q

/-- The first branch's context block. -/
theorem pay6_apply (v0 : FVec Ideal S64x1024 .bf16) (v11 : FVec Ideal S1024x2048 .bf16) (v14 : FVec Ideal S2048 .f32) (p : Fin 64) (q : Fin 2048) :
    k0_pay6 (F := Ideal) v0 v11 v14 (ix2 p q) = affine (fun c m => v11 (ix2 c m)) (fun m => v14 (ix1 m)) (fun c => v0 (ix2 p c)) q := by
  unfold k0_pay6 k0_pay2
  simp only [shapeCast_self]
  exact layer_apply _ rfl v0 v11 v14 _ _ p q

/-- The second branch's context block. -/
theorem pay7_apply (v2 : FVec Ideal S64x1024 .bf16) (v25 : FVec Ideal S1024x2048 .bf16) (v28 : FVec Ideal S2048 .f32) (p : Fin 64) (q : Fin 2048) :
    k0_pay7 (F := Ideal) v2 v25 v28 (ix2 p q) = affine (fun c m => v25 (ix2 c m)) (fun m => v28 (ix1 m)) (fun c => v2 (ix2 p c)) q := by
  unfold k0_pay7 k0_pay3
  simp only [shapeCast_self]
  exact layer_apply _ rfl v2 v25 v28 _ _ p q

/-- The upper half of the first hidden layer's weights passes through unchanged. -/
theorem pay8_eq (v34 : FVec Ideal S2048x1024 .bf16) : k0_pay8 (F := Ideal) v34 = v34 := by
  unfold k0_pay8
  exact shapeCast_self v34 _

/-- The first hidden layer: the two context blocks against the two halves of the weights, added, plus the bias row, then
    max(·, 0). -/
theorem hidden_apply (c0 c1 : FVec Ideal S64x2048 .bf16) (Wa Wb : FVec Ideal S2048x1024 .bf16) (b1 : FVec Ideal S1024 .f32)
    (hs : S1024.ShapeCasts S1x1024) (hb : S1x1024.Broadcasts S64x1024) (ht : FTy.bits .bf16 < FTy.bits .f32) (p : Fin 64) (m : Fin 1024) :
    truncf .bf16 (maximumf
        (addf (addf (matmul dot_S64x2048_S2048x1024_S64x1024_1_0_0_1_n_n none c0 Wa (constant (F := Ideal) S64x1024 .f32 0x00000000#32))
                    (matmul dot_S64x2048_S2048x1024_S64x1024_1_0_0_1_n_n none c1 Wb (constant (F := Ideal) S64x1024 .f32 0x00000000#32)))
              (broadcastTo S64x1024 (shapeCast S1x1024 b1 hs) hb))
        (broadcast S64x1024 (Scalar.ofBits (F := Ideal) .f32 0x00000000#32))) ht (ix2 p m)
      = rectify (((∑ k : Fin 2048, c0 (ix2 p k) * Wa (ix2 k m)) + ∑ k : Fin 2048, c1 (ix2 p k) * Wb (ix2 k m)) + b1 (ix1 m)) := by
  refine (relu_apply _ ht (ix2 p m)).trans (congrArg rectify ?_)
  rw [addf_apply, addf_apply, SideBySide.kernelProduct_apply dot_S64x2048_S2048x1024_S64x1024_1_0_0_1_n_n rfl none c0 Wa p m,
    SideBySide.kernelProduct_apply dot_S64x2048_S2048x1024_S64x1024_1_0_0_1_n_n rfl none c1 Wb p m,
    broadcastTo_1b_ab_apply, shapeCast_a_1a_apply]
  rfl

/-- The gate block: the softmax of the logits, themselves two affine maps (the first followed by max(·, 0)) of the first
    hidden layer. -/
theorem pay9_apply (c0 c1 : FVec Ideal S64x2048 .bf16) (Wa : FVec Ideal S2048x1024 .bf16) (Wb : FVec Ideal S2048x1024 .bf16) (b1 : FVec Ideal S1024 .f32)
    (W2 : FVec Ideal S1024x512 .bf16) (b2 : FVec Ideal S512 .f32) (W3 : FVec Ideal S512x2 .bf16) (b3 : FVec Ideal S2 .f32) (p : Fin 64) (j : Fin 2) :
    k0_pay9 (F := Ideal) c0 c1 Wa (constant S64x1024 .f32 0x00000000#32) Wb b1 W2 b2 W3 b3 (ix2 p j)
      = soft (affine (fun c m => W3 (ix2 c m)) (fun m => b3 (ix1 m)) fun c =>
          rectify (affine (fun c m => W2 (ix2 c m)) (fun m => b2 (ix1 m)) (fun m =>
            rectify (((∑ k : Fin 2048, c0 (ix2 p k) * Wa (ix2 k m)) + ∑ k : Fin 2048, c1 (ix2 p k) * Wb (ix2 k m)) + b1 (ix1 m))) c)) j := by
  unfold k0_pay9
  simp only [shapeCast_self]
  refine (rowSoft_apply _ _ _ _ _ _ _ p j).trans ?_
  refine congrArg (fun z => soft z j) (funext fun j' => ?_)
  refine (layer_apply _ rfl _ W3 b3 _ _ p j').trans ?_
  refine congrArg (fun u => affine _ _ u j') (funext fun c => ?_)
  refine (relu_apply _ _ (ix2 p c)).trans (congrArg rectify ?_)
  refine (layer_apply _ rfl _ W2 b2 _ _ p c).trans ?_
  refine congrArg (fun u => affine _ _ u c) (funext fun m => ?_)
  exact hidden_apply c0 c1 Wa Wb b1 _ _ _ p m

/-- The first branch's scores weighted by the first gate column. -/
theorem pay10_apply (v10 : FVec Ideal S64x2513 .f32) (c0 c1 : FVec Ideal S64x2048 .bf16) (Wa : FVec Ideal S2048x1024 .bf16) (z : FVec Ideal S64x1024 .f32)
    (Wb : FVec Ideal S2048x1024 .bf16) (b1 : FVec Ideal S1024 .f32)
    (W2 : FVec Ideal S1024x512 .bf16) (b2 : FVec Ideal S512 .f32) (W3 : FVec Ideal S512x2 .bf16) (b3 : FVec Ideal S2 .f32) (p : Fin 64) (q : Fin 2513) :
    k0_pay10 (F := Ideal) v10 c0 c1 Wa z Wb b1 W2 b2 W3 b3 (ix2 p q)
      = v10 (ix2 p q) * k0_pay9 (F := Ideal) c0 c1 Wa z Wb b1 W2 b2 W3 b3 (ix2 p (0 : Fin 2)) := by
  unfold k0_pay10
  show v10 (ix2 p q) * broadcastTo S64x2513 (extractStridedSlice S64x1 ![0, 0] (k0_pay9 (F := Ideal) c0 c1 Wa z Wb b1 W2 b2 W3 b3) slices_S64x2_o0_0_S64x1) broadcasts_S64x1_S64x2513 (ix2 p q) = _
  rw [column_apply _ 0 _ _ (0 : Fin 2) rfl p q]

/-- What is stored: the first branch's weighted scores plus the second branch's scores weighted by the second gate column. -/
theorem pay1_apply (v24 : FVec Ideal S64x2513 .f32) (v75 : FVec Ideal S64x2 .f32) (v78 : FVec Ideal S64x2513 .f32) (p : Fin 64) (q : Fin 2513) :
    k0_pay1 (F := Ideal) v24 v75 v78 (ix2 p q) = v78 (ix2 p q) + v24 (ix2 p q) * v75 (ix2 p (1 : Fin 2)) := by
  unfold k0_pay1
  show v78 (ix2 p q) + v24 (ix2 p q) * broadcastTo S64x2513 (extractStridedSlice S64x1 ![0, 1] v75 slices_S64x2_o0_1_S64x1) broadcasts_S64x1_S64x2513 (ix2 p q) = _
  rw [column_apply _ 1 _ _ (1 : Fin 2) rfl p q]

/-! ## The weights as the body loads them -/

/-- The weights as the body loads them: each weight block read at its coordinates; W1's rows 0 … 2047 from the block
    of its upper half and rows 2048 … 4095 from the block of its lower half. -/
def blockParams (x2 : Vec Ideal S1024x2513 .bf16) (x3 : Vec Ideal S2513 .f32) (x4 : Vec Ideal S1024x2048 .bf16) (x5 : Vec Ideal S2048 .f32) (x6 : Vec Ideal S1024x2513 .bf16) (x7 : Vec Ideal S2513 .f32) (x8 : Vec Ideal S1024x2048 .bf16) (x9 : Vec Ideal S2048 .f32) (x10 : Vec Ideal S2048x1024 .bf16) (x11 : Vec Ideal S2048x1024 .bf16) (x12 : Vec Ideal S1024 .f32) (x13 : Vec Ideal S1024x512 .bf16) (x14 : Vec Ideal S512 .f32) (x15 : Vec Ideal S512x2 .bf16) (x16 : Vec Ideal S2 .f32) : Params where
  Ws0 k n := x2 (ix2 k n)
  bs0 n := x3 (ix1 n)
  Wc0 k n := x4 (ix2 k n)
  bc0 n := x5 (ix1 n)
  Ws1 k n := x6 (ix2 k n)
  bs1 n := x7 (ix1 n)
  Wc1 k n := x8 (ix2 k n)
  bc1 n := x9 (ix1 n)
  W1 k n := if h : k.val < 2048 then x10 (ix2 ⟨k.val, h⟩ n) else x11 (ix2 ⟨k.val - 2048, by have := k.isLt; omega⟩ n)
  b1 n := x12 (ix1 n)
  W2 k n := x13 (ix2 k n)
  b2 n := x14 (ix1 n)
  W3 k n := x15 (ix2 k n)
  b3 n := x16 (ix1 n)

/-- Rows 0 … 2047 of W1 are the block of its upper half. -/
theorem blockParams_upper (x2 : Vec Ideal S1024x2513 .bf16) (x3 : Vec Ideal S2513 .f32) (x4 : Vec Ideal S1024x2048 .bf16) (x5 : Vec Ideal S2048 .f32) (x6 : Vec Ideal S1024x2513 .bf16) (x7 : Vec Ideal S2513 .f32) (x8 : Vec Ideal S1024x2048 .bf16) (x9 : Vec Ideal S2048 .f32) (x10 : Vec Ideal S2048x1024 .bf16) (x11 : Vec Ideal S2048x1024 .bf16) (x12 : Vec Ideal S1024 .f32) (x13 : Vec Ideal S1024x512 .bf16) (x14 : Vec Ideal S512 .f32) (x15 : Vec Ideal S512x2 .bf16) (x16 : Vec Ideal S2 .f32) (k : Fin 2048) (n : Fin 1024) :
    upper (blockParams x2 x3 x4 x5 x6 x7 x8 x9 x10 x11 x12 x13 x14 x15 x16) k n = x10 (ix2 k n) := by
  show (if h : k.val < 2048 then x10 (ix2 ⟨k.val, h⟩ n) else x11 (ix2 ⟨k.val - 2048, _⟩ n)) = _
  rw [dif_pos k.isLt]

/-- Rows 2048 … 4095 of W1 are the block of its lower half. -/
theorem blockParams_lower (x2 : Vec Ideal S1024x2513 .bf16) (x3 : Vec Ideal S2513 .f32) (x4 : Vec Ideal S1024x2048 .bf16) (x5 : Vec Ideal S2048 .f32) (x6 : Vec Ideal S1024x2513 .bf16) (x7 : Vec Ideal S2513 .f32) (x8 : Vec Ideal S1024x2048 .bf16) (x9 : Vec Ideal S2048 .f32) (x10 : Vec Ideal S2048x1024 .bf16) (x11 : Vec Ideal S2048x1024 .bf16) (x12 : Vec Ideal S1024 .f32) (x13 : Vec Ideal S1024x512 .bf16) (x14 : Vec Ideal S512 .f32) (x15 : Vec Ideal S512x2 .bf16) (x16 : Vec Ideal S2 .f32) (k : Fin 2048) (n : Fin 1024) :
    lower (blockParams x2 x3 x4 x5 x6 x7 x8 x9 x10 x11 x12 x13 x14 x15 x16) k n = x11 (ix2 k n) := by
  show (if h : 2048 + k.val < 2048 then x10 (ix2 ⟨2048 + k.val, h⟩ n) else x11 (ix2 ⟨2048 + k.val - 2048, _⟩ n)) = _
  rw [dif_neg (by omega)]
  exact congrArg (fun i => x11 (ix2 i n)) (Fin.ext (by show 2048 + k.val - 2048 = k.val; omega))

/-- Entry (p, q) of the value the body stores is entry q of the result row computed, with the split contraction, from
    row p of the two feature blocks. -/
theorem storedValue_apply (x0 : Vec Ideal S64x1024 .bf16) (x1 : Vec Ideal S64x1024 .bf16) (x2 : Vec Ideal S1024x2513 .bf16) (x3 : Vec Ideal S2513 .f32) (x4 : Vec Ideal S1024x2048 .bf16) (x5 : Vec Ideal S2048 .f32) (x6 : Vec Ideal S1024x2513 .bf16) (x7 : Vec Ideal S2513 .f32) (x8 : Vec Ideal S1024x2048 .bf16) (x9 : Vec Ideal S2048 .f32) (x10 : Vec Ideal S2048x1024 .bf16) (x11 : Vec Ideal S2048x1024 .bf16) (x12 : Vec Ideal S1024 .f32) (x13 : Vec Ideal S1024x512 .bf16) (x14 : Vec Ideal S512 .f32) (x15 : Vec Ideal S512x2 .bf16) (x16 : Vec Ideal S2 .f32) (p : Fin 64) (q : Fin 2513) :
    storedValue (F := Ideal) x0 x1 x2 x3 x4 x5 x6 x7 x8 x9 x10 x11 x12 x13 x14 x15 x16 (ix2 p q)
      = fusedSplit (blockParams x2 x3 x4 x5 x6 x7 x8 x9 x10 x11 x12 x13 x14 x15 x16) (fun k => x0 (ix2 p k)) (fun k => x1 (ix2 p k)) q := by
  unfold storedValue
  simp only [View.ld_unit_zero (S := S64x1024) zeros2, View.ld_unit_zero (S := S1024x2513) zeros2, View.ld_unit_zero (S := S2513) zeros1,
    View.ld_unit_zero (S := S1024x2048) zeros2, View.ld_unit_zero (S := S2048) zeros1, View.ld_unit_zero (S := S2048x1024) zeros2,
    View.ld_unit_zero (S := S1024) zeros1, View.ld_unit_zero (S := S1024x512) zeros2, View.ld_unit_zero (S := S512) zeros1,
    View.ld_unit_zero (S := S512x2) zeros2, View.ld_unit_zero (S := S2) zeros1]
  rw [pay1_apply, pay10_apply, pay4_apply, pay5_apply, pay9_apply, pay9_apply]
  simp only [pay6_apply, pay7_apply, pay8_eq]
  unfold fusedSplit mix gate hiddenSplit
  simp only [blockParams_upper, blockParams_lower]
  rfl

end Cert.KernelIdeal.Hand

end
-- ==== Proof.KernelIdealInputs.lean ====
/-
  What the region finds in the arrays its windows stage, at the ideal values.

  The two feature matrices of 2048 rows hold, in row 4b + l, the feature row of batch entry b at frame 12 + 4l (four
  frames cut out, laid side by side, flattened; narrowing the float format changes nothing at the ideal values). The
  weight matrices are their arguments entry by entry, W1's two halves its rows 0 … 2047 and 2048 … 4095.
-/
import proofs.«133868_j19464791785861_1_alg».proof.Proof.KernelIdealData
import proofs.«133868_j19464791785861_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Fusion

/-! ## One frame of every batch entry -/

/-- Frame o of every batch entry as a [512, 1, 1024] slab: the frame cut out of the 28, its unit axis dropped and
    put back. -/
def slab (x : FVec Ideal S512x28x1024 .f32) (o : Nat) (h : S512x28x1024.Slices ![0, o, 0] S512x1x1024) :
    FVec Ideal S512x1x1024 .f32 :=
  broadcastInDim S512x1x1024 ![0, 2] bcast_S512x1024_S512x1x1024_0_2
    (shapeCast S512x1024 (extractStridedSlice S512x1x1024 ![0, o, 0] x h) shapeCasts_S512x1x1024_S512x1024)

/-- The slab's entry (b, 0, k) is x[b, o, k]: the broadcast reads (b, k), the flattening reads (b, 0, k) (both at
    row-major position 1024 b + k), and the slice shifts the middle coordinate by o. -/
theorem slab_apply (x : FVec Ideal S512x28x1024 .f32) (o : Nat) (h : S512x28x1024.Slices ![0, o, 0] S512x1x1024)
    (ho : o < 28) (b : Fin 512) (z : Fin 1) (k : Fin 1024) :
    slab x o h (ix3 b z k) = x (ix3 b ⟨o, ho⟩ k) := by
  unfold slab
  refine (broadcastInDim_apply _ _ _ (ix3 b z k) (ix2 b k) fun a => ?_).trans ?_
  · match a with
    | ⟨0, _⟩ => exact (if_neg (show ¬((512 : Nat) = 1) by decide)).symm
    | ⟨1, _⟩ => exact (if_neg (show ¬((1024 : Nat) = 1) by decide)).symm
  refine (shapeCast_apply _ _ (ix2 b k) (ix3 b 0 k) ?_).trans ?_
  · rw [Shape.rowMajor_val_three, Shape.rowMajor_val_two]
    show (b.val * 1 + 0) * 1024 + k.val = b.val * 1024 + k.val
    omega
  refine extractStridedSlice_apply _ x h (ix3 b 0 k) (ix3 b ⟨o, ho⟩ k) fun a => ?_
  match a with
  | ⟨0, _⟩ => exact (Nat.zero_add _).symm
  | ⟨1, _⟩ => rfl
  | ⟨2, _⟩ => exact (Nat.zero_add _).symm

/-! ## Four frames side by side, flattened -/

/-- The four kept frames 12, 16, 20, 24 laid side by side along the middle axis: a [512, 4, 1024] array. -/
def frames (x : FVec Ideal S512x28x1024 .f32) : FVec Ideal S512x4x1024 .f32 :=
  concatenate S512x4x1024 1
    [⟨S512x1x1024, slab x 12 slices_S512x28x1024_S512x1x1024_0_12_0⟩, ⟨S512x1x1024, slab x 16 slices_S512x28x1024_S512x1x1024_0_16_0⟩,
     ⟨S512x1x1024, slab x 20 slices_S512x28x1024_S512x1x1024_0_20_0⟩, ⟨S512x1x1024, slab x 24 slices_S512x28x1024_S512x1x1024_0_24_0⟩]
    concatenates_S512x1x1024_S512x1x1024_S512x1x1024_S512x1x1024_S512x4x1024_d1

/-- The flattened, narrowed matrix of 2048 rows. -/
def rows (x : FVec Ideal S512x28x1024 .f32) : FVec Ideal S2048x1024 .bf16 :=
  truncf .bf16 (shapeCast S2048x1024 (frames x) shapeCasts_S512x4x1024_S2048x1024) bitsLt_bf16_f32

/-- Off the middle axis a slab's index (b, 0, k) and the array's (b, l, k) agree. -/
private theorem off_axis (b : Fin 512) (l : Fin 4) (k : Fin 1024) (a : Fin S512x1x1024.rank)
    (ha : a.cast (rfl : S512x1x1024.rank = S512x4x1024.rank) ≠ (1 : Fin S512x4x1024.rank)) :
    ((ix3 b (0 : Fin 1) k : S512x1x1024.Idx) a).val = ((ix3 b l k : S512x4x1024.Idx) (a.cast rfl)).val := by
  match a, ha with
  | ⟨0, _⟩, _ => rfl
  | ⟨1, _⟩, ha => exact absurd (Fin.ext rfl) ha
  | ⟨2, _⟩, _ => rfl

/-- Entry (b, l, k) of the four frames side by side is x[b, 12 + 4l, k]: the l-th piece holds middle coordinate l. -/
theorem frames_apply (x : FVec Ideal S512x28x1024 .f32) (b : Fin 512) (l : Fin 4) (k : Fin 1024) :
    frames x (ix3 b l k) = frameAt x b l k := by
  unfold frames
  match l with
  | ⟨0, hl⟩ =>
    refine (concatenate_apply_piece (1 : Fin S512x4x1024.rank) _ _ (ix3 b ⟨0, hl⟩ k) 0 ?_ S512x1x1024 _ rfl rfl 0 rfl
      (ix3 b 0 k) (off_axis b ⟨0, hl⟩ k) rfl).trans (slab_apply x 12 _ (by decide) b 0 k)
    exact (by decide : 0 < 4)
  | ⟨1, hl⟩ =>
    refine (concatenate_apply_piece (1 : Fin S512x4x1024.rank) _ _ (ix3 b ⟨1, hl⟩ k) 1 ?_ S512x1x1024 _ rfl rfl 1 rfl
      (ix3 b 0 k) (off_axis b ⟨1, hl⟩ k) rfl).trans (slab_apply x 16 _ (by decide) b 0 k)
    exact (by decide : 1 < 4)
  | ⟨2, hl⟩ =>
    refine (concatenate_apply_piece (1 : Fin S512x4x1024.rank) _ _ (ix3 b ⟨2, hl⟩ k) 2 ?_ S512x1x1024 _ rfl rfl 2 rfl
      (ix3 b 0 k) (off_axis b ⟨2, hl⟩ k) rfl).trans (slab_apply x 20 _ (by decide) b 0 k)
    exact (by decide : 2 < 4)
  | ⟨3, hl⟩ =>
    refine (concatenate_apply_piece (1 : Fin S512x4x1024.rank) _ _ (ix3 b ⟨3, hl⟩ k) 3 ?_ S512x1x1024 _ rfl rfl 3 rfl
      (ix3 b 0 k) (off_axis b ⟨3, hl⟩ k) rfl).trans (slab_apply x 24 _ (by decide) b 0 k)
    exact (by decide : 3 < 4)

/-- Row r = 4b + l of the flattened matrix is the frame (b, l): (b, l, k) and (r, k) sit at the same row-major
    position 1024 r + k, and narrowing the format is the identity at the ideal values. -/
theorem rows_apply (x : FVec Ideal S512x28x1024 .f32) (r : Fin 2048) (k : Fin 1024) :
    rows x (ix2 r k) = rowAt x r k := by
  unfold rows rowAt
  rw [truncf_apply]
  have hb : r.val / 4 < 512 := by have := r.isLt; omega
  have hl : r.val % 4 < 4 := Nat.mod_lt _ (by decide)
  refine (shapeCast_apply _ _ (ix2 r k) (ix3 ⟨r.val / 4, hb⟩ ⟨r.val % 4, hl⟩ k) ?_).trans ?_
  · rw [Shape.rowMajor_val_three, Shape.rowMajor_val_two]
    show (r.val / 4 * 4 + r.val % 4) * 1024 + k.val = r.val * 1024 + k.val
    omega
  exact frames_apply x _ _ k

/-! ## The buffers when the region is entered -/

variable (m : (ℓ : Loc nD τ sig) → Buf (Elt Ideal) ℓ)

theorem found_v27 (c : Dev nD) (r : Fin 2048) (k : Fin 1024) :
    (entry m c main_v27 : S2048x1024.Idx → EReal) (ix2 r k) = rowAt (m ((c : Thread nD τ).loc main_arg0)) r k := by
  have e : (entry m c main_v27 : S2048x1024.Idx → EReal) = rows (m ((c : Thread nD τ).loc main_arg0)) := by
    dsimp only [entry, entry0]
    simp only [hostOps0, List.flatten_cons, List.flatten_nil, List.append_nil, List.cons_append, List.nil_append]
    after_results
    rfl
  rw [e]
  exact rows_apply _ r k

theorem found_v29 (c : Dev nD) (r : Fin 2048) (k : Fin 1024) :
    (entry m c main_v29 : S2048x1024.Idx → EReal) (ix2 r k) = rowAt (m ((c : Thread nD τ).loc main_arg1)) r k := by
  have e : (entry m c main_v29 : S2048x1024.Idx → EReal) = rows (m ((c : Thread nD τ).loc main_arg1)) := by
    dsimp only [entry, entry0]
    simp only [hostOps0, List.flatten_cons, List.flatten_nil, List.append_nil, List.cons_append, List.nil_append]
    after_results
    rfl
  rw [e]
  exact rows_apply _ r k

theorem found_v30 (c : Dev nD) : (entry m c main_v30 : S1024x2513.Idx → EReal) = m ((c : Thread nD τ).loc main_arg2) := by
  have e : (entry m c main_v30 : S1024x2513.Idx → EReal)
      = (truncf .bf16 (m ((c : Thread nD τ).loc main_arg2)) bitsLt_bf16_f32 : FVec Ideal S1024x2513 .bf16) := by
    dsimp only [entry, entry0]
    simp only [hostOps0, List.flatten_cons, List.flatten_nil, List.append_nil, List.cons_append, List.nil_append]
    after_results
  rw [e]
  exact funext fun i => truncf_apply _ _ i

theorem found_v31 (c : Dev nD) : (entry m c main_v31 : S1024x2048.Idx → EReal) = m ((c : Thread nD τ).loc main_arg4) := by
  have e : (entry m c main_v31 : S1024x2048.Idx → EReal)
      = (truncf .bf16 (m ((c : Thread nD τ).loc main_arg4)) bitsLt_bf16_f32 : FVec Ideal S1024x2048 .bf16) := by
    dsimp only [entry, entry0]
    simp only [hostOps0, List.flatten_cons, List.flatten_nil, List.append_nil, List.cons_append, List.nil_append]
    after_results
  rw [e]
  exact funext fun i => truncf_apply _ _ i

theorem found_v32 (c : Dev nD) : (entry m c main_v32 : S1024x2513.Idx → EReal) = m ((c : Thread nD τ).loc main_arg6) := by
  have e : (entry m c main_v32 : S1024x2513.Idx → EReal)
      = (truncf .bf16 (m ((c : Thread nD τ).loc main_arg6)) bitsLt_bf16_f32 : FVec Ideal S1024x2513 .bf16) := by
    dsimp only [entry, entry0]
    simp only [hostOps0, List.flatten_cons, List.flatten_nil, List.append_nil, List.cons_append, List.nil_append]
    after_results
  rw [e]
  exact funext fun i => truncf_apply _ _ i

theorem found_v33 (c : Dev nD) : (entry m c main_v33 : S1024x2048.Idx → EReal) = m ((c : Thread nD τ).loc main_arg8) := by
  have e : (entry m c main_v33 : S1024x2048.Idx → EReal)
      = (truncf .bf16 (m ((c : Thread nD τ).loc main_arg8)) bitsLt_bf16_f32 : FVec Ideal S1024x2048 .bf16) := by
    dsimp only [entry, entry0]
    simp only [hostOps0, List.flatten_cons, List.flatten_nil, List.append_nil, List.cons_append, List.nil_append]
    after_results
  rw [e]
  exact funext fun i => truncf_apply _ _ i

theorem found_v35 (c : Dev nD) (k : Fin 2048) (n : Fin 1024) :
    (entry m c main_v35 : S2048x1024.Idx → EReal) (ix2 k n)
      = (m ((c : Thread nD τ).loc main_arg10) : S4096x1024.Idx → EReal) (ix2 ⟨k.val, by have := k.isLt; omega⟩ n) := by
  have e : (entry m c main_v35 : S2048x1024.Idx → EReal)
      = (truncf .bf16 (extractStridedSlice S2048x1024 ![0, 0] (m ((c : Thread nD τ).loc main_arg10)) slices_S4096x1024_S2048x1024_0_0)
          bitsLt_bf16_f32 : FVec Ideal S2048x1024 .bf16) := by
    dsimp only [entry, entry0]
    simp only [hostOps0, List.flatten_cons, List.flatten_nil, List.append_nil, List.cons_append, List.nil_append]
    after_results
  rw [e, truncf_apply]
  refine extractStridedSlice_apply _ _ _ (ix2 k n) (ix2 ⟨k.val, by have := k.isLt; omega⟩ n) fun a => ?_
  match a with
  | ⟨0, _⟩ => exact (Nat.zero_add _).symm
  | ⟨1, _⟩ => exact (Nat.zero_add _).symm

theorem found_v37 (c : Dev nD) (k : Fin 2048) (n : Fin 1024) :
    (entry m c main_v37 : S2048x1024.Idx → EReal) (ix2 k n)
      = (m ((c : Thread nD τ).loc main_arg10) : S4096x1024.Idx → EReal) (ix2 ⟨2048 + k.val, by have := k.isLt; omega⟩ n) := by
  have e : (entry m c main_v37 : S2048x1024.Idx → EReal)
      = (truncf .bf16 (extractStridedSlice S2048x1024 ![2048, 0] (m ((c : Thread nD τ).loc main_arg10)) slices_S4096x1024_S2048x1024_2048_0)
          bitsLt_bf16_f32 : FVec Ideal S2048x1024 .bf16) := by
    dsimp only [entry, entry0]
    simp only [hostOps0, List.flatten_cons, List.flatten_nil, List.append_nil, List.cons_append, List.nil_append]
    after_results
  rw [e, truncf_apply]
  refine extractStridedSlice_apply _ _ _ (ix2 k n) (ix2 ⟨2048 + k.val, by have := k.isLt; omega⟩ n) fun a => ?_
  match a with
  | ⟨0, _⟩ => rfl
  | ⟨1, _⟩ => exact (Nat.zero_add _).symm

theorem found_v38 (c : Dev nD) : (entry m c main_v38 : S1024x512.Idx → EReal) = m ((c : Thread nD τ).loc main_arg12) := by
  have e : (entry m c main_v38 : S1024x512.Idx → EReal)
      = (truncf .bf16 (m ((c : Thread nD τ).loc main_arg12)) bitsLt_bf16_f32 : FVec Ideal S1024x512 .bf16) := by
    dsimp only [entry, entry0]
    simp only [hostOps0, List.flatten_cons, List.flatten_nil, List.append_nil, List.cons_append, List.nil_append]
    after_results
  rw [e]
  exact funext fun i => truncf_apply _ _ i

theorem found_v39 (c : Dev nD) : (entry m c main_v39 : S512x2.Idx → EReal) = m ((c : Thread nD τ).loc main_arg14) := by
  have e : (entry m c main_v39 : S512x2.Idx → EReal)
      = (truncf .bf16 (m ((c : Thread nD τ).loc main_arg14)) bitsLt_bf16_f32 : FVec Ideal S512x2 .bf16) := by
    dsimp only [entry, entry0]
    simp only [hostOps0, List.flatten_cons, List.flatten_nil, List.append_nil, List.cons_append, List.nil_append]
    after_results
  rw [e]
  exact funext fun i => truncf_apply _ _ i

end Cert.KernelIdeal.Hand

end
-- ==== Proof.KernelIdealValue.lean ====
/-
  The kernel program's result at the ideal values.

  At grid point t the body stores, at (p, q) of its 64 × 2513 block, entry q of the result row computed from row p of the
  two feature blocks; those are rows 64t + p of the flattened feature matrices, and the weight blocks are the whole
  weight arrays. So point t writes back block t of ONE function of the arguments (`flat`: row r, column q ↦ the
  result row of feature rows r). The 32 blocks of 64 rows tile the 2048 rows, so after the run the result array IS
  that function; the last host line reshapes it to 512 × 4 × 2513, row 4b + l becoming entry (b, l).
-/
import proofs.«133868_j19464791785861_1_alg».proof.Proof.KernelIdealRun
import proofs.«133868_j19464791785861_1_alg».proof.Proof.KernelIdealBlock
import proofs.«133868_j19464791785861_1_alg».proof.Proof.KernelIdealInputs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Fusion

variable (m : (ℓ : Loc nD τ sig) → Buf (Elt Ideal) ℓ) (ρ : Dev nD → PrngReg)

/-- The weights read off the argument arrays. -/
abbrev argParams (c : Dev nD) : Params := params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- Row r, column q of the flat result: the result row, with the split contraction, of the two feature rows r. -/
def flat (c : Dev nD) : S2048x2513.Idx → EReal := fun j =>
  fusedSplit (argParams m c) (rowAt (m ((c : Thread nD τ).loc main_arg0)) ⟨(j 0).val, (j 0).isLt⟩) (rowAt (m ((c : Thread nD τ).loc main_arg1)) ⟨(j 0).val, (j 0).isLt⟩) ⟨(j 1).val, (j 1).isLt⟩

theorem origin2 : (![0, 0] : Fin 2 → Nat) = fun _ => 0 := funext fun a => by fin_cases a <;> rfl
theorem origin1 : (![0] : Fin 1 → Nat) = fun _ => 0 := funext fun a => by fin_cases a; rfl

/-- The printed index maps over the grid: the feature windows and the result window move one block of rows per point,
    every weight and bias window stays at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_17.index t (0 : Fin 2) = t.val ∧ win0_17.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = 0 ∧ win0_15.index t (1 : Fin 2) = 0
    ∧ win0_16.index t (0 : Fin 1) = 0 :=
  (by decide +kernel : ∀ t : Fin grid0.N, _)

theorem point_lt (t : Fin cfg0.N) : t.val < 32 := lt_of_lt_of_eq t.isLt N_0

/-! ## The blocks the body is handed -/

/-- Row p of feature block 0 at point t is row 64t + p of the flattened matrix: frame 12 + 4l of batch entry b, 4b + l = 64t + p. -/
theorem feature0_row (c : Dev nD) (t : Fin cfg0.N) (p : Fin 64) (k : Fin 1024) :
    (blockAt m c 0 t : S64x1024.Idx → EReal) (ix2 p k)
      = rowAt (m ((c : Thread nD τ).loc main_arg0)) ⟨64 * t.val + p.val, by have := point_lt t; have := p.isLt; omega⟩ k := by
  have hf := index_facts t
  have ht := point_lt t
  show (entry m c main_v27 : S2048x1024.Idx → EReal) (((cfg0.win 0).blk t).view.emb (ix2 p k)) = _
  have hemb : ((cfg0.win 0).blk t).view.emb (ix2 p k : S64x1024.Idx)
      = (ix2 (⟨64 * t.val + p.val, by have := p.isLt; omega⟩ : Fin 2048) k : S2048x1024.Idx) := by
    funext a; apply Fin.ext
    match a with
    | ⟨0, _⟩ => show win0_0.index t (0 : Fin 2) * 64 + 1 * p.val = 64 * t.val + p.val; omega
    | ⟨1, _⟩ => show win0_0.index t (1 : Fin 2) * 1024 + 1 * k.val = k.val; omega
  rw [hemb]; exact found_v27 m c _ k

/-- Row p of feature block 1 at point t is row 64t + p of the flattened matrix: frame 12 + 4l of batch entry b, 4b + l = 64t + p. -/
theorem feature1_row (c : Dev nD) (t : Fin cfg0.N) (p : Fin 64) (k : Fin 1024) :
    (blockAt m c 1 t : S64x1024.Idx → EReal) (ix2 p k)
      = rowAt (m ((c : Thread nD τ).loc main_arg1)) ⟨64 * t.val + p.val, by have := point_lt t; have := p.isLt; omega⟩ k := by
  have hf := index_facts t
  have ht := point_lt t
  show (entry m c main_v29 : S2048x1024.Idx → EReal) (((cfg0.win 1).blk t).view.emb (ix2 p k)) = _
  have hemb : ((cfg0.win 1).blk t).view.emb (ix2 p k : S64x1024.Idx)
      = (ix2 (⟨64 * t.val + p.val, by have := p.isLt; omega⟩ : Fin 2048) k : S2048x1024.Idx) := by
    funext a; apply Fin.ext
    match a with
    | ⟨0, _⟩ => show win0_1.index t (0 : Fin 2) * 64 + 1 * p.val = 64 * t.val + p.val; omega
    | ⟨1, _⟩ => show win0_1.index t (1 : Fin 2) * 1024 + 1 * k.val = k.val; omega
  rw [hemb]; exact found_v29 m c _ k

/-- Window 2 stages its whole array at every point: its block is argument 2. -/
theorem whole_2 (c : Dev nD) (t : Fin cfg0.N) : (blockAt m c 2 t : S1024x2513.Idx → EReal) = m ((c : Thread nD τ).loc main_arg2) := by
  have hf := index_facts t
  funext y
  show (entry m c main_v30 : S1024x2513.Idx → EReal) (((cfg0.win 2).blk t).view.emb y) = _
  have hemb : ((cfg0.win 2).blk t).view.emb y = y := by
    funext a; apply Fin.ext
    match a with
    | ⟨0, _⟩ => show win0_2.index t (0 : Fin 2) * 1024 + 1 * (y 0).val = (y 0).val; omega
    | ⟨1, _⟩ => show win0_2.index t (1 : Fin 2) * 2513 + 1 * (y 1).val = (y 1).val; omega
  rw [hemb]; exact congrFun (found_v30 m c) y

/-- Window 3 stages its whole array at every point: its block is argument 3. -/
theorem whole_3 (c : Dev nD) (t : Fin cfg0.N) : (blockAt m c 3 t : S2513.Idx → EReal) = m ((c : Thread nD τ).loc main_arg3) := by
  have hf := index_facts t
  funext y
  show (entry m c main_arg3 : S2513.Idx → EReal) (((cfg0.win 3).blk t).view.emb y) = _
  have hemb : ((cfg0.win 3).blk t).view.emb y = y := by
    funext a; apply Fin.ext
    match a with
    | ⟨0, _⟩ => show win0_3.index t (0 : Fin 1) * 2513 + 1 * (y 0).val = (y 0).val; omega
  rw [hemb]; exact congrFun (entry_arg3 m c) y

/-- Window 4 stages its whole array at every point: its block is argument 4. -/
theorem whole_4 (c : Dev nD) (t : Fin cfg0.N) : (blockAt m c 4 t : S1024x2048.Idx → EReal) = m ((c : Thread nD τ).loc main_arg4) := by
  have hf := index_facts t
  funext y
  show (entry m c main_v31 : S1024x2048.Idx → EReal) (((cfg0.win 4).blk t).view.emb y) = _
  have hemb : ((cfg0.win 4).blk t).view.emb y = y := by
    funext a; apply Fin.ext
    match a with
    | ⟨0, _⟩ => show win0_4.index t (0 : Fin 2) * 1024 + 1 * (y 0).val = (y 0).val; omega
    | ⟨1, _⟩ => show win0_4.index t (1 : Fin 2) * 2048 + 1 * (y 1).val = (y 1).val; omega
  rw [hemb]; exact congrFun (found_v31 m c) y

/-- Window 5 stages its whole array at every point: its block is argument 5. -/
theorem whole_5 (c : Dev nD) (t : Fin cfg0.N) : (blockAt m c 5 t : S2048.Idx → EReal) = m ((c : Thread nD τ).loc main_arg5) := by
  have hf := index_facts t
  funext y
  show (entry m c main_arg5 : S2048.Idx → EReal) (((cfg0.win 5).blk t).view.emb y) = _
  have hemb : ((cfg0.win 5).blk t).view.emb y = y := by
    funext a; apply Fin.ext
    match a with
    | ⟨0, _⟩ => show win0_5.index t (0 : Fin 1) * 2048 + 1 * (y 0).val = (y 0).val; omega
  rw [hemb]; exact congrFun (entry_arg5 m c) y

/-- Window 6 stages its whole array at every point: its block is argument 6. -/
theorem whole_6 (c : Dev nD) (t : Fin cfg0.N) : (blockAt m c 6 t : S1024x2513.Idx → EReal) = m ((c : Thread nD τ).loc main_arg6) := by
  have hf := index_facts t
  funext y
  show (entry m c main_v32 : S1024x2513.Idx → EReal) (((cfg0.win 6).blk t).view.emb y) = _
  have hemb : ((cfg0.win 6).blk t).view.emb y = y := by
    funext a; apply Fin.ext
    match a with
    | ⟨0, _⟩ => show win0_6.index t (0 : Fin 2) * 1024 + 1 * (y 0).val = (y 0).val; omega
    | ⟨1, _⟩ => show win0_6.index t (1 : Fin 2) * 2513 + 1 * (y 1).val = (y 1).val; omega
  rw [hemb]; exact congrFun (found_v32 m c) y

/-- Window 7 stages its whole array at every point: its block is argument 7. -/
theorem whole_7 (c : Dev nD) (t : Fin cfg0.N) : (blockAt m c 7 t : S2513.Idx → EReal) = m ((c : Thread nD τ).loc main_arg7) := by
  have hf := index_facts t
  funext y
  show (entry m c main_arg7 : S2513.Idx → EReal) (((cfg0.win 7).blk t).view.emb y) = _
  have hemb : ((cfg0.win 7).blk t).view.emb y = y := by
    funext a; apply Fin.ext
    match a with
    | ⟨0, _⟩ => show win0_7.index t (0 : Fin 1) * 2513 + 1 * (y 0).val = (y 0).val; omega
  rw [hemb]; exact congrFun (entry_arg7 m c) y

/-- Window 8 stages its whole array at every point: its block is argument 8. -/
theorem whole_8 (c : Dev nD) (t : Fin cfg0.N) : (blockAt m c 8 t : S1024x2048.Idx → EReal) = m ((c : Thread nD τ).loc main_arg8) := by
  have hf := index_facts t
  funext y
  show (entry m c main_v33 : S1024x2048.Idx → EReal) (((cfg0.win 8).blk t).view.emb y) = _
  have hemb : ((cfg0.win 8).blk t).view.emb y = y := by
    funext a; apply Fin.ext
    match a with
    | ⟨0, _⟩ => show win0_8.index t (0 : Fin 2) * 1024 + 1 * (y 0).val = (y 0).val; omega
    | ⟨1, _⟩ => show win0_8.index t (1 : Fin 2) * 2048 + 1 * (y 1).val = (y 1).val; omega
  rw [hemb]; exact congrFun (found_v33 m c) y

/-- Window 9 stages its whole array at every point: its block is argument 9. -/
theorem whole_9 (c : Dev nD) (t : Fin cfg0.N) : (blockAt m c 9 t : S2048.Idx → EReal) = m ((c : Thread nD τ).loc main_arg9) := by
  have hf := index_facts t
  funext y
  show (entry m c main_arg9 : S2048.Idx → EReal) (((cfg0.win 9).blk t).view.emb y) = _
  have hemb : ((cfg0.win 9).blk t).view.emb y = y := by
    funext a; apply Fin.ext
    match a with
    | ⟨0, _⟩ => show win0_9.index t (0 : Fin 1) * 2048 + 1 * (y 0).val = (y 0).val; omega
  rw [hemb]; exact congrFun (entry_arg9 m c) y

/-- Window 12 stages its whole array at every point: its block is argument 11. -/
theorem whole_12 (c : Dev nD) (t : Fin cfg0.N) : (blockAt m c 12 t : S1024.Idx → EReal) = m ((c : Thread nD τ).loc main_arg11) := by
  have hf := index_facts t
  funext y
  show (entry m c main_arg11 : S1024.Idx → EReal) (((cfg0.win 12).blk t).view.emb y) = _
  have hemb : ((cfg0.win 12).blk t).view.emb y = y := by
    funext a; apply Fin.ext
    match a with
    | ⟨0, _⟩ => show win0_12.index t (0 : Fin 1) * 1024 + 1 * (y 0).val = (y 0).val; omega
  rw [hemb]; exact congrFun (entry_arg11 m c) y

/-- Window 13 stages its whole array at every point: its block is argument 12. -/
theorem whole_13 (c : Dev nD) (t : Fin cfg0.N) : (blockAt m c 13 t : S1024x512.Idx → EReal) = m ((c : Thread nD τ).loc main_arg12) := by
  have hf := index_facts t
  funext y
  show (entry m c main_v38 : S1024x512.Idx → EReal) (((cfg0.win 13).blk t).view.emb y) = _
  have hemb : ((cfg0.win 13).blk t).view.emb y = y := by
    funext a; apply Fin.ext
    match a with
    | ⟨0, _⟩ => show win0_13.index t (0 : Fin 2) * 1024 + 1 * (y 0).val = (y 0).val; omega
    | ⟨1, _⟩ => show win0_13.index t (1 : Fin 2) * 512 + 1 * (y 1).val = (y 1).val; omega
  rw [hemb]; exact congrFun (found_v38 m c) y

/-- Window 14 stages its whole array at every point: its block is argument 13. -/
theorem whole_14 (c : Dev nD) (t : Fin cfg0.N) : (blockAt m c 14 t : S512.Idx → EReal) = m ((c : Thread nD τ).loc main_arg13) := by
  have hf := index_facts t
  funext y
  show (entry m c main_arg13 : S512.Idx → EReal) (((cfg0.win 14).blk t).view.emb y) = _
  have hemb : ((cfg0.win 14).blk t).view.emb y = y := by
    funext a; apply Fin.ext
    match a with
    | ⟨0, _⟩ => show win0_14.index t (0 : Fin 1) * 512 + 1 * (y 0).val = (y 0).val; omega
  rw [hemb]; exact congrFun (entry_arg13 m c) y

/-- Window 15 stages its whole array at every point: its block is argument 14. -/
theorem whole_15 (c : Dev nD) (t : Fin cfg0.N) : (blockAt m c 15 t : S512x2.Idx → EReal) = m ((c : Thread nD τ).loc main_arg14) := by
  have hf := index_facts t
  funext y
  show (entry m c main_v39 : S512x2.Idx → EReal) (((cfg0.win 15).blk t).view.emb y) = _
  have hemb : ((cfg0.win 15).blk t).view.emb y = y := by
    funext a; apply Fin.ext
    match a with
    | ⟨0, _⟩ => show win0_15.index t (0 : Fin 2) * 512 + 1 * (y 0).val = (y 0).val; omega
    | ⟨1, _⟩ => show win0_15.index t (1 : Fin 2) * 2 + 1 * (y 1).val = (y 1).val; omega
  rw [hemb]; exact congrFun (found_v39 m c) y

/-- Window 16 stages its whole array at every point: its block is argument 15. -/
theorem whole_16 (c : Dev nD) (t : Fin cfg0.N) : (blockAt m c 16 t : S2.Idx → EReal) = m ((c : Thread nD τ).loc main_arg15) := by
  have hf := index_facts t
  funext y
  show (entry m c main_arg15 : S2.Idx → EReal) (((cfg0.win 16).blk t).view.emb y) = _
  have hemb : ((cfg0.win 16).blk t).view.emb y = y := by
    funext a; apply Fin.ext
    match a with
    | ⟨0, _⟩ => show win0_16.index t (0 : Fin 1) * 2 + 1 * (y 0).val = (y 0).val; omega
  rw [hemb]; exact congrFun (entry_arg15 m c) y

/-- Window 10 stages one half of W1 whole. -/
theorem half_10 (c : Dev nD) (t : Fin cfg0.N) (k : Fin 2048) (n : Fin 1024) :
    (blockAt m c 10 t : S2048x1024.Idx → EReal) (ix2 k n)
      = (m ((c : Thread nD τ).loc main_arg10) : S4096x1024.Idx → EReal) (ix2 ⟨k.val, by have := k.isLt; omega⟩ n) := by
  have hf := index_facts t
  show (entry m c main_v35 : S2048x1024.Idx → EReal) (((cfg0.win 10).blk t).view.emb (ix2 k n)) = _
  have hemb : ((cfg0.win 10).blk t).view.emb (ix2 k n : S2048x1024.Idx) = (ix2 k n : S2048x1024.Idx) := by
    funext a; apply Fin.ext
    match a with
    | ⟨0, _⟩ => show win0_10.index t (0 : Fin 2) * 2048 + 1 * k.val = k.val; omega
    | ⟨1, _⟩ => show win0_10.index t (1 : Fin 2) * 1024 + 1 * n.val = n.val; omega
  rw [hemb]; exact found_v35 m c k n

/-- Window 11 stages one half of W1 whole. -/
theorem half_11 (c : Dev nD) (t : Fin cfg0.N) (k : Fin 2048) (n : Fin 1024) :
    (blockAt m c 11 t : S2048x1024.Idx → EReal) (ix2 k n)
      = (m ((c : Thread nD τ).loc main_arg10) : S4096x1024.Idx → EReal) (ix2 ⟨2048 + k.val, by have := k.isLt; omega⟩ n) := by
  have hf := index_facts t
  show (entry m c main_v37 : S2048x1024.Idx → EReal) (((cfg0.win 11).blk t).view.emb (ix2 k n)) = _
  have hemb : ((cfg0.win 11).blk t).view.emb (ix2 k n : S2048x1024.Idx) = (ix2 k n : S2048x1024.Idx) := by
    funext a; apply Fin.ext
    match a with
    | ⟨0, _⟩ => show win0_11.index t (0 : Fin 2) * 2048 + 1 * k.val = k.val; omega
    | ⟨1, _⟩ => show win0_11.index t (1 : Fin 2) * 1024 + 1 * n.val = n.val; omega
  rw [hemb]; exact found_v37 m c k n

/-- So the weights the body loads at any point are the arguments' weights. -/
theorem params_found (c : Dev nD) (t : Fin cfg0.N) :
    blockParams (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) = argParams m c := by
  unfold blockParams argParams params
  congr 1
  · funext k n; exact congrFun (whole_2 m c t) (ix2 k n)
  · funext n; exact congrFun (whole_3 m c t) (ix1 n)
  · funext k n; exact congrFun (whole_4 m c t) (ix2 k n)
  · funext n; exact congrFun (whole_5 m c t) (ix1 n)
  · funext k n; exact congrFun (whole_6 m c t) (ix2 k n)
  · funext n; exact congrFun (whole_7 m c t) (ix1 n)
  · funext k n; exact congrFun (whole_8 m c t) (ix2 k n)
  · funext n; exact congrFun (whole_9 m c t) (ix1 n)
  · funext k n
    by_cases h : k.val < 2048
    · rw [dif_pos h]; exact half_10 m c t ⟨k.val, h⟩ n
    · rw [dif_neg h]
      refine (half_11 m c t ⟨k.val - 2048, by have := k.isLt; omega⟩ n).trans ?_
      exact congrArg (fun r => (m ((c : Thread nD τ).loc main_arg10) : S4096x1024.Idx → EReal) (ix2 r n)) (Fin.ext (by show 2048 + (k.val - 2048) = k.val; omega))
  · funext n; exact congrFun (whole_12 m c t) (ix1 n)
  · funext k n; exact congrFun (whole_13 m c t) (ix2 k n)
  · funext n; exact congrFun (whole_14 m c t) (ix1 n)
  · funext k n; exact congrFun (whole_15 m c t) (ix2 k n)
  · funext n; exact congrFun (whole_16 m c t) (ix1 n)

/-! ## What each point writes back, and the whole array -/

/-- Point t writes back block t of `flat`. -/
theorem written_back (c : Dev nD) (t : Fin cfg0.N) :
    (regionData m 0 c).flushed 17 t = ((cfg0.win 17).blk t).view.read (Elt Ideal) (flat m c) := by
  show (cfg0.win 17).cut (grid0.coords t) ((regionData m 0 c).after 17 t) = _
  rw [after_17]
  unfold stored
  rw [View.canon_unit_zero origin2]
  funext j
  obtain ⟨p, q, rfl⟩ : ∃ (p : Fin 64) (q : Fin 2513), j = ix2 p q := ⟨j 0, j 1, eq_ix2 j⟩
  refine (storedValue_apply (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) p q).trans ?_
  rw [params_found m c t]
  have hf := index_facts t
  have ht := point_lt t
  show _ = flat m c (((cfg0.win 17).blk t).view.emb (ix2 p q))
  have hemb : ((cfg0.win 17).blk t).view.emb (ix2 p q : S64x2513.Idx)
      = (ix2 (⟨64 * t.val + p.val, by have := p.isLt; omega⟩ : Fin 2048) q : S2048x2513.Idx) := by
    funext a; apply Fin.ext
    match a with
    | ⟨0, _⟩ => show win0_17.index t (0 : Fin 2) * 64 + 1 * p.val = 64 * t.val + p.val; omega
    | ⟨1, _⟩ => show win0_17.index t (1 : Fin 2) * 2513 + 1 * q.val = q.val; omega
  rw [hemb]
  have h0 : (fun k => (blockAt m c 0 t : S64x1024.Idx → EReal) (ix2 p k)) = rowAt (m ((c : Thread nD τ).loc main_arg0)) ⟨64 * t.val + p.val, by have := p.isLt; omega⟩ :=
    funext fun k => feature0_row m c t p k
  have h1 : (fun k => (blockAt m c 1 t : S64x1024.Idx → EReal) (ix2 p k)) = rowAt (m ((c : Thread nD τ).loc main_arg1)) ⟨64 * t.val + p.val, by have := p.isLt; omega⟩ :=
    funext fun k => feature1_row m c t p k
  rw [h0, h1]
  rfl

/-- An index of the result array lies in point t's block iff each coordinate lies in the block's range. -/
theorem in_block (t : Fin cfg0.N) (i : S2048x2513.Idx) :
    i ∈ ((cfg0.win 17).blk t).view.set ↔ ∀ a : Fin 2, win0_17.index t a * S64x2513.size a ≤ (i a).val ∧ (i a).val < win0_17.index t a * S64x2513.size a + S64x2513.size a := by
  show i ∈ ((View.whole main_v40).slice (win0_17.rect t)).set ↔ _
  rw [View.set_slice_whole, Rect.mem_set_unit]
  exact Iff.rfl

/-- Every row r lies in the block of point r / 64. -/
theorem tiled (i : S2048x2513.Idx) : ∃ t : Fin cfg0.N, (cfg0.win 17).flush t = true ∧ i ∈ ((cfg0.win 17).blk t).view.set := by
  have hi0 : (i 0).val < 2048 := (i 0).isLt
  have hi1 : (i 1).val < 2513 := (i 1).isLt
  have hN : (i 0).val / 64 < cfg0.N := lt_of_lt_of_eq (by omega : (i 0).val / 64 < 32) N_0.symm
  refine ⟨⟨(i 0).val / 64, hN⟩, flush0_17 _, ?_⟩
  rw [in_block]
  have hf := index_facts ⟨(i 0).val / 64, hN⟩
  intro a
  match a with
  | ⟨0, _⟩ =>
    show win0_17.index ⟨(i 0).val / 64, hN⟩ (0 : Fin 2) * 64 ≤ (i 0).val ∧ (i 0).val < win0_17.index ⟨(i 0).val / 64, hN⟩ (0 : Fin 2) * 64 + 64
    have e : win0_17.index ⟨(i 0).val / 64, hN⟩ (0 : Fin 2) = (i 0).val / 64 := hf.2.2.2.2.1
    omega
  | ⟨1, _⟩ =>
    show win0_17.index ⟨(i 0).val / 64, hN⟩ (1 : Fin 2) * 2513 ≤ (i 1).val ∧ (i 1).val < win0_17.index ⟨(i 0).val / 64, hN⟩ (1 : Fin 2) * 2513 + 2513
    have e : win0_17.index ⟨(i 0).val / 64, hN⟩ (1 : Fin 2) = 0 := hf.2.2.2.2.2.1
    omega

/-- The result array after the region. -/
theorem result_flat (c : Dev nD) : (regionData m 0 c).arrAt 17 cfg0.N = flat m c :=
  (regionData m 0 c).arrAt_eq_of_cover 17 (flat m c) (fun t _ => written_back m c t) tiled

end Cert.KernelIdeal.Hand

end
-- ==== Proof.KernelIdealResult.lean ====
/-
  The kernel program's result array, and the run that ends with it.

  The last host line reshapes the 2048 × 2513 array to 512 × 4 × 2513: entry (b, l, q) is row 4b + l, column q. Row
  4b + l of the flattened feature matrices is the feature row of batch entry b at frame 12 + 4l, and the split
  contraction of the first hidden layer equals the joined one, so the reshaped array is the specified result.
-/
import proofs.«133868_j19464791785861_1_alg».proof.Proof.KernelIdealValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Fusion

variable (m : (ℓ : Loc nD τ sig) → Buf (Elt Ideal) ℓ) (ρ : Dev nD → PrngReg)

/-- What the last host line leaves in its result buffer: the flat array reshaped. -/
theorem reshaped (c : Dev nD) :
    Pipeline.afterTail₀ cfgs (regionData m) 0 (entry0 m) [hostOps1] c main_v41
      = (shapeCast S512x4x2513 (flat m c) shapeCasts_S2048x2513_S512x4x2513 : S512x4x2513.Idx → EReal) := by
  unfold Pipeline.afterTail₀
  show StableHlo.after hostOps1 _ (Proc.devRef .tc main_v41) = _
  after_results
  exact congrArg (fun v : S2048x2513.Idx → EReal => (shapeCast S512x4x2513 v shapeCasts_S2048x2513_S512x4x2513 : S512x4x2513.Idx → EReal))
    ((Pipeline.withArrays_arr spec0 launch0.win.arr_inj c _ _ 17).trans (result_flat m c))

/-- Entry (b, l, q) of the reshaped array is row 4b + l, column q of the flat one. -/
theorem reshaped_apply (c : Dev nD) (b : Fin 512) (l : Fin 4) (q : Fin 2513) :
    (shapeCast S512x4x2513 (flat m c) shapeCasts_S2048x2513_S512x4x2513 : S512x4x2513.Idx → EReal) (ix3 b l q)
      = flat m c (ix2 ⟨4 * b.val + l.val, by have := b.isLt; have := l.isLt; omega⟩ q) :=
  shapeCast_apply _ _ _ _ (by
    rw [Shape.rowMajor_val_two, Shape.rowMajor_val_three]
    show (4 * b.val + l.val) * 2513 + q.val = (b.val * 4 + l.val) * 2513 + q.val
    omega)

/-- The reshaped array is the specified result. -/
theorem reshaped_eq (c : Dev nD) :
    (shapeCast S512x4x2513 (flat m c) shapeCasts_S2048x2513_S512x4x2513 : S512x4x2513.Idx → EReal)
      = resultArr (m ((c : Thread nD τ).loc main_arg0)) (m ((c : Thread nD τ).loc main_arg1)) (argParams m c) := by
  funext i
  obtain ⟨b, l, q, rfl⟩ : ∃ (b : Fin 512) (l : Fin 4) (q : Fin 2513), i = ix3 b l q := ⟨i 0, i 1, i 2, eq_ix3 i⟩
  rw [reshaped_apply, resultArr_ix3]
  unfold flat result
  show fusedSplit (argParams m c) (rowAt (m ((c : Thread nD τ).loc main_arg0)) ⟨4 * b.val + l.val, _⟩) (rowAt (m ((c : Thread nD τ).loc main_arg1)) ⟨4 * b.val + l.val, _⟩) q = _
  rw [rowAt_flat, rowAt_flat, fusedSplit_eq_fusedJoined]

/-- THE KERNEL PROGRAM'S RUN at the ideal values: it ends with the specified array in its result buffer and its
    sixteen arguments unchanged. -/
theorem kernel_value : θ_run defs (onTc (τ := τ) (main (F := Ideal))) ⟨m, fun _ => 0, ρ⟩ (fun r => ∀ c : Dev nD,
      r.2.mem ((c.tc : Thread nD τ).loc main_v41) = resultArr (m ((c.tc : Thread nD τ).loc main_arg0)) (m ((c.tc : Thread nD τ).loc main_arg1)) (argParams m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨((h c).2 main_v41 (Pipeline.mem_restRefs_of main_v41 (by decide) (by decide))).trans ((reshaped m c).trans (reshaped_eq m c)),
        unchanged_of_post m (regionData m) (regionData_A m) r h c⟩)
    (region_run m ρ)

end Cert.KernelIdeal.Hand

end
-- ==== Proof.ReferenceBranches.lean ====
/-
  The reference's four branch projections at an entry.

  The reference projects sixteen frames (12 … 27) of x0 and then keeps every fourth of the results (positions
  0, 4, 8, 12: frames 12, 16, 20, 24); it picks every fourth frame (0, 4, …, 24) of x1, projects the seven, and
  keeps the last four (frames 12, 16, 20, 24 again). Either way entry (b, l, n) of a kept projection is the affine
  image of the feature row of batch entry b at frame 12 + 4l.
-/
import proofs.«133868_j19464791785861_1_alg».proof.Proof.Gen.ReferenceIdeal.Read
import proofs.«133868_j19464791785861_1_alg».proof.Proof.Spec

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Fusion

/-! ## Picking frames: a gather along the middle axis of a rank-3 array

The operand is [A, N, D], the start indices one column [E, 1] of frame numbers, the result [A, E, D]: result axes 0 and 2
are offset axes reading operand axes 0 and 2 whole, operand axis 1 is collapsed and is the one axis the single index
component names. Entry (a, e, k) of the result is the operand at (a, f, k), f the word at row e of the column read as a
signed integer and clamped into [0, N − 1]. -/

section Pick
variable {α : Type}

/-- The dimension numbers of such a gather. -/
abbrev pickDims (A N D E : Nat)
    (wf : GatherDims.WF (⟨3, ![A, N, D]⟩ : Shape) (⟨2, ![E, 1]⟩ : Shape) (⟨3, ![A, E, D]⟩ : Shape) [0, 2] [1] [] [1] [] 1 ![A, 1, D]) :
    GatherDims (⟨3, ![A, N, D]⟩ : Shape) (⟨2, ![E, 1]⟩ : Shape) (⟨3, ![A, E, D]⟩ : Shape) where
  offsetDims := [0, 2]
  collapsedSliceDims := [1]
  operandBatchingDims := []
  startIndicesBatchingDims := []
  startIndexMap := [1]
  indexVectorDim := 1
  sliceSizes := ![A, 1, D]
  wf := wf

/-- Entry (a, e, k) reads the operand at (a, f, k), f the clamped frame number of row e. -/
theorem pick_apply {A N D E w : Nat} (hN : 0 < N)
    (wf : GatherDims.WF (⟨3, ![A, N, D]⟩ : Shape) (⟨2, ![E, 1]⟩ : Shape) (⟨3, ![A, E, D]⟩ : Shape) [0, 2] [1] [] [1] [] 1 ![A, 1, D])
    (x : (⟨3, ![A, N, D]⟩ : Shape).Idx → α) (idx : IVec (⟨2, ![E, 1]⟩ : Shape) w) (a : Fin A) (e : Fin E) (k : Fin D) :
    Host.gather (pickDims A N D E wf) x idx (ix3 a e k)
      = x (ix3 a ⟨min (idx (ix2 e (0 : Fin 1))).toInt.toNat (N - 1), by omega⟩ k) := by
  unfold Host.gather
  congr 1
  funext c
  refine Fin.ext ?_
  -- no axis is a batching axis
  have hnb : ∀ c : Fin 3, (pickDims A N D E wf).batchCoord (ix3 a e k) c = 0 := fun c =>
    GatherDims.batchCoord_eq_zero _ _ _ List.not_mem_nil
  show (pickDims A N D E wf).start (ix3 a e k) idx c + (pickDims A N D E wf).batchCoord (ix3 a e k) c
      + (pickDims A N D E wf).offCoord (ix3 a e k) c = _
  rw [hnb c, Nat.add_zero]
  match c with
  | ⟨0, _⟩ =>
    -- axis 0 is kept whole: no start index names it, and the result's first offset axis reads it
    have hs : (pickDims A N D E wf).start (ix3 a e k) idx (0 : Fin 3) = 0 := by
      unfold GatherDims.start
      rw [dif_neg (by decide : ¬ (0 : Fin 3) ∈ ([1] : List (Fin 3)))]
    have ho : (pickDims A N D E wf).offCoord (ix3 a e k) (0 : Fin 3) = a.val := by
      unfold GatherDims.offCoord
      rw [dif_pos ((GatherDims.mem_sKept _ _).mpr ⟨(by decide : ¬ (0 : Fin 3) ∈ ([1] : List (Fin 3))), List.not_mem_nil⟩)]
      rfl
    show (pickDims A N D E wf).start (ix3 a e k) idx (0 : Fin 3) + (pickDims A N D E wf).offCoord (ix3 a e k) (0 : Fin 3) = a.val
    rw [hs, ho, Nat.zero_add]
  | ⟨1, _⟩ =>
    -- axis 1 is the picked one: collapsed, so no offset, and its start is the word of row e, clamped
    have ho : (pickDims A N D E wf).offCoord (ix3 a e k) (1 : Fin 3) = 0 :=
      GatherDims.offCoord_eq_zero _ _ _ (fun h => ((GatherDims.mem_sKept _ _).mp h).1 (List.mem_singleton.mpr rfl))
    have hsi : ∀ c : Fin (pickDims A N D E wf).startIndexMap.length,
        (pickDims A N D E wf).siIdx (ix3 a e k) c = ix2 e (0 : Fin 1) := fun c => by
      have hc : c.val = 0 := Nat.lt_one_iff.mp c.isLt
      funext b; refine Fin.ext ?_
      match b with
      | ⟨0, _⟩ => rfl
      | ⟨1, _⟩ => exact hc
    have hs : (pickDims A N D E wf).start (ix3 a e k) idx (1 : Fin 3)
        = min (idx (ix2 e (0 : Fin 1))).toInt.toNat (N - 1) := by
      unfold GatherDims.start
      rw [dif_pos (List.mem_singleton.mpr rfl : (1 : Fin 3) ∈ ([1] : List (Fin 3))), hsi]
      rfl
    show (pickDims A N D E wf).start (ix3 a e k) idx (1 : Fin 3) + (pickDims A N D E wf).offCoord (ix3 a e k) (1 : Fin 3)
      = min (idx (ix2 e (0 : Fin 1))).toInt.toNat (N - 1)
    rw [hs, ho, Nat.add_zero]
  | ⟨2, _⟩ =>
    -- axis 2 is kept whole, read by the result's second offset axis
    have hs : (pickDims A N D E wf).start (ix3 a e k) idx (2 : Fin 3) = 0 := by
      unfold GatherDims.start
      rw [dif_neg (by decide : ¬ (2 : Fin 3) ∈ ([1] : List (Fin 3)))]
    have ho : (pickDims A N D E wf).offCoord (ix3 a e k) (2 : Fin 3) = k.val := by
      unfold GatherDims.offCoord
      rw [dif_pos ((GatherDims.mem_sKept _ _).mpr ⟨(by decide : ¬ (2 : Fin 3) ∈ ([1] : List (Fin 3))), List.not_mem_nil⟩)]
      rfl
    show (pickDims A N D E wf).start (ix3 a e k) idx (2 : Fin 3) + (pickDims A N D E wf).offCoord (ix3 a e k) (2 : Fin 3) = k.val
    rw [hs, ho, Nat.zero_add]

/-- The same with the frame named: if row e's word, read signed and clamped, is the frame f, entry (a, e, k) is the
    operand at (a, f, k). -/
theorem pick_apply_of {A N D E w : Nat} (hN : 0 < N)
    (wf : GatherDims.WF (⟨3, ![A, N, D]⟩ : Shape) (⟨2, ![E, 1]⟩ : Shape) (⟨3, ![A, E, D]⟩ : Shape) [0, 2] [1] [] [1] [] 1 ![A, 1, D])
    (x : (⟨3, ![A, N, D]⟩ : Shape).Idx → α) (idx : IVec (⟨2, ![E, 1]⟩ : Shape) w) (a : Fin A) (e : Fin E) (k : Fin D)
    (f : Fin N) (hf : min (idx (ix2 e (0 : Fin 1))).toInt.toNat (N - 1) = f.val) :
    Host.gather (pickDims A N D E wf) x idx (ix3 a e k) = x (ix3 a f k) := by
  rw [pick_apply hN]
  exact congrArg (fun g => x (ix3 a g k)) (Fin.ext hf)

end Pick

/-! ## The columns of frame numbers

Each column is 4·(row number) + 0 with the wrap of negative entries applied; no entry is negative, so row e holds 4e,
which is inside the array it indexes and so is its own clamp. -/

/-- Row e of the first four-row column, clamped into the sixteen projected frames, is 4e. -/
theorem quad0_at (e : Fin 4) : min (val_main_v19 (F := Ideal) (ix2 e (0 : Fin 1))).toInt.toNat (16 - 1) = 4 * e.val := by
  simp only [val_main_v19_apply, val_main_v18_apply, val_main_v15_apply, val_main_v17_apply, val_main_v13_apply,
    val_main_v11_apply, val_main_v9_apply, val_main_v10_apply, val_main_c_apply, val_main_v12_apply, val_main_c_0_apply,
    val_main_v14_apply, val_main_c_1_apply, val_main_v16_apply, val_main_c_2_apply]
  revert e
  decide

/-- So is row e of the second four-row column. -/
theorem quad1_at (e : Fin 4) : min (val_main_v26 (F := Ideal) (ix2 e (0 : Fin 1))).toInt.toNat (16 - 1) = 4 * e.val := by
  simp only [val_main_v26_apply, val_main_v25_apply, val_main_v22_apply, val_main_v24_apply, val_main_v13_apply,
    val_main_v11_apply, val_main_v9_apply, val_main_v10_apply, val_main_c_apply, val_main_v12_apply, val_main_c_0_apply,
    val_main_v21_apply, val_main_c_3_apply, val_main_v23_apply, val_main_c_4_apply]
  revert e
  decide

/-- Row e of the seven-row column, clamped into the twenty-eight frames, is 4e. -/
theorem sept_at (e : Fin 7) : min (val_main_v38 (F := Ideal) (ix2 e (0 : Fin 1))).toInt.toNat (28 - 1) = 4 * e.val := by
  simp only [val_main_v38_apply, val_main_v37_apply, val_main_v34_apply, val_main_v36_apply, val_main_v32_apply,
    val_main_v30_apply, val_main_v28_apply, val_main_v29_apply, val_main_c_5_apply, val_main_v31_apply, val_main_c_6_apply,
    val_main_v33_apply, val_main_c_7_apply, val_main_v35_apply, val_main_c_8_apply]
  revert e
  decide

/-! ## Branch 0: project sixteen frames, keep every fourth -/

/-- Position 4l of the sixteen projected frames of x0 is frame 12 + 4l: the projection there is the affine image of that
    frame's feature row. -/
theorem score0_at (x0 : (⟨S512x28x1024, .f32⟩ : BufTy).Contents (Elt Ideal)) (x2 : (⟨S1024x2513, .f32⟩ : BufTy).Contents (Elt Ideal)) (x3 : (⟨S2513, .f32⟩ : BufTy).Contents (Elt Ideal)) (b : Fin 512) (l : Fin 4) (q : Fin 2513) :
    val_main_v20 (F := Ideal) x0 x2 x3 (ix3 b l q) = affine (fun k n => x2 (ix2 k n)) (fun n => x3 (ix1 n)) (frameAt x0 b l) q := by
  have hp : val_main_v20 (F := Ideal) x0 x2 x3 (ix3 b l q)
      = val_main_v4 (F := Ideal) x0 x2 x3 (ix3 b (⟨4 * l.val, by have := l.isLt; omega⟩ : Fin 16) q) := by
    unfold val_main_v20
    exact pick_apply_of (by decide) gather_S512x16x2513_S4x1_S512x4x2513_02_1_n_n_1_1_51212513_wf _ _ b l q _ (quad0_at l)
  rw [hp, val_main_v4_apply, val_main_v1_apply, val_main_v3_apply, val_main_v2_apply]
  unfold affine
  show (∑ k : Fin 1024, _) + _ = _
  congr 1
  · refine Finset.sum_congr rfl fun k _ => ?_
    rw [val_main_v0_apply]
    congr 1
    · unfold frameAt
      congr 1
      funext a
      match a with
      | ⟨0, _⟩ => rfl
      | ⟨1, _⟩ => rfl
      | ⟨2, _⟩ => rfl
    · congr 1
      funext a
      match a with
      | ⟨0, _⟩ => rfl
      | ⟨1, _⟩ => rfl
  · congr 1
    funext a
    match a with
    | ⟨0, _⟩ => rfl

/-- The same for the context projection of x0. -/
theorem context0_at (x0 : (⟨S512x28x1024, .f32⟩ : BufTy).Contents (Elt Ideal)) (x4 : (⟨S1024x2048, .f32⟩ : BufTy).Contents (Elt Ideal)) (x5 : (⟨S2048, .f32⟩ : BufTy).Contents (Elt Ideal)) (b : Fin 512) (l : Fin 4) (h : Fin 2048) :
    val_main_v27 (F := Ideal) x0 x4 x5 (ix3 b l h) = affine (fun k n => x4 (ix2 k n)) (fun n => x5 (ix1 n)) (frameAt x0 b l) h := by
  have hp : val_main_v27 (F := Ideal) x0 x4 x5 (ix3 b l h)
      = val_main_v8 (F := Ideal) x0 x4 x5 (ix3 b (⟨4 * l.val, by have := l.isLt; omega⟩ : Fin 16) h) := by
    unfold val_main_v27
    exact pick_apply_of (by decide) gather_S512x16x2048_S4x1_S512x4x2048_02_1_n_n_1_1_51212048_wf _ _ b l h _ (quad1_at l)
  rw [hp, val_main_v8_apply, val_main_v5_apply, val_main_v7_apply, val_main_v6_apply]
  unfold affine
  show (∑ k : Fin 1024, _) + _ = _
  congr 1
  · refine Finset.sum_congr rfl fun k _ => ?_
    rw [val_main_v0_apply]
    congr 1
    · unfold frameAt
      congr 1
      funext a
      match a with
      | ⟨0, _⟩ => rfl
      | ⟨1, _⟩ => rfl
      | ⟨2, _⟩ => rfl
    · congr 1
      funext a
      match a with
      | ⟨0, _⟩ => rfl
      | ⟨1, _⟩ => rfl
  · congr 1
    funext a
    match a with
    | ⟨0, _⟩ => rfl

/-! ## Branch 1: pick every fourth frame, project the seven, keep the last four -/

/-- Position 3 + l of the seven picked frames of x1 is frame 4·(3 + l) = 12 + 4l. -/
theorem picked_at (x1 : (⟨S512x28x1024, .f32⟩ : BufTy).Contents (Elt Ideal)) (b : Fin 512) (l : Fin 4) (k : Fin 1024) :
    val_main_v39 (F := Ideal) x1 (ix3 b (⟨3 + l.val, by have := l.isLt; omega⟩ : Fin 7) k) = frameAt x1 b l k := by
  unfold val_main_v39 frameAt
  exact pick_apply_of (by decide) gather_S512x28x1024_S7x1_S512x7x1024_02_1_n_n_1_1_51211024_wf x1 _ b _ k _
    ((sept_at _).trans (by show 4 * (3 + l.val) = 12 + 4 * l.val; omega))

/-- So kept position l of the score projection of the picked frames is the affine image of frame 12 + 4l's row. -/
theorem score1_at (x1 : (⟨S512x28x1024, .f32⟩ : BufTy).Contents (Elt Ideal)) (x6 : (⟨S1024x2513, .f32⟩ : BufTy).Contents (Elt Ideal)) (x7 : (⟨S2513, .f32⟩ : BufTy).Contents (Elt Ideal)) (b : Fin 512) (l : Fin 4) (q : Fin 2513) :
    val_main_v48 (F := Ideal) x1 x6 x7 (ix3 b l q) = affine (fun k n => x6 (ix2 k n)) (fun n => x7 (ix1 n)) (frameAt x1 b l) q := by
  rw [val_main_v48_apply, val_main_v43_apply, val_main_v40_apply, val_main_v42_apply, val_main_v41_apply]
  unfold affine
  show (∑ k : Fin 1024, _) + _ = _
  congr 1
  · refine Finset.sum_congr rfl fun k _ => ?_
    congr 1
    · refine Eq.trans (congrArg (val_main_v39 (F := Ideal) x1) ?_) (picked_at x1 b l k)
      funext a
      match a with
      | ⟨0, _⟩ => rfl
      | ⟨1, _⟩ => rfl
      | ⟨2, _⟩ => rfl
    · congr 1
      funext a
      match a with
      | ⟨0, _⟩ => rfl
      | ⟨1, _⟩ => rfl
  · congr 1
    funext a
    match a with
    | ⟨0, _⟩ => rfl

/-- The same for the context projection of the picked frames. -/
theorem context1_at (x1 : (⟨S512x28x1024, .f32⟩ : BufTy).Contents (Elt Ideal)) (x8 : (⟨S1024x2048, .f32⟩ : BufTy).Contents (Elt Ideal)) (x9 : (⟨S2048, .f32⟩ : BufTy).Contents (Elt Ideal)) (b : Fin 512) (l : Fin 4) (h : Fin 2048) :
    val_main_v49 (F := Ideal) x1 x8 x9 (ix3 b l h) = affine (fun k n => x8 (ix2 k n)) (fun n => x9 (ix1 n)) (frameAt x1 b l) h := by
  rw [val_main_v49_apply, val_main_v47_apply, val_main_v44_apply, val_main_v46_apply, val_main_v45_apply]
  unfold affine
  show (∑ k : Fin 1024, _) + _ = _
  congr 1
  · refine Finset.sum_congr rfl fun k _ => ?_
    congr 1
    · refine Eq.trans (congrArg (val_main_v39 (F := Ideal) x1) ?_) (picked_at x1 b l k)
      funext a
      match a with
      | ⟨0, _⟩ => rfl
      | ⟨1, _⟩ => rfl
      | ⟨2, _⟩ => rfl
    · congr 1
      funext a
      match a with
      | ⟨0, _⟩ => rfl
      | ⟨1, _⟩ => rfl
  · congr 1
    funext a
    match a with
    | ⟨0, _⟩ => rfl

end Cert.ReferenceIdeal.Hand

end
-- ==== Proof.ReferenceValue.lean ====
/-
  The reference's result is the specified array.

  Entry (b, l, q) of the reference's result is read back through its operations. The two context arrays are joined along
  their last axis and the 512 x 4 leading coordinates are flattened to the row 4b + l, so row 4b + l of the joined array is
  the two context rows of (b, l) laid end to end. Each dense layer contracts that row against a weight array and adds a
  bias, the first two followed by max(., 0). The softmax takes the larger logit (from -infinity upward), subtracts it,
  exponentiates, and divides by the sum of the two exponentials (the sum starts from 0). The two columns of the softmax,
  broadcast along the 2513 scores, weight the two score rows, and the weighted rows are added.
-/
import proofs.«133868_j19464791785861_1_alg».proof.Proof.ReferenceBranches
import proofs.«133868_j19464791785861_1_alg».proof.Proof.LibExtremum

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Fusion

/-- Row 4b + l of the 2048 flattened rows. -/
abbrev row (b : Fin 512) (l : Fin 4) : Fin 2048 := ⟨4 * b.val + l.val, by have := b.isLt; have := l.isLt; omega⟩

section Rows

variable (x0 x1 : (⟨S512x28x1024, .f32⟩ : BufTy).Contents (Elt Ideal))
  (x2 : (⟨S1024x2513, .f32⟩ : BufTy).Contents (Elt Ideal)) (x3 : (⟨S2513, .f32⟩ : BufTy).Contents (Elt Ideal))
  (x4 : (⟨S1024x2048, .f32⟩ : BufTy).Contents (Elt Ideal)) (x5 : (⟨S2048, .f32⟩ : BufTy).Contents (Elt Ideal))
  (x6 : (⟨S1024x2513, .f32⟩ : BufTy).Contents (Elt Ideal)) (x7 : (⟨S2513, .f32⟩ : BufTy).Contents (Elt Ideal))
  (x8 : (⟨S1024x2048, .f32⟩ : BufTy).Contents (Elt Ideal)) (x9 : (⟨S2048, .f32⟩ : BufTy).Contents (Elt Ideal))
  (x10 : (⟨S4096x1024, .f32⟩ : BufTy).Contents (Elt Ideal)) (x11 : (⟨S1024, .f32⟩ : BufTy).Contents (Elt Ideal))
  (x12 : (⟨S1024x512, .f32⟩ : BufTy).Contents (Elt Ideal)) (x13 : (⟨S512, .f32⟩ : BufTy).Contents (Elt Ideal))
  (x14 : (⟨S512x2, .f32⟩ : BufTy).Contents (Elt Ideal)) (x15 : (⟨S2, .f32⟩ : BufTy).Contents (Elt Ideal))
  (b : Fin 512) (l : Fin 4)

/- The row's quantities, spelt over the arrays: the two context rows, the two hidden rows, the logits. -/
local notation "C0" => affine (fun k n => x4 (ix2 k n)) (fun n => x5 (ix1 n)) (frameAt x0 b l)
local notation "C1" => affine (fun k n => x8 (ix2 k n)) (fun n => x9 (ix1 n)) (frameAt x1 b l)
local notation "H1" => fun m => rectify (affine (fun k n => x10 (ix2 k n)) (fun n => x11 (ix1 n)) (join C0 C1) m)
local notation "H2" => fun p => rectify (affine (fun k n => x12 (ix2 k n)) (fun n => x13 (ix1 n)) H1 p)
local notation "ZZ" => affine (fun k n => x14 (ix2 k n)) (fun n => x15 (ix1 n)) H2

/-- The joined context array at (b, l, k): the two context rows of (b, l) laid end to end, at k. -/
theorem joined3_at (k : Fin 4096) :
    val_main_v50 (F := Ideal) x0 x1 x4 x5 x8 x9 (ix3 b l k) = join C0 C1 k := by
  have e0 := context0_at x0 x4 x5 b l
  have e1 := context1_at x1 x8 x9 b l
  unfold val_main_v50
  generalize val_main_v27 (F := Ideal) x0 x4 x5 = y0 at e0 ⊢
  generalize val_main_v49 (F := Ideal) x1 x8 x9 = y1 at e1 ⊢
  unfold join
  by_cases hk : k.val < 2048
  · rw [dif_pos hk]
    refine (concatenate_pair_apply_left (2 : Fin S512x4x4096.rank) y0 y1 concatenates_S512x4x2048_S512x4x2048_S512x4x4096_d2
      (ix3 b l k) rfl (ix3 b l ⟨k.val, hk⟩) ?_).trans (e0 ⟨k.val, hk⟩)
    intro a
    match a with
    | ⟨0, _⟩ => rfl
    | ⟨1, _⟩ => rfl
    | ⟨2, _⟩ => rfl
  · rw [dif_neg hk]
    have hk' : k.val - 2048 < 2048 := by have := k.isLt; omega
    refine (concatenate_pair_apply_right (2 : Fin S512x4x4096.rank) y0 y1 concatenates_S512x4x2048_S512x4x2048_S512x4x4096_d2
      (ix3 b l k) rfl rfl (ix3 b l ⟨k.val - 2048, hk'⟩) ?_ ?_).trans (e1 ⟨k.val - 2048, hk'⟩)
    · intro a ha
      match a, ha with
      | ⟨0, _⟩, _ => rfl
      | ⟨1, _⟩, _ => rfl
      | ⟨2, _⟩, ha => exact absurd rfl ha
    · show k.val - 2048 + 2048 = k.val
      omega

/-- Row 4b + l of the flattened joined array. -/
theorem joined_at (k : Fin 4096) :
    val_main_v51 (F := Ideal) x0 x1 x4 x5 x8 x9 (ix2 (row b l) k) = join C0 C1 k := by
  have hi : idx_main_v51 (ix2 (row b l) k) = ix3 b l k := by
    have hb := b.isLt
    have hl := l.isLt
    have hk := k.isLt
    funext a
    match a with
    | ⟨0, _⟩ => exact Fin.ext (by show ((4 * b.val + l.val) * 4096 + k.val) / 16384 = b.val; omega)
    | ⟨1, _⟩ => exact Fin.ext (by show ((4 * b.val + l.val) * 4096 + k.val) / 4096 % 4 = l.val; omega)
    | ⟨2, _⟩ => exact Fin.ext (by show ((4 * b.val + l.val) * 4096 + k.val) % 4096 = k.val; omega)
  rw [val_main_v51_apply, hi]
  exact joined3_at x0 x1 x4 x5 x8 x9 b l k

/-- The first hidden layer at row 4b + l. -/
theorem hidden1_at (m : Fin 1024) :
    val_main_v56 (F := Ideal) x0 x1 x4 x5 x8 x9 x10 x11 (ix2 (row b l) m) = H1 m := by
  have hb : idx_main_v53 (idx_main_v54 (ix2 (row b l) m)) = ix1 m :=
    funext fun a => by match a with | ⟨0, _⟩ => rfl
  rw [val_main_v56_apply, val_main_v55_apply, val_main_v52_apply, val_main_v54_apply, val_main_v53_apply, hb,
    val_main_call0_v0_apply, val_main_call0_cst_apply]
  simp only [Ideal.maximumf_def, Ideal.addf_def, Ideal.ofBits_def, Ideal.ofBits_zero_f32]
  unfold rectify affine
  refine congrArg (fun s => max (s + x11 (ix1 m)) 0) (Finset.sum_congr rfl fun k _ => ?_)
  have hl : lidx_main_v52 (ix2 (row b l) m) k = ix2 (row b l) k :=
    funext fun a => by match a with | ⟨0, _⟩ => rfl | ⟨1, _⟩ => rfl
  have hr : ridx_main_v52 (ix2 (row b l) m) k = ix2 k m :=
    funext fun a => by match a with | ⟨0, _⟩ => rfl | ⟨1, _⟩ => rfl
  rw [hl, hr, joined_at x0 x1 x4 x5 x8 x9 b l k]
  rfl

/-- The second hidden layer at row 4b + l. -/
theorem hidden2_at (p : Fin 512) :
    val_main_v61 (F := Ideal) x0 x1 x4 x5 x8 x9 x10 x11 x12 x13 (ix2 (row b l) p) = H2 p := by
  have hb : idx_main_v58 (idx_main_v59 (ix2 (row b l) p)) = ix1 p :=
    funext fun a => by match a with | ⟨0, _⟩ => rfl
  rw [val_main_v61_apply, val_main_v60_apply, val_main_v57_apply, val_main_v59_apply, val_main_v58_apply, hb,
    val_main_call1_v0_apply, val_main_call1_cst_apply]
  simp only [Ideal.maximumf_def, Ideal.addf_def, Ideal.ofBits_def, Ideal.ofBits_zero_f32]
  unfold rectify affine
  refine congrArg (fun s => max (s + x13 (ix1 p)) 0) (Finset.sum_congr rfl fun k _ => ?_)
  have hl : lidx_main_v57 (ix2 (row b l) p) k = ix2 (row b l) k :=
    funext fun a => by match a with | ⟨0, _⟩ => rfl | ⟨1, _⟩ => rfl
  have hr : ridx_main_v57 (ix2 (row b l) p) k = ix2 k p :=
    funext fun a => by match a with | ⟨0, _⟩ => rfl | ⟨1, _⟩ => rfl
  rw [hl, hr, hidden1_at x0 x1 x4 x5 x8 x9 x10 x11 b l k]
  rfl

/-- The two logits at row 4b + l. -/
theorem logits_at (j : Fin 2) :
    val_main_v65 (F := Ideal) x0 x1 x4 x5 x8 x9 x10 x11 x12 x13 x14 x15 (ix2 (row b l) j) = ZZ j := by
  have hb : idx_main_v63 (idx_main_v64 (ix2 (row b l) j)) = ix1 j :=
    funext fun a => by match a with | ⟨0, _⟩ => rfl
  rw [val_main_v65_apply, val_main_v62_apply, val_main_v64_apply, val_main_v63_apply, hb]
  simp only [Ideal.addf_def]
  unfold affine
  refine congrArg (fun s => s + x15 (ix1 j)) (Finset.sum_congr rfl fun k _ => ?_)
  have hl : lidx_main_v62 (ix2 (row b l) j) k = ix2 (row b l) k :=
    funext fun a => by match a with | ⟨0, _⟩ => rfl | ⟨1, _⟩ => rfl
  have hr : ridx_main_v62 (ix2 (row b l) j) k = ix2 k j :=
    funext fun a => by match a with | ⟨0, _⟩ => rfl | ⟨1, _⟩ => rfl
  rw [hl, hr, hidden2_at x0 x1 x4 x5 x8 x9 x10 x11 x12 x13 b l k]
  rfl

/-- The larger logit of row 4b + l, taken from −∞ upward. -/
theorem peak_at :
    val_main_v68 (F := Ideal) x0 x1 x4 x5 x8 x9 x10 x11 x12 x13 x14 x15 (ix1 (row b l)) = peak ZZ := by
  have hz := logits_at x0 x1 x4 x5 x8 x9 x10 x11 x12 x13 x14 x15 b l
  have hR : S2048x2.Reduces [1] S2048 := by decide
  have hlift : ∀ k : Fin 2, hR.lift (ix1 (row b l)) k = ix2 (row b l) k := fun k =>
    funext fun a => Fin.ext (by match a with | ⟨0, _⟩ => rfl | ⟨1, _⟩ => rfl)
  rw [val_main_v68_apply, val_main_v67_apply, val_main_cst_9_apply]
  unfold val_main_v66
  generalize val_main_v65 (F := Ideal) x0 x1 x4 x5 x8 x9 x10 x11 x12 x13 x14 x15 = y at hz ⊢
  rw [Ideal.maximumf_def, Cert.Extremum.ofBits_negInf_f32]
  refine congrArg (max ⊥) ?_
  refine (Cert.Extremum.hostReduce_max_single y (val_main_cst (F := Ideal)) reducesTo_S2048x2_S2048_d1 hR h_S_
    Cert.Extremum.ofBits_negInf_f32 (ix1 (row b l))).trans ?_
  show (⨆ k : Fin 2, y (hR.lift (ix1 (row b l)) k)) = ⨆ k : Fin 2, ZZ k
  exact iSup_congr fun k => by rw [hlift k, hz k]

/-- The exponential of a logit less the larger one, at row 4b + l. -/
theorem exp_at (j : Fin 2) :
    val_main_v72 (F := Ideal) x0 x1 x4 x5 x8 x9 x10 x11 x12 x13 x14 x15 (ix2 (row b l) j) = Ideal.exp (ZZ j - peak ZZ) := by
  have hi : idx_main_v69 (idx_main_v70 (ix2 (row b l) j)) = ix1 (row b l) :=
    funext fun a => by match a with | ⟨0, _⟩ => rfl
  rw [val_main_v72_apply, val_main_v71_apply, val_main_v70_apply, val_main_v69_apply, hi,
    peak_at x0 x1 x4 x5 x8 x9 x10 x11 x12 x13 x14 x15 b l, logits_at x0 x1 x4 x5 x8 x9 x10 x11 x12 x13 x14 x15 b l j]
  rfl

/-- The softmax of the two logits, at row 4b + l. -/
theorem soft_at (j : Fin 2) :
    val_main_v76 (F := Ideal) x0 x1 x4 x5 x8 x9 x10 x11 x12 x13 x14 x15 (ix2 (row b l) j) = soft ZZ j := by
  have hi : idx_main_v74 (idx_main_v75 (ix2 (row b l) j)) = ix1 (row b l) :=
    funext fun a => by match a with | ⟨0, _⟩ => rfl
  have hs : ∀ k : Fin 2, idx_main_v73 (ix1 (row b l)) k = ix2 (row b l) k := fun k =>
    funext fun a => by match a with | ⟨0, _⟩ => rfl | ⟨1, _⟩ => rfl
  rw [val_main_v76_apply, val_main_v75_apply, val_main_v74_apply, hi, val_main_v73_apply, val_main_cst_10_apply,
    exp_at x0 x1 x4 x5 x8 x9 x10 x11 x12 x13 x14 x15 b l j]
  simp only [hs, exp_at x0 x1 x4 x5 x8 x9 x10 x11 x12 x13 x14 x15 b l, Ideal.hostDivf_def, Ideal.ofBits_def,
    Ideal.ofBits_zero_f32, zero_add]
  rfl

/-- Column j of the softmax, reshaped to [512, 4, 2], at (b, l). -/
theorem soft3_at (j : Fin 2) :
    val_main_v77 (F := Ideal) x0 x1 x4 x5 x8 x9 x10 x11 x12 x13 x14 x15 (ix3 b l j) = soft ZZ j := by
  have hi : idx_main_v77 (ix3 b l j) = ix2 (row b l) j := by
    have hb := b.isLt
    have hl := l.isLt
    have hj := j.isLt
    funext a
    match a with
    | ⟨0, _⟩ => exact Fin.ext (by show ((b.val * 4 + l.val) * 2 + j.val) / 2 = 4 * b.val + l.val; omega)
    | ⟨1, _⟩ => exact Fin.ext (by show ((b.val * 4 + l.val) * 2 + j.val) % 2 = j.val; omega)
  rw [val_main_v77_apply, hi]
  exact soft_at x0 x1 x4 x5 x8 x9 x10 x11 x12 x13 x14 x15 b l j

/-- Entry (b, l, q) of the result: the two scores weighted by the two softmax columns. -/
theorem value_at (q : Fin 2513) :
    val_main_v84 (F := Ideal) x0 x1 x2 x3 x4 x5 x6 x7 x8 x9 x10 x11 x12 x13 x14 x15 (ix3 b l q)
      = affine (fun k n => x2 (ix2 k n)) (fun n => x3 (ix1 n)) (frameAt x0 b l) q * soft ZZ 0
        + affine (fun k n => x6 (ix2 k n)) (fun n => x7 (ix1 n)) (frameAt x1 b l) q * soft ZZ 1 := by
  have h0 : idx_main_v78 (idx_main_v79 (ix3 b l q)) = ix3 b l (0 : Fin 2) :=
    funext fun a => by match a with | ⟨0, _⟩ => rfl | ⟨1, _⟩ => rfl | ⟨2, _⟩ => rfl
  have h1 : idx_main_v81 (idx_main_v82 (ix3 b l q)) = ix3 b l (1 : Fin 2) :=
    funext fun a => by match a with | ⟨0, _⟩ => rfl | ⟨1, _⟩ => rfl | ⟨2, _⟩ => rfl
  rw [val_main_v84_apply, val_main_v80_apply, val_main_v83_apply, val_main_v79_apply, val_main_v78_apply, h0,
    val_main_v82_apply, val_main_v81_apply, h1,
    soft3_at x0 x1 x4 x5 x8 x9 x10 x11 x12 x13 x14 x15 b l 0, soft3_at x0 x1 x4 x5 x8 x9 x10 x11 x12 x13 x14 x15 b l 1,
    score0_at x0 x2 x3 b l q, score1_at x1 x6 x7 b l q]
  rfl

end Rows

theorem reference_value (x0 : (⟨S512x28x1024, .f32⟩ : BufTy).Contents (Elt Ideal)) (x1 : (⟨S512x28x1024, .f32⟩ : BufTy).Contents (Elt Ideal)) (x2 : (⟨S1024x2513, .f32⟩ : BufTy).Contents (Elt Ideal)) (x3 : (⟨S2513, .f32⟩ : BufTy).Contents (Elt Ideal)) (x4 : (⟨S1024x2048, .f32⟩ : BufTy).Contents (Elt Ideal)) (x5 : (⟨S2048, .f32⟩ : BufTy).Contents (Elt Ideal)) (x6 : (⟨S1024x2513, .f32⟩ : BufTy).Contents (Elt Ideal)) (x7 : (⟨S2513, .f32⟩ : BufTy).Contents (Elt Ideal)) (x8 : (⟨S1024x2048, .f32⟩ : BufTy).Contents (Elt Ideal)) (x9 : (⟨S2048, .f32⟩ : BufTy).Contents (Elt Ideal)) (x10 : (⟨S4096x1024, .f32⟩ : BufTy).Contents (Elt Ideal)) (x11 : (⟨S1024, .f32⟩ : BufTy).Contents (Elt Ideal)) (x12 : (⟨S1024x512, .f32⟩ : BufTy).Contents (Elt Ideal)) (x13 : (⟨S512, .f32⟩ : BufTy).Contents (Elt Ideal)) (x14 : (⟨S512x2, .f32⟩ : BufTy).Contents (Elt Ideal)) (x15 : (⟨S2, .f32⟩ : BufTy).Contents (Elt Ideal)) :
    val_main_v84 (F := Ideal) x0 x1 x2 x3 x4 x5 x6 x7 x8 x9 x10 x11 x12 x13 x14 x15 = resultArr x0 x1 (params x2 x3 x4 x5 x6 x7 x8 x9 x10 x11 x12 x13 x14 x15) := by
  funext i
  obtain ⟨b, l, q, rfl⟩ : ∃ (b : Fin 512) (l : Fin 4) (q : Fin 2513), i = ix3 b l q := ⟨i 0, i 1, i 2, eq_ix3 i⟩
  rw [resultArr_ix3]
  exact value_at x0 x1 x2 x3 x4 x5 x6 x7 x8 x9 x10 x11 x12 x13 x14 x15 b l q

end Cert.ReferenceIdeal.Hand

end
-- ==== Proof.lean ====
/-
  The two-branch scorer with a learned gate over four kept frames: kernel against reference.

  The kernel program cuts frames 12, 16, 20 and 24 out of each feature array on the host, flattens them to 2048
  rows, and in ONE pipelined region computes, for 64 rows at a time, both branches' scores and contexts, the gate (a
  three-layer perceptron over the two contexts, then a softmax over its two logits) and the gated sum of the scores. The
  reference projects first and picks frames afterwards (sixteen frames of x0 projected, every fourth kept; every fourth
  frame of x1 picked, seven projected, the last four kept), and contracts the concatenated contexts against W1 in
  one sum where the kernel adds two half sums.

  Over the extended reals the two compute the same array. A projection is row-wise, so projecting and then keeping a
  frame is keeping it and then projecting; both keep frames 12 + 4l, l = 0 … 3. A sum over 4096 = 2048 + 2048 indices is
  the sum of its halves, addition on the extended reals being commutative and associative — nothing needs an entry to
  be finite, so the precondition is never opened. A change of float format is the identity at the ideal values.

  The modules: Spec (the result as a function of the arguments, and the two spellings of the first hidden layer);
  KernelIdeal{Data, Body, Entry, Run} (the region's proof data, the body's triple, the host lines around the region,
  the run and the frame — written for any float instance) and Kernel{…} (the same at the word-level program's names);
  KernelIdeal{Block, Inputs, Value, Result} (the stored block at an entry, the arrays the region finds, the blocks tiled
  into the result array, the final reshape); Reference{Branches, Value} (the reference's run read as the specified
  array).
-/
import proofs.«133868_j19464791785861_1_alg».proof.Defs
import proofs.«133868_j19464791785861_1_alg».proof.Proof.Gen.Kernel
import proofs.«133868_j19464791785861_1_alg».proof.Proof.Gen.KernelIdeal
import proofs.«133868_j19464791785861_1_alg».proof.Proof.Gen.ReferenceIdeal
import proofs.«133868_j19464791785861_1_alg».proof.Proof.Gen.Pre_finite_inputs
import proofs.«133868_j19464791785861_1_alg».proof.Proof.Gen.ReferenceIdeal.Run
import proofs.«133868_j19464791785861_1_alg».proof.Proof.Gen.ReferenceIdeal.Read
import proofs.«133868_j19464791785861_1_alg».proof.Proof.KernelRun
import proofs.«133868_j19464791785861_1_alg».proof.Proof.KernelIdealResult
import proofs.«133868_j19464791785861_1_alg».proof.Proof.ReferenceValue
import Idealize.ShloMosaic.Adequacy
import Idealize.ShloMosaic.Init

noncomputable section

namespace Cert.Proof

open Idealize.ShloMosaic Idealize.SL.Sem

/-- The word-level program runs to the end, faults nowhere and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the idealized program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the sixteen arguments both programs end with the specified array in their result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hand.kernel_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v84_eq, Cert.ReferenceIdeal.Hand.reference_value, a0, a1, a2, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
